-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S32768x4 : Shape := ⟨2, ![32768, 4]⟩
abbrev S4x4100 : Shape := ⟨2, ![4, 4100]⟩
abbrev S4 : Shape := ⟨1, ![4]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S32768x4 : S_.BroadcastsInDim S32768x4 (![] : Fin 0 → Fin S32768x4.rank)
  reducesTo_S32768x4_S_d0_1 : S32768x4.ReducesTo [0, 1] S_
  bcast_S_S4x4100 : S_.BroadcastsInDim S4x4100 (![] : Fin 0 → Fin S4x4100.rank)
  reducesTo_S4x4100_S_d0_1 : S4x4100.ReducesTo [0, 1] S_
  bcast_S_S4 : S_.BroadcastsInDim S4 (![] : Fin 0 → Fin S4.rank)
  reducesTo_S4_S_d0 : S4.ReducesTo [0] S_

variable [Facts]

def fn_part4 {F : FTy → Type} [FloatOps F] (main_arg14 : FVec F S4 .f32) (main_v63 : IVec S_ 1) (main_v67 : IVec S_ 1) : IVec S_ 1 :=
  let main_v68 : IVec S_ 1 := andi main_v63 main_v67
  let main_v69 : FVec F S4 .f32 := Host.absf main_arg14
  let main_cst_26 : FVec F S_ .f32 := constant S_ .f32 0x7F800000#32
  let main_v70 : FVec F S4 .f32 := broadcastInDim S4 ![] bcast_S_S4 main_cst_26
  let main_v71 : IVec S4 1 := cmpf .olt main_v69 main_v70
  let main_c_27 : IVec S_ 1 := constantI S_ 1 1#1
  let main_v72 : IVec S_ 1 := (fun x v => Host.reduce IntOp.andi x v reducesTo_S4_S_d0 h_S_) main_v71 main_c_27
  let main_v73 : IVec S_ 1 := andi main_v68 main_v72
  main_v73

def fn_part3 {F : FTy → Type} [FloatOps F] (main_arg11 : FVec F S4 .f32) (main_arg12 : FVec F S4x4100 .f32) (main_arg13 : FVec F S4 .f32) (main_arg14 : FVec F S4 .f32) (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  let main_v54 : FVec F S4 .f32 := Host.absf main_arg11
  let main_cst_20 : FVec F S_ .f32 := constant S_ .f32 0x7F800000#32
  let main_v55 : FVec F S4 .f32 := broadcastInDim S4 ![] bcast_S_S4 main_cst_20
  let main_v56 : IVec S4 1 := cmpf .olt main_v54 main_v55
  let main_c_21 : IVec S_ 1 := constantI S_ 1 1#1
  let main_v57 : IVec S_ 1 := (fun x v => Host.reduce IntOp.andi x v reducesTo_S4_S_d0 h_S_) main_v56 main_c_21
  let main_v58 : IVec S_ 1 := andi main_v53 main_v57
  let main_v59 : FVec F S4x4100 .f32 := Host.absf main_arg12
  let main_cst_22 : FVec F S_ .f32 := constant S_ .f32 0x7F800000#32
  let main_v60 : FVec F S4x4100 .f32 := broadcastInDim S4x4100 ![] bcast_S_S4x4100 main_cst_22
  let main_v61 : IVec S4x4100 1 := cmpf .olt main_v59 main_v60
  let main_c_23 : IVec S_ 1 := constantI S_ 1 1#1
  let main_v62 : IVec S_ 1 := (fun x v => Host.reduce IntOp.andi x v reducesTo_S4x4100_S_d0_1 h_S_) main_v61 main_c_23
  let main_v63 : IVec S_ 1 := andi main_v58 main_v62
  let main_v64 : FVec F S4 .f32 := Host.absf main_arg13
  let main_cst_24 : FVec F S_ .f32 := constant S_ .f32 0x7F800000#32
  let main_v65 : FVec F S4 .f32 := broadcastInDim S4 ![] bcast_S_S4 main_cst_24
  let main_v66 : IVec S4 1 := cmpf .olt main_v64 main_v65
  let main_c_25 : IVec S_ 1 := constantI S_ 1 1#1
  let main_v67 : IVec S_ 1 := (fun x v => Host.reduce IntOp.andi x v reducesTo_S4_S_d0 h_S_) main_v66 main_c_25
  fn_part4 (F := F) main_arg14 main_v63 main_v67

def fn_part2 {F : FTy → Type} [FloatOps F] (main_arg7 : FVec F S4 .f32) (main_arg8 : FVec F S4 .f32) (main_arg9 : FVec F S4x4100 .f32) (main_arg10 : FVec F S4 .f32) (main_arg11 : FVec F S4 .f32) (main_arg12 : FVec F S4x4100 .f32) (main_arg13 : FVec F S4 .f32) (main_arg14 : FVec F S4 .f32) (main_v33 : IVec S_ 1) : IVec S_ 1 :=
  let main_v34 : FVec F S4 .f32 := Host.absf main_arg7
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  let main_v39 : FVec F S4 .f32 := Host.absf main_arg8
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  let main_v44 : FVec F S4x4100 .f32 := Host.absf main_arg9
  let main_cst_16 : FVec F S_ .f32 := constant S_ .f32 0x7F800000#32
  let main_v45 : FVec F S4x4100 .f32 := broadcastInDim S4x4100 ![] bcast_S_S4x4100 main_cst_16
  let main_v46 : IVec S4x4100 1 := cmpf .olt main_v44 main_v45
  let main_c_17 : IVec S_ 1 := constantI S_ 1 1#1
  let main_v47 : IVec S_ 1 := (fun x v => Host.reduce IntOp.andi x v reducesTo_S4x4100_S_d0_1 h_S_) main_v46 main_c_17
  let main_v48 : IVec S_ 1 := andi main_v43 main_v47
  let main_v49 : FVec F S4 .f32 := Host.absf main_arg10
  let main_cst_18 : FVec F S_ .f32 := constant S_ .f32 0x7F800000#32
  let main_v50 : FVec F S4 .f32 := broadcastInDim S4 ![] bcast_S_S4 main_cst_18
  fn_part3 (F := F) main_arg11 main_arg12 main_arg13 main_arg14 main_v48 main_v49 main_v50

def fn_part1 {F : FTy → Type} [FloatOps F] (main_arg4 : FVec F S4 .f32) (main_arg5 : FVec F S4 .f32) (main_arg6 : FVec F S4x4100 .f32) (main_arg7 : FVec F S4 .f32) (main_arg8 : FVec F S4 .f32) (main_arg9 : FVec F S4x4100 .f32) (main_arg10 : FVec F S4 .f32) (main_arg11 : FVec F S4 .f32) (main_arg12 : FVec F S4x4100 .f32) (main_arg13 : FVec F S4 .f32) (main_arg14 : FVec F S4 .f32) (main_v13 : IVec S_ 1) (main_v16 : IVec S4x4100 1) : IVec S_ 1 :=
  let main_c_5 : IVec S_ 1 := constantI S_ 1 1#1
  let main_v17 : IVec S_ 1 := (fun x v => Host.reduce IntOp.andi x v reducesTo_S4x4100_S_d0_1 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S4x4100 .f32 := Host.absf main_arg6
  let main_cst_10 : FVec F S_ .f32 := constant S_ .f32 0x7F800000#32
  let main_v30 : FVec F S4x4100 .f32 := broadcastInDim S4x4100 ![] bcast_S_S4x4100 main_cst_10
  let main_v31 : IVec S4x4100 1 := cmpf .olt main_v29 main_v30
  let main_c_11 : IVec S_ 1 := constantI S_ 1 1#1
  let main_v32 : IVec S_ 1 := (fun x v => Host.reduce IntOp.andi x v reducesTo_S4x4100_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S32768x4096 .f32) (main_arg1 : FVec F S32768x4 .f32) (main_arg2 : FVec F S32768x4 .f32) (main_arg3 : FVec F S4x4100 .f32) (main_arg4 : FVec F S4 .f32) (main_arg5 : FVec F S4 .f32) (main_arg6 : FVec F S4x4100 .f32) (main_arg7 : FVec F S4 .f32) (main_arg8 : FVec F S4 .f32) (main_arg9 : FVec F S4x4100 .f32) (main_arg10 : FVec F S4 .f32) (main_arg11 : FVec F S4 .f32) (main_arg12 : FVec F S4x4100 .f32) (main_arg13 : FVec F S4 .f32) (main_arg14 : FVec F S4 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S32768x4 .f32 := Host.absf main_arg1
  let main_cst_0 : FVec F S_ .f32 := constant S_ .f32 0x7F800000#32
  let main_v5 : FVec F S32768x4 .f32 := broadcastInDim S32768x4 ![] bcast_S_S32768x4 main_cst_0
  let main_v6 : IVec S32768x4 1 := cmpf .olt main_v4 main_v5
  let main_c_1 : IVec S_ 1 := constantI S_ 1 1#1
  let main_v7 : IVec S_ 1 := (fun x v => Host.reduce IntOp.andi x v reducesTo_S32768x4_S_d0_1 h_S_) main_v6 main_c_1
  let main_v8 : IVec S_ 1 := andi main_v3 main_v7
  let main_v9 : FVec F S32768x4 .f32 := Host.absf main_arg2
  let main_cst_2 : FVec F S_ .f32 := constant S_ .f32 0x7F800000#32
  let main_v10 : FVec F S32768x4 .f32 := broadcastInDim S32768x4 ![] bcast_S_S32768x4 main_cst_2
  let main_v11 : IVec S32768x4 1 := cmpf .olt main_v9 main_v10
  let main_c_3 : IVec S_ 1 := constantI S_ 1 1#1
  let main_v12 : IVec S_ 1 := (fun x v => Host.reduce IntOp.andi x v reducesTo_S32768x4_S_d0_1 h_S_) main_v11 main_c_3
  let main_v13 : IVec S_ 1 := andi main_v8 main_v12
  let main_v14 : FVec F S4x4100 .f32 := Host.absf main_arg3
  let main_cst_4 : FVec F S_ .f32 := constant S_ .f32 0x7F800000#32
  let main_v15 : FVec F S4x4100 .f32 := broadcastInDim S4x4100 ![] bcast_S_S4x4100 main_cst_4
  let main_v16 : IVec S4x4100 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S32768x4096 : Shape := ⟨2, ![32768, 4096]⟩
abbrev S32768x4 : Shape := ⟨2, ![32768, 4]⟩
abbrev S4x4100 : Shape := ⟨2, ![4, 4100]⟩
abbrev S4 : Shape := ⟨1, ![4]⟩
abbrev S16x4100 : Shape := ⟨2, ![16, 4100]⟩
abbrev S16 : Shape := ⟨1, ![16]⟩
abbrev S16x4096 : Shape := ⟨2, ![16, 4096]⟩
abbrev S16x4 : Shape := ⟨2, ![16, 4]⟩
abbrev S4096x16 : Shape := ⟨2, ![4096, 16]⟩
abbrev S4x16 : Shape := ⟨2, ![4, 16]⟩
abbrev S1x16 : Shape := ⟨2, ![1, 16]⟩
abbrev S512x4096 : Shape := ⟨2, ![512, 4096]⟩
abbrev S512x4 : Shape := ⟨2, ![512, 4]⟩
abbrev S512x16 : Shape := ⟨2, ![512, 16]⟩
abbrev S1x4 : Shape := ⟨2, ![1, 4]⟩
abbrev S512x1 : Shape := ⟨2, ![512, 1]⟩

abbrev nBuf : Space → Nat
  | .hbm => 28
  | .vmem => 14
  | .smem => 0
  | _ => 0

abbrev bufTy : (tb : Table) → Fin (tcTables nBuf tb) → BufTy
  | .hbm, ⟨0, _⟩ => ⟨S32768x4096, .f32⟩
  | .hbm, ⟨1, _⟩ => ⟨S32768x4, .f32⟩
  | .hbm, ⟨2, _⟩ => ⟨S32768x4, .f32⟩
  | .hbm, ⟨3, _⟩ => ⟨S4x4100, .f32⟩
  | .hbm, ⟨4, _⟩ => ⟨S4, .f32⟩
  | .hbm, ⟨5, _⟩ => ⟨S4, .f32⟩
  | .hbm, ⟨6, _⟩ => ⟨S4x4100, .f32⟩
  | .hbm, ⟨7, _⟩ => ⟨S4, .f32⟩
  | .hbm, ⟨8, _⟩ => ⟨S4, .f32⟩
  | .hbm, ⟨9, _⟩ => ⟨S4x4100, .f32⟩
  | .hbm, ⟨10, _⟩ => ⟨S4, .f32⟩
  | .hbm, ⟨11, _⟩ => ⟨S4, .f32⟩
  | .hbm, ⟨12, _⟩ => ⟨S4x4100, .f32⟩
  | .hbm, ⟨13, _⟩ => ⟨S4, .f32⟩
  | .hbm, ⟨14, _⟩ => ⟨S4, .f32⟩
  | .hbm, ⟨15, _⟩ => ⟨S16x4100, .f32⟩
  | .hbm, ⟨16, _⟩ => ⟨S16, .f32⟩
  | .hbm, ⟨17, _⟩ => ⟨S16, .f32⟩
  | .hbm, ⟨18, _⟩ => ⟨S16x4096, .f32⟩
  | .hbm, ⟨19, _⟩ => ⟨S16x4, .f32⟩
  | .hbm, ⟨20, _⟩ => ⟨S4096x16, .f32⟩
  | .hbm, ⟨21, _⟩ => ⟨S4096x16, .bf16⟩
  | .hbm, ⟨22, _⟩ => ⟨S4x16, .f32⟩
  | .hbm, ⟨23, _⟩ => ⟨S4x16, .bf16⟩
  | .hbm, ⟨24, _⟩ => ⟨S1x16, .f32⟩
  | .hbm, ⟨25, _⟩ => ⟨S1x16, .f32⟩
  | .hbm, ⟨26, _⟩ => ⟨S32768x4, .f32⟩
  | .hbm, ⟨27, _⟩ => ⟨S32768x4, .f32⟩
  | .local _ .vmem, ⟨0, _⟩ => ⟨S512x4096, .f32⟩
  | .local _ .vmem, ⟨1, _⟩ => ⟨S512x4096, .f32⟩
  | .local _ .vmem, ⟨2, _⟩ => ⟨S512x4, .f32⟩
  | .local _ .vmem, ⟨3, _⟩ => ⟨S512x4, .f32⟩
  | .local _ .vmem, ⟨4, _⟩ => ⟨S512x4, .f32⟩
  | .local _ .vmem, ⟨5, _⟩ => ⟨S512x4, .f32⟩
  | .local _ .vmem, ⟨6, _⟩ => ⟨S4096x16, .bf16⟩
  | .local _ .vmem, ⟨7, _⟩ => ⟨S4x16, .bf16⟩
  | .local _ .vmem, ⟨8, _⟩ => ⟨S1x16, .f32⟩
  | .local _ .vmem, ⟨9, _⟩ => ⟨S1x16, .f32⟩
  | .local _ .vmem, ⟨10, _⟩ => ⟨S512x4, .f32⟩
  | .local _ .vmem, ⟨11, _⟩ => ⟨S512x4, .f32⟩
  | .local _ .vmem, ⟨12, _⟩ => ⟨S512x4, .f32⟩
  | .local _ .vmem, ⟨13, _⟩ => ⟨S512x4, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11_0 : Ref sig .tc := ⟨.hbm, 26, rfl⟩
abbrev main_v11_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S4x4100_S4x4100_S4x4100_S4x4100_S16x4100_d0 : Shape.Concatenates [S4x4100, S4x4100, S4x4100, S4x4100] S16x4100 0
  concatenates_S4_S4_S4_S4_S16_d0 : Shape.Concatenates [S4, S4, S4, S4] S16 0
  slices_S16x4100_S16x4096_0_0 : S16x4100.Slices ![0, 0] S16x4096
  slices_S16x4100_S16x4_0_4096 : S16x4100.Slices ![0, 4096] S16x4
  transposes_S16x4096_S4096x16_1_0 : S16x4096.Transposes [1, 0] S4096x16
  bitsLt_bf16_f32 : FTy.bits .bf16 < FTy.bits .f32
  transposes_S16x4_S4x16_1_0 : S16x4.Transposes [1, 0] S4x16
  shapeCasts_S16_S1x16 : S16.ShapeCasts S1x16
  inb_S512x4096_S512x4096_0_0 : ∀ a, (![0, 0] : Fin 2 → Nat) a + S512x4096.size a ≤ S512x4096.size a
  h_S512x4096 : 0 < S512x4096.numel
  inb_S512x4_S512x4_0_0 : ∀ a, (![0, 0] : Fin 2 → Nat) a + S512x4.size a ≤ S512x4.size a
  h_S512x4 : 0 < S512x4.numel
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S4x16_S4x16_0_0 : ∀ a, (![0, 0] : Fin 2 → Nat) a + S4x16.size a ≤ S4x16.size a
  h_S4x16 : 0 < S4x16.numel
  shapeCasts_S4x16_S4x16 : S4x16.ShapeCasts S4x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  slices_S512x16_o0_0_S512x4 : S512x16.Slices ![0, 0] S512x4
  slices_S512x16_o0_4_S512x4 : S512x16.Slices ![0, 4] S512x4
  slices_S512x16_o0_8_S512x4 : S512x16.Slices ![0, 8] S512x4
  slices_S512x16_o0_12_S512x4 : S512x16.Slices ![0, 12] S512x4
  slices_S1x16_o0_0_S1x4 : S1x16.Slices ![0, 0] S1x4
  slices_S1x16_o0_4_S1x4 : S1x16.Slices ![0, 4] S1x4
  slices_S1x16_o0_8_S1x4 : S1x16.Slices ![0, 8] S1x4
  slices_S1x16_o0_12_S1x4 : S1x16.Slices ![0, 12] S1x4
  broadcasts_S1x4_S512x4 : S1x4.Broadcasts S512x4
  slices_S512x4_o0_0_S512x1 : S512x4.Slices ![0, 0] S512x1
  slices_S512x4_o0_1_S512x1 : S512x4.Slices ![0, 1] S512x1
  slices_S512x4_o0_2_S512x1 : S512x4.Slices ![0, 2] S512x1
  slices_S512x4_o0_3_S512x1 : S512x4.Slices ![0, 3] S512x1
  concatenates_S512x1_S512x1_S512x1_S512x1_S512x4_d1 : Shape.Concatenates [S512x1, S512x1, S512x1, S512x1] S512x4 1
  dot_S512x4096_S4096x16_S512x16_1_0_0_1_n_n_wf : DotDims.WF S512x4096 S4096x16 S512x16 [1] [0] [0] [1] [] []
  dot_S512x4_S4x16_S512x16_1_0_0_1_n_n_wf : DotDims.WF S512x4 S4x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S32768x4096.size a
  hwx0_0 : ∀ i : grid0.Coords, EltTy.bits .f32 = 32 ∨ (Rect.block (s := S32768x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4.size a ≤ S32768x4.size a
  hwx0_1 : ∀ i : grid0.Coords, EltTy.bits .f32 = 32 ∨ (Rect.block (s := S32768x4) S512x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4.size a ≤ S32768x4.size a
  hwx0_2 : ∀ i : grid0.Coords, EltTy.bits .f32 = 32 ∨ (Rect.block (s := S32768x4) S512x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x16.size a ≤ S4096x16.size a
  hwx0_3 : ∀ i : grid0.Coords, EltTy.bits .bf16 = 32 ∨ (Rect.block (s := S4096x16) S4096x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x16.size a ≤ S4x16.size a
  hwx0_4 : ∀ i : grid0.Coords, EltTy.bits .bf16 = 32 ∨ (Rect.block (s := S4x16) S4x16.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x4.size a ≤ S32768x4.size a
  hwx0_7 : ∀ i : grid0.Coords, EltTy.bits .f32 = 32 ∨ (Rect.block (s := S32768x4) S512x4.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x4.size a ≤ S32768x4.size a
  hwx0_8 : ∀ i : grid0.Coords, EltTy.bits .f32 = 32 ∨ (Rect.block (s := S32768x4) S512x4.size (cc0_transform_8 i) (hinb0_8 i)).WholeWords (EltTy.packing .f32)

variable [Facts₀]

def dot_S512x4096_S4096x16_S512x16_1_0_0_1_n_n : DotDims S512x4096 S4096x16 S512x16 where
  lhsContracting := [1]
  rhsContracting := [0]
  lhsNonContracting := [0]
  rhsNonContracting := [1]
  lhsBatch := []
  rhsBatch := []
  wf := dot_S512x4096_S4096x16_S512x16_1_0_0_1_n_n_wf
def dot_S512x4_S4x16_S512x16_1_0_0_1_n_n : DotDims S512x4 S4x16 S512x16 where
  lhsContracting := [1]
  rhsContracting := [0]
  lhsNonContracting := [0]
  rhsNonContracting := [1]
  lhsBatch := []
  rhsBatch := []
  wf := dot_S512x4_S4x16_S512x16_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4096x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S4x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11_0) S512x4.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11_1) S512x4.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S32768x4 : Shape := ⟨2, ![32768, 4]⟩
abbrev S4x4100 : Shape := ⟨2, ![4, 4100]⟩
abbrev S4 : Shape := ⟨1, ![4]⟩
abbrev S32768x4100 : Shape := ⟨2, ![32768, 4100]⟩
abbrev S4100x4 : Shape := ⟨2, ![4100, 4]⟩
abbrev S1x4 : Shape := ⟨2, ![1, 4]⟩
abbrev S32768x1 : Shape := ⟨2, ![32768, 1]⟩
abbrev S32768 : Shape := ⟨1, ![32768]⟩
abbrev S_ : Shape := ⟨0, ![]⟩

abbrev nBuf : Space → Nat
  | .hbm => 166
  | .vmem => 0
  | .smem => 0
  | _ => 0

abbrev hbmTy0_0 (i : Nat) : BufTy := match i % 128 with
  | 0 => ⟨S32768x4096, .f32⟩
  | 1 => ⟨S32768x4, .f32⟩
  | 2 => ⟨S32768x4, .f32⟩
  | 3 => ⟨S4x4100, .f32⟩
  | 4 => ⟨S4, .f32⟩
  | 5 => ⟨S4, .f32⟩
  | 6 => ⟨S4x4100, .f32⟩
  | 7 => ⟨S4, .f32⟩
  | 8 => ⟨S4, .f32⟩
  | 9 => ⟨S4x4100, .f32⟩
  | 10 => ⟨S4, .f32⟩
  | 11 => ⟨S4, .f32⟩
  | 12 => ⟨S4x4100, .f32⟩
  | 13 => ⟨S4, .f32⟩
  | 14 => ⟨S4, .f32⟩
  | 15 => ⟨S32768x4100, .f32⟩
  | 16 => ⟨S4100x4, .f32⟩
  | 17 => ⟨S32768x4, .f32⟩
  | 18 => ⟨S1x4, .f32⟩
  | 19 => ⟨S32768x4, .f32⟩
  | 20 => ⟨S32768x4, .f32⟩
  | 21 => ⟨S1x4, .f32⟩
  | 22 => ⟨S32768x4, .f32⟩
  | 23 => ⟨S32768x4, .f32⟩
  | 24 => ⟨S32768x4, .f32⟩
  | 25 => ⟨S32768x1, .f32⟩
  | 26 => ⟨S32768, .f32⟩
  | 27 => ⟨S32768x1, .f32⟩
  | 28 => ⟨S32768, .f32⟩
  | 29 => ⟨S32768x1, .f32⟩
  | 30 => ⟨S32768, .f32⟩
  | 31 => ⟨S32768x1, .f32⟩
  | 32 => ⟨S32768, .f32⟩
  | 33 => ⟨S32768, .f32⟩
  | 34 => ⟨S32768, .f32⟩
  | 35 => ⟨S32768, .f32⟩
  | 36 => ⟨S32768, .f32⟩
  | 37 => ⟨S32768, .f32⟩
  | 38 => ⟨S32768, .f32⟩
  | 39 => ⟨S32768, .f32⟩
  | 40 => ⟨S32768, .f32⟩
  | 41 => ⟨S32768x1, .f32⟩
  | 42 => ⟨S32768x1, .f32⟩
  | 43 => ⟨S32768x1, .f32⟩
  | 44 => ⟨S32768x1, .f32⟩
  | 45 => ⟨S32768x4, .f32⟩
  | 46 => ⟨S32768x4, .f32⟩
  | 47 => ⟨S32768x4, .f32⟩
  | 48 => ⟨S_, .f32⟩
  | 49 => ⟨S32768x4, .f32⟩
  | 50 => ⟨S32768x4, .f32⟩
  | 51 => ⟨S_, .f32⟩
  | 52 => ⟨S32768x4, .f32⟩
  | 53 => ⟨S32768x4, .f32⟩
  | 54 => ⟨S4100x4, .f32⟩
  | 55 => ⟨S32768x4, .f32⟩
  | 56 => ⟨S1x4, .f32⟩
  | 57 => ⟨S32768x4, .f32⟩
  | 58 => ⟨S32768x4, .f32⟩
  | 59 => ⟨S1x4, .f32⟩
  | 60 => ⟨S32768x4, .f32⟩
  | 61 => ⟨S32768x4, .f32⟩
  | 62 => ⟨S32768x4, .f32⟩
  | 63 => ⟨S32768x1, .f32⟩
  | 64 => ⟨S32768, .f32⟩
  | 65 => ⟨S32768x1, .f32⟩
  | 66 => ⟨S32768, .f32⟩
  | 67 => ⟨S32768x1, .f32⟩
  | 68 => ⟨S32768, .f32⟩
  | 69 => ⟨S32768x1, .f32⟩
  | 70 => ⟨S32768, .f32⟩
  | 71 => ⟨S32768, .f32⟩
  | 72 => ⟨S32768, .f32⟩
  | 73 => ⟨S32768, .f32⟩
  | 74 => ⟨S32768, .f32⟩
  | 75 => ⟨S32768, .f32⟩
  | 76 => ⟨S32768, .f32⟩
  | 77 => ⟨S32768, .f32⟩
  | 78 => ⟨S32768, .f32⟩
  | 79 => ⟨S32768x1, .f32⟩
  | 80 => ⟨S32768x1, .f32⟩
  | 81 => ⟨S32768x1, .f32⟩
  | 82 => ⟨S32768x1, .f32⟩
  | 83 => ⟨S32768x4, .f32⟩
  | 84 => ⟨S32768x4, .f32⟩
  | 85 => ⟨S32768x4, .f32⟩
  | 86 => ⟨S_, .f32⟩
  | 87 => ⟨S32768x4, .f32⟩
  | 88 => ⟨S32768x4, .f32⟩
  | 89 => ⟨S_, .f32⟩
  | 90 => ⟨S32768x4, .f32⟩
  | 91 => ⟨S32768x4, .f32⟩
  | 92 => ⟨S4100x4, .f32⟩
  | 93 => ⟨S32768x4, .f32⟩
  | 94 => ⟨S1x4, .f32⟩
  | 95 => ⟨S32768x4, .f32⟩
  | 96 => ⟨S32768x4, .f32⟩
  | 97 => ⟨S1x4, .f32⟩
  | 98 => ⟨S32768x4, .f32⟩
  | 99 => ⟨S32768x4, .f32⟩
  | 100 => ⟨S32768x4, .f32⟩
  | 101 => ⟨S32768x1, .f32⟩
  | 102 => ⟨S32768, .f32⟩
  | 103 => ⟨S32768x1, .f32⟩
  | 104 => ⟨S32768, .f32⟩
  | 105 => ⟨S32768x1, .f32⟩
  | 106 => ⟨S32768, .f32⟩
  | 107 => ⟨S32768x1, .f32⟩
  | 108 => ⟨S32768, .f32⟩
  | 109 => ⟨S32768, .f32⟩
  | 110 => ⟨S32768, .f32⟩
  | 111 => ⟨S32768, .f32⟩
  | 112 => ⟨S32768, .f32⟩
  | 113 => ⟨S32768, .f32⟩
  | 114 => ⟨S32768, .f32⟩
  | 115 => ⟨S32768, .f32⟩
  | 116 => ⟨S32768, .f32⟩
  | 117 => ⟨S32768x1, .f32⟩
  | 118 => ⟨S32768x1, .f32⟩
  | 119 => ⟨S32768x1, .f32⟩
  | 120 => ⟨S32768x1, .f32⟩
  | 121 => ⟨S32768x4, .f32⟩
  | 122 => ⟨S32768x4, .f32⟩
  | 123 => ⟨S4100x4, .f32⟩
  | 124 => ⟨S32768x4, .f32⟩
  | 125 => ⟨S1x4, .f32⟩
  | 126 => ⟨S32768x4, .f32⟩
  | 127 => ⟨S32768x4, .f32⟩
  | _ => ⟨S32768x4096, .f32⟩

abbrev hbmTy0_1 (i : Nat) : BufTy := match i % 128 with
  | 0 => ⟨S1x4, .f32⟩
  | 1 => ⟨S32768x4, .f32⟩
  | 2 => ⟨S32768x4, .f32⟩
  | 3 => ⟨S32768x4, .f32⟩
  | 4 => ⟨S32768x1, .f32⟩
  | 5 => ⟨S32768, .f32⟩
  | 6 => ⟨S32768x1, .f32⟩
  | 7 => ⟨S32768, .f32⟩
  | 8 => ⟨S32768x1, .f32⟩
  | 9 => ⟨S32768, .f32⟩
  | 10 => ⟨S32768x1, .f32⟩
  | 11 => ⟨S32768, .f32⟩
  | 12 => ⟨S32768, .f32⟩
  | 13 => ⟨S32768, .f32⟩
  | 14 => ⟨S32768, .f32⟩
  | 15 => ⟨S32768, .f32⟩
  | 16 => ⟨S32768, .f32⟩
  | 17 => ⟨S32768, .f32⟩
  | 18 => ⟨S32768, .f32⟩
  | 19 => ⟨S32768, .f32⟩
  | 20 => ⟨S32768x1, .f32⟩
  | 21 => ⟨S32768x1, .f32⟩
  | 22 => ⟨S32768x1, .f32⟩
  | 23 => ⟨S32768x1, .f32⟩
  | 24 => ⟨S32768x4, .f32⟩
  | 25 => ⟨S32768x4, .f32⟩
  | 26 => ⟨S32768x4, .f32⟩
  | 27 => ⟨S_, .f32⟩
  | 28 => ⟨S32768x4, .f32⟩
  | 29 => ⟨S32768x4, .f32⟩
  | 30 => ⟨S_, .f32⟩
  | 31 => ⟨S32768x4, .f32⟩
  | 32 => ⟨S32768x4, .f32⟩
  | 33 => ⟨S32768x4, .f32⟩
  | 34 => ⟨S32768x4, .f32⟩
  | 35 => ⟨S32768x4, .f32⟩
  | 36 => ⟨S32768x4, .f32⟩
  | 37 => ⟨S32768x4, .f32⟩
  | _ => ⟨S32768x4096, .f32⟩

abbrev hbmTy (i : Nat) : BufTy := match i / 128 with
  | 0 => hbmTy0_0 i
  | 1 => hbmTy0_1 i
  | _ => ⟨S32768x4096, .f32⟩

abbrev bufTy : (tb : Table) → Fin (tcTables nBuf tb) → BufTy
  | .hbm, ⟨i, _⟩ => hbmTy i
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst : Ref sig .tc := ⟨.hbm, 48, rfl⟩
abbrev main_v33 : Ref sig .tc := ⟨.hbm, 49, rfl⟩
abbrev main_v34 : Ref sig .tc := ⟨.hbm, 50, rfl⟩
abbrev main_cst_0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_1 : Ref sig .tc := ⟨.hbm, 86, rfl⟩
abbrev main_v69 : Ref sig .tc := ⟨.hbm, 87, rfl⟩
abbrev main_v70 : Ref sig .tc := ⟨.hbm, 88, rfl⟩
abbrev main_cst_2 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_cst_3 : Ref sig .tc := ⟨.hbm, 155, rfl⟩
abbrev main_v136 : Ref sig .tc := ⟨.hbm, 156, rfl⟩
abbrev main_v137 : Ref sig .tc := ⟨.hbm, 157, rfl⟩
abbrev main_cst_4 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩

abbrev nD : Nat := 1
abbrev τ : Topo := Topo.v7x

variable {F : FTy → Type} [FloatOps F]

class Facts₀ : Prop where
  concatenates_S32768x4096_S32768x4_S32768x4100_d1 : Shape.Concatenates [S32768x4096, S32768x4] S32768x4100 1
  transposes_S4x4100_S4100x4_1_0 : S4x4100.Transposes [1, 0] S4100x4
  bcast_S4_S1x4_1 : S4.BroadcastsInDim S1x4 (![1] : Fin 1 → Fin S1x4.rank)
  bcast_S1x4_S32768x4_0_1 : S1x4.BroadcastsInDim S32768x4 (![0, 1] : Fin 2 → Fin S32768x4.rank)
  slices_S32768x4_S32768x1_0_0 : S32768x4.Slices ![0, 0] S32768x1
  shapeCasts_S32768x1_S32768 : S32768x1.ShapeCasts S32768
  slices_S32768x4_S32768x1_0_1 : S32768x4.Slices ![0, 1] S32768x1
  slices_S32768x4_S32768x1_0_2 : S32768x4.Slices ![0, 2] S32768x1
  slices_S32768x4_S32768x1_0_3 : S32768x4.Slices ![0, 3] S32768x1
  bcast_S32768_S32768x1_0 : S32768.BroadcastsInDim S32768x1 (![0] : Fin 1 → Fin S32768x1.rank)
  concatenates_S32768x1_S32768x1_S32768x1_S32768x1_S32768x4_d1 : Shape.Concatenates [S32768x1, S32768x1, S32768x1, S32768x1] S32768x4 1
  bcast_S_S32768x4 : S_.BroadcastsInDim S32768x4 (![] : Fin 0 → Fin S32768x4.rank)
  dot_S32768x4100_S4100x4_S32768x4_1_0_0_1_n_n_wf : DotDims.WF S32768x4100 S4100x4 S32768x4 [1] [0] [0] [1] [] []

variable [Facts₀]

def dot_S32768x4100_S4100x4_S32768x4_1_0_0_1_n_n : DotDims S32768x4100 S4100x4 S32768x4 where
  lhsContracting := [1]
  rhsContracting := [0]
  lhsNonContracting := [0]
  rhsNonContracting := [1]
  lhsBatch := []
  rhsBatch := []
  wf := dot_S32768x4100_S4100x4_S32768x4_1_0_0_1_n_n_wf

class Facts : Prop extends Facts₀ where

variable [Facts]
-- ==== Proof.CellBlocksBits.lean ====
/-
  The two blocks one grid point of the recurrent-cell kernel produces, as functions of the seven blocks it reads.

  At a grid point the body reads 512 rows of the wide input, of the previous hidden state and of the previous cell state,
  the two transposed weight panels (4096×16 and 4×16), the stacked bias row and the stacked phase row (1×16 each), every
  one through the rectangle that is its whole buffer, and stores two whole 512×4 blocks: the new hidden state and the
  new cell state of those rows. Since each output buffer receives exactly one store, of its whole extent, what the
  buffer holds afterwards is that store's value.
-/
import proofs.«164261_j65481071399076_1_alg».proof.Proof.Gen.Kernel.Skeleton
import Idealize.ShloMosaic.Lib.Pipeline.FrameBody

set_option maxRecDepth 16384

noncomputable section

namespace Cert.Kernel.Cell

open Idealize.ShloMosaic Idealize.ShloMosaic.TcCoe
open Idealize.SL Idealize.SL.Sem
open Cert.Kernel.Gen

variable {F : FTy → Type} [FloatOps F]

/-! ## The rectangles the body reads and writes: each is its buffer whole -/

abbrev wholeX : Rect S512x4096 := Rect.unit (s := S512x4096) ![0, 0] S512x4096.size inb_S512x4096_S512x4096_0_0
abbrev whole4 : Rect S512x4 := Rect.unit (s := S512x4) ![0, 0] S512x4.size inb_S512x4_S512x4_0_0
abbrev wholeWx : Rect S4096x16 := Rect.unit (s := S4096x16) ![0, 0] S4096x16.size inb_S4096x16_S4096x16_0_0
abbrev wholeWh : Rect S4x16 := Rect.unit (s := S4x16) ![0, 0] S4x16.size inb_S4x16_S4x16_0_0
abbrev wholeRow : Rect S1x16 := Rect.unit (s := S1x16) ![0, 0] S1x16.size inb_S1x16_S1x16_0_0

/-! ## The two blocks a grid point produces, from the seven blocks it reads -/

/-- The new cell state of the point's 512 rows: forget gate × previous cell state + input gate × candidate, each gate
    the squashed product of cosines of the affine pre-activations plus phases. -/
def cellValue (x : Vec F S512x4096 .f32) (h : Vec F S512x4 .f32) (cprev : Vec F S512x4 .f32) (wx : Vec F S4096x16 .bf16)
    (wh : Vec F S4x16 .bf16) (b : Vec F S1x16 .f32) (th : Vec F S1x16 .f32) : FVec F S512x4 .f32 :=
  k0_pay9 (k0_pay3 (View.ld x wholeX) (View.ld h whole4) (View.ld wx wholeWx) (View.ld wh wholeWh) (View.ld b wholeRow))
    (k0_pay5 (View.ld th wholeRow))
    (k0_pay7 (View.ld x wholeX) (View.ld h whole4) (View.ld wx wholeWx) (View.ld wh wholeWh) (View.ld b wholeRow) (View.ld th wholeRow))
    (k0_pay8 (View.ld x wholeX) (View.ld h whole4) (View.ld wx wholeWx) (View.ld wh wholeWh) (View.ld b wholeRow) (View.ld th wholeRow))
    (View.ld cprev whole4)

/-- The new hidden state of the point's 512 rows: output gate × tanh of the new cell state. -/
def hiddenValue (x : Vec F S512x4096 .f32) (h : Vec F S512x4 .f32) (cprev : Vec F S512x4 .f32) (wx : Vec F S4096x16 .bf16)
    (wh : Vec F S4x16 .bf16) (b : Vec F S1x16 .f32) (th : Vec F S1x16 .f32) : FVec F S512x4 .f32 :=
  k0_pay10 (k0_pay3 (View.ld x wholeX) (View.ld h whole4) (View.ld wx wholeWx) (View.ld wh wholeWh) (View.ld b wholeRow))
    (k0_pay4 (View.ld x wholeX) (View.ld h whole4) (View.ld wx wholeWx) (View.ld wh wholeWh) (View.ld b wholeRow))
    (k0_pay5 (View.ld th wholeRow)) (k0_pay6 (View.ld th wholeRow))
    (k0_pay7 (View.ld x wholeX) (View.ld h whole4) (View.ld wx wholeWx) (View.ld wh wholeWh) (View.ld b wholeRow) (View.ld th wholeRow))
    (k0_pay8 (View.ld x wholeX) (View.ld h whole4) (View.ld wx wholeWx) (View.ld wh wholeWh) (View.ld b wholeRow) (View.ld th wholeRow))
    (View.ld cprev whole4)

/-- The hidden-state buffer after the body: its one store, read back as the buffer's contents. -/
def hiddenBlock (x : Vec F S512x4096 .f32) (h : Vec F S512x4 .f32) (cprev : Vec F S512x4 .f32) (wx : Vec F S4096x16 .bf16)
    (wh : Vec F S4x16 .bf16) (b : Vec F S1x16 .f32) (th : Vec F S1x16 .f32) : Vec F S512x4 .f32 :=
  View.canon [⟨whole4, hiddenValue x h cprev wx wh b th⟩]

/-- The cell-state buffer after the body, likewise. -/
def cellBlock (x : Vec F S512x4096 .f32) (h : Vec F S512x4 .f32) (cprev : Vec F S512x4 .f32) (wx : Vec F S4096x16 .bf16)
    (wh : Vec F S4x16 .bf16) (b : Vec F S1x16 .f32) (th : Vec F S1x16 .f32) : Vec F S512x4 .f32 :=
  View.canon [⟨whole4, cellValue x h cprev wx wh b th⟩]

/-- A single whole-block store covers its 512×4 buffer. -/
theorem whole4_covers (p : Vec F S512x4 .f32) (y : S512x4.Idx) :
    ∃ pc ∈ ([⟨whole4, p⟩] : List (View.Piece (Elt F) S512x4 .f32)), y ∈ pc.1.set :=
  View.cover_of_tiled [⟨whole4, p⟩] S512x4.size (by rfl) y

end Cert.Kernel.Cell

end
-- ==== Proof.CellBodyBits.lean ====
/-
  One grid point of the recurrent-cell kernel as a separation-logic triple, at any float instance: on whole staging
  buffers, the seven inputs at given contents and the two outputs at anything, the body runs to its continuation with the
  inputs as they were and the outputs at the two blocks computed from the inputs. The body also loads both output
  buffers before overwriting them; the loaded values are used by nothing, so the buffers may hold anything beforehand.
-/
import proofs.«164261_j65481071399076_1_alg».proof.Proof.CellBlocksBits
import proofs.«164261_j65481071399076_1_alg».proof.Proof.Gen.Kernel.Launch
import proofs.«164261_j65481071399076_1_alg».proof.Proof.Gen.Kernel.Points
import Idealize.ShloMosaic.Lib.Pipeline.Frame
import Idealize.ShloMosaic.Lib.Ring
import Idealize.ShloMosaic.Lib.Tactic

set_option maxRecDepth 16384

noncomputable section

namespace Cert.Kernel.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The body's triple -/

set_option maxHeartbeats 2000000 in
/-- On whole staging buffers — the seven inputs at contents `x … th`, the two outputs at anything — the body runs to
    its continuation with the inputs as they were and the outputs at `hiddenBlock` and `cellBlock` of the inputs. -/
theorem body_triple (c : Dev nD) (E : Set ℕ) (i : grid0.Coords)
    (a1 : Memref sig .tc .vmem S512x4096 .f32) (ha1 : a1.IsWhole) (a2 : Memref sig .tc .vmem S512x4 .f32) (ha2 : a2.IsWhole)
    (a3 : Memref sig .tc .vmem S512x4 .f32) (ha3 : a3.IsWhole) (a4 : Memref sig .tc .vmem S4096x16 .bf16) (ha4 : a4.IsWhole)
    (a5 : Memref sig .tc .vmem S4x16 .bf16) (ha5 : a5.IsWhole) (a6 : Memref sig .tc .vmem S1x16 .f32) (ha6 : a6.IsWhole)
    (a7 : Memref sig .tc .vmem S1x16 .f32) (ha7 : a7.IsWhole) (a8 : Memref sig .tc .vmem S512x4 .f32) (ha8 : a8.IsWhole)
    (a9 : Memref sig .tc .vmem S512x4 .f32) (ha9 : a9.IsWhole)
    (x : Vec F S512x4096 .f32) (h : Vec F S512x4 .f32) (cprev : Vec F S512x4 .f32) (wx : Vec F S4096x16 .bf16)
    (wh : Vec F S4x16 .bf16) (b : Vec F S1x16 .f32) (th : Vec F S1x16 .f32) (K : PUnit → sProp 𝕄) :
    iprop(owns (c : Thread nD τ) a1 fullShare x ∗ owns (c : Thread nD τ) a2 fullShare h ∗ owns (c : Thread nD τ) a3 fullShare cprev
        ∗ owns (c : Thread nD τ) a4 fullShare wx ∗ owns (c : Thread nD τ) a5 fullShare wh ∗ owns (c : Thread nD τ) a6 fullShare b
        ∗ owns (c : Thread nD τ) a7 fullShare th ∗ (∃ d, owns (c : Thread nD τ) a8 fullShare d) ∗ (∃ d, owns (c : Thread nD τ) a9 fullShare d)
        ∗ (iprop(owns (c : Thread nD τ) a1 fullShare x ∗ owns (c : Thread nD τ) a2 fullShare h ∗ owns (c : Thread nD τ) a3 fullShare cprev
            ∗ owns (c : Thread nD τ) a4 fullShare wx ∗ owns (c : Thread nD τ) a5 fullShare wh ∗ owns (c : Thread nD τ) a6 fullShare b
            ∗ owns (c : Thread nD τ) a7 fullShare th
            ∗ owns (c : Thread nD τ) a8 fullShare (hiddenBlock x h cprev wx wh b th)
            ∗ owns (c : Thread nD τ) a9 fullShare (cellBlock x h cprev wx wh b th)) -∗ K ⟨⟩))
      ⊢ wp frame (wpE (defs₀ (F := F)) Variants.none c none) E
          (cc0__qlstm_kernel i a1 ha1 a2 ha2 a3 ha3 a4 ha4 a5 ha5 a6 ha6 a7 ha7 a8 ha8 a9 ha9) K := by
  simp only [cc0__qlstm_kernel_eq_skeleton]; unfold cc0__qlstm_kernel_skel
  simp only [k0_part1_eq_skeleton, k0_part2_eq_skeleton]; unfold k0_part1_skel k0_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (whole4_covers _)
  iexists _; isplitr
  swap; · iexact H9
  ipureintro
  try dsimp only
  exact View.read_writes_eq_canon _ _ _ (whole4_covers _)

end Cert.Kernel.Cell

end
-- ==== Proof.CellEntryBits.lean ====
/-
  The host lines before the kernel region, and what the region finds.

  Before its one kernel launch the program stacks the four gates' weight matrices into one 16×4100 matrix, splits it
  into the 16×4096 panel that meets the wide input and the 16×4 panel that meets the previous hidden state, transposes
  and narrows both, and stacks the four bias vectors and the four phase vectors into 1×16 rows: eleven host operations,
  none of which writes an argument array. So when the region is entered every argument array still holds its launch
  contents, and each other buffer holds what those eleven operations computed from them.
-/
import proofs.«164261_j65481071399076_1_alg».proof.Proof.Gen.Kernel.Launch
import proofs.«164261_j65481071399076_1_alg».proof.Proof.Gen.Kernel.Points
import Idealize.ShloMosaic.Lib.Pipeline.FrameBody
import Idealize.ShloMosaic.Lib.Pipeline.Frame

set_option maxRecDepth 16384

noncomputable section

namespace Cert.Kernel.Cell

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.Kernel.Gen

variable {F : FTy → Type} [FloatOps F]

variable (m : (ℓ : Loc nD τ sig) → Buf (Elt F) ℓ)

/-- Core `c`'s buffer contents when the region is entered: the launch contents after the eleven host operations. -/
abbrev entryVal (c : Dev nD) : Valuation τ sig (Elt F) := StableHlo.after hostOps0 (fun b => m (c, b))
/-- The same read at a TensorCore reference. -/
abbrev entry (c : Dev nD) (b : Ref sig .tc) : Buf (Elt F) ((c : Thread nD τ).loc b) := entryVal m c (Proc.devRef .tc b)

/-- The host operations allocate nothing. -/
theorem prefix_fresh : (hostOps0 : List (HloOp τ sig (Elt F))).Forall fun op => op.fresh = ∅ := by
  simp only [List.Forall]; repeat' constructor

/-- The program is its eleven host operations followed by the region: holding the buffers at their launch contents it
    reduces to the region holding them at `entry`. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub prefix_fresh main_chain

/-- Closes "no host operation before the region writes this reference": each operation writes its own result buffer
    only, and that is another reference. -/
local macro "unwritten" : tactic =>
  `(tactic| (refine StableHlo.after_of_forall_not_mem _ _ (List.forall_iff_forall_mem.mp ?_)
             simp only [hostOps0, List.Forall, StableHlo.nary_writes, StableHlo.unary_writes, StableHlo.reshape_writes, Finset.mem_singleton]
             repeat' apply And.intro
             all_goals exact StableHlo.devRef_ne_of_ne (by decide)))

theorem entry_arg0 (c : Dev nD) : entry m c main_arg0 = m ((c : Thread nD τ).loc main_arg0) := by unwritten
theorem entry_arg1 (c : Dev nD) : entry m c main_arg1 = m ((c : Thread nD τ).loc main_arg1) := by unwritten
theorem entry_arg2 (c : Dev nD) : entry m c main_arg2 = m ((c : Thread nD τ).loc main_arg2) := by unwritten
theorem entry_arg3 (c : Dev nD) : entry m c main_arg3 = m ((c : Thread nD τ).loc main_arg3) := by unwritten
theorem entry_arg4 (c : Dev nD) : entry m c main_arg4 = m ((c : Thread nD τ).loc main_arg4) := by unwritten
theorem entry_arg5 (c : Dev nD) : entry m c main_arg5 = m ((c : Thread nD τ).loc main_arg5) := by unwritten
theorem entry_arg6 (c : Dev nD) : entry m c main_arg6 = m ((c : Thread nD τ).loc main_arg6) := by unwritten
theorem entry_arg7 (c : Dev nD) : entry m c main_arg7 = m ((c : Thread nD τ).loc main_arg7) := by unwritten
theorem entry_arg8 (c : Dev nD) : entry m c main_arg8 = m ((c : Thread nD τ).loc main_arg8) := by unwritten
theorem entry_arg9 (c : Dev nD) : entry m c main_arg9 = m ((c : Thread nD τ).loc main_arg9) := by unwritten
theorem entry_arg10 (c : Dev nD) : entry m c main_arg10 = m ((c : Thread nD τ).loc main_arg10) := by unwritten
theorem entry_arg11 (c : Dev nD) : entry m c main_arg11 = m ((c : Thread nD τ).loc main_arg11) := by unwritten
theorem entry_arg12 (c : Dev nD) : entry m c main_arg12 = m ((c : Thread nD τ).loc main_arg12) := by unwritten
theorem entry_arg13 (c : Dev nD) : entry m c main_arg13 = m ((c : Thread nD τ).loc main_arg13) := by unwritten
theorem entry_arg14 (c : Dev nD) : entry m c main_arg14 = m ((c : Thread nD τ).loc main_arg14) := by unwritten

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

end Cert.Kernel.Cell

end
-- ==== Proof.CellRunBits.lean ====
/-
  The kernel program's run: it terminates, faults nowhere, leaves every argument array as launched, and ends with the
  two result arrays at what the library computes from the per-point blocks.

  The proof data say, for every grid point, what each staging buffer holds once the body has run there: an input's
  buffer still its block of the array; the hidden-state buffer and the cell-state buffer the two blocks the body
  computes from the seven input blocks of that point. An input's buffer holds its block at every point whether or not
  the pipeline fetched it there: the four small operands are fetched once, at the first point, and their block index
  never moves. With the body's triple this is the library's per-point obligation, and the library's launch theorem
  gives the run.
-/
import proofs.«164261_j65481071399076_1_alg».proof.Proof.CellBodyBits
import proofs.«164261_j65481071399076_1_alg».proof.Proof.CellEntryBits

set_option maxRecDepth 16384

noncomputable section

namespace Cert.Kernel.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## An input's staging buffer holds its block at every point -/

theorem input_found_0 {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

theorem input_found_1 {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

theorem input_found_2 {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

theorem input_found_3 {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

theorem input_found_4 {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

theorem input_found_5 {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

theorem input_found_6 {c : Dev nD} (dat : Dat τ (Elt F) Unit ℕ (UR sig nD τ) ℕ cfg0 c) (hA : dat.A 6 = entry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The proof data -/

/-- On core `c`: the arrays as the region finds them; after the body at point `t` each input's buffer at its block and
    the two outputs' at the blocks the body computes from the point's seven input blocks; the invariant the scoped rest
    and the generator register, untouched; nothing owed; full shares. -/
def points (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => hiddenBlock (blockAt m c 0 t) (blockAt m c 1 t) (blockAt m c 2 t) (blockAt m c 3 t) (blockAt m c 4 t) (blockAt m c 5 t) (blockAt m c 6 t)
    | ⟨8, _⟩ => cellBlock (blockAt m c 0 t) (blockAt m c 1 t) (blockAt m c 2 t) (blockAt m c 3 t) (blockAt m c 4 t) (blockAt m c 5 t) (blockAt m c 6 t)
  Φ _ := Pipeline.ΦA spec0 c
  q _ := fullShare
  owed _ := 0

theorem A_eq (c : Dev nD) (w : Fin cfg0.W) : (points m 0 c).A w = entry m c (Pipeline.arrRef spec0 w) := by
  dsimp only [points]

theorem after_0 (c : Dev nD) (t : Fin cfg0.N) : (points m 0 c).after 0 t = blockAt m c 0 t := by dsimp only [points]
theorem after_1 (c : Dev nD) (t : Fin cfg0.N) : (points m 0 c).after 1 t = blockAt m c 1 t := by dsimp only [points]
theorem after_2 (c : Dev nD) (t : Fin cfg0.N) : (points m 0 c).after 2 t = blockAt m c 2 t := by dsimp only [points]
theorem after_3 (c : Dev nD) (t : Fin cfg0.N) : (points m 0 c).after 3 t = blockAt m c 3 t := by dsimp only [points]
theorem after_4 (c : Dev nD) (t : Fin cfg0.N) : (points m 0 c).after 4 t = blockAt m c 4 t := by dsimp only [points]
theorem after_5 (c : Dev nD) (t : Fin cfg0.N) : (points m 0 c).after 5 t = blockAt m c 5 t := by dsimp only [points]
theorem after_6 (c : Dev nD) (t : Fin cfg0.N) : (points m 0 c).after 6 t = blockAt m c 6 t := by dsimp only [points]
theorem after_7 (c : Dev nD) (t : Fin cfg0.N) : (points m 0 c).after 7 t = hiddenBlock (blockAt m c 0 t) (blockAt m c 1 t) (blockAt m c 2 t) (blockAt m c 3 t) (blockAt m c 4 t) (blockAt m c 5 t) (blockAt m c 6 t) := by dsimp only [points]
theorem after_8 (c : Dev nD) (t : Fin cfg0.N) : (points m 0 c).after 8 t = cellBlock (blockAt m c 0 t) (blockAt m c 1 t) (blockAt m c 2 t) (blockAt m c 3 t) (blockAt m c 4 t) (blockAt m c 5 t) (blockAt m c 6 t) := by dsimp only [points]

theorem before_0 (c : Dev nD) (t : Fin cfg0.N) (d) : (points m 0 c).before 0 t d = blockAt m c 0 t :=
  input_found_0 m (points m 0 c) (A_eq m c 0) (after_0 m c) t d
theorem before_1 (c : Dev nD) (t : Fin cfg0.N) (d) : (points m 0 c).before 1 t d = blockAt m c 1 t :=
  input_found_1 m (points m 0 c) (A_eq m c 1) (after_1 m c) t d
theorem before_2 (c : Dev nD) (t : Fin cfg0.N) (d) : (points m 0 c).before 2 t d = blockAt m c 2 t :=
  input_found_2 m (points m 0 c) (A_eq m c 2) (after_2 m c) t d
theorem before_3 (c : Dev nD) (t : Fin cfg0.N) (d) : (points m 0 c).before 3 t d = blockAt m c 3 t :=
  input_found_3 m (points m 0 c) (A_eq m c 3) (after_3 m c) t d
theorem before_4 (c : Dev nD) (t : Fin cfg0.N) (d) : (points m 0 c).before 4 t d = blockAt m c 4 t :=
  input_found_4 m (points m 0 c) (A_eq m c 4) (after_4 m c) t d
theorem before_5 (c : Dev nD) (t : Fin cfg0.N) (d) : (points m 0 c).before 5 t d = blockAt m c 5 t :=
  input_found_5 m (points m 0 c) (A_eq m c 5) (after_5 m c) t d
theorem before_6 (c : Dev nD) (t : Fin cfg0.N) (d) : (points m 0 c).before 6 t d = blockAt m c 6 t :=
  input_found_6 m (points m 0 c) (A_eq m c 6) (after_6 m c) t d

/-! ## The per-point obligation -/

/-- What the body is called with at point `t`, the windows one by one, -/
def pointPre (c : Dev nD) (t : Fin cfg0.N) : sProp 𝕄 :=
  iprop((points m 0 c).Φ t.castSucc ∗ (points m 0 c).owesAt () t.castSucc
    ∗ (∃ d, owns (c : Thread nD τ) (st0_0 t) fullShare ((points m 0 c).before 0 t d))
    ∗ (∃ d, owns (c : Thread nD τ) (st0_1 t) fullShare ((points m 0 c).before 1 t d))
    ∗ (∃ d, owns (c : Thread nD τ) (st0_2 t) fullShare ((points m 0 c).before 2 t d))
    ∗ (∃ d, owns (c : Thread nD τ) (st0_3 t) fullShare ((points m 0 c).before 3 t d))
    ∗ (∃ d, owns (c : Thread nD τ) (st0_4 t) fullShare ((points m 0 c).before 4 t d))
    ∗ (∃ d, owns (c : Thread nD τ) (st0_5 t) fullShare ((points m 0 c).before 5 t d))
    ∗ (∃ d, owns (c : Thread nD τ) (st0_6 t) fullShare ((points m 0 c).before 6 t d))
    ∗ (∃ d, owns (c : Thread nD τ) (st0_7 t) fullShare ((points m 0 c).before 7 t d))
    ∗ (∃ d, owns (c : Thread nD τ) (st0_8 t) fullShare ((points m 0 c).before 8 t d)))

/-- and what it hands back. -/
def pointPost (c : Dev nD) (t : Fin cfg0.N) : sProp 𝕄 :=
  iprop((points m 0 c).Φ t.succ ∗ (points m 0 c).owesAt () t.succ
    ∗ owns (c : Thread nD τ) (st0_0 t) fullShare ((points m 0 c).after 0 t)
    ∗ owns (c : Thread nD τ) (st0_1 t) fullShare ((points m 0 c).after 1 t)
    ∗ owns (c : Thread nD τ) (st0_2 t) fullShare ((points m 0 c).after 2 t)
    ∗ owns (c : Thread nD τ) (st0_3 t) fullShare ((points m 0 c).after 3 t)
    ∗ owns (c : Thread nD τ) (st0_4 t) fullShare ((points m 0 c).after 4 t)
    ∗ owns (c : Thread nD τ) (st0_5 t) fullShare ((points m 0 c).after 5 t)
    ∗ owns (c : Thread nD τ) (st0_6 t) fullShare ((points m 0 c).after 6 t)
    ∗ owns (c : Thread nD τ) (st0_7 t) fullShare ((points m 0 c).after 7 t)
    ∗ owns (c : Thread nD τ) (st0_8 t) fullShare ((points m 0 c).after 8 t))

set_option maxHeartbeats 1000000 in
/-- The body at any point: the inputs' buffers hold their blocks, so the body's triple applies; the invariant and the
    core's debts pass through unread. -/
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [before_0, before_1, before_2, before_3, before_4, before_5, before_6]
  rw [show (points m 0 c).Φ t.succ = (points m 0 c).Φ t.castSucc from rfl,
    show (points m 0 c).owesAt () t.succ = (points m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_triple c Set.univ (grid0.coords t) _ _ _ _ _ _ _ _ _ _ _ _ _ _ _ _ _ _
    (blockAt m c 0 t) (blockAt m c 1 t) (blockAt m c 2 t) (blockAt m c 3 t) (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem obligation (c : Dev nD) : BodyObligation (points (F := F) m 0 c) (defs₀ (F := F)) Variants.none () Set.univ := fun t => by
  rw [bigSep_W0, bigSep_W0]
  exact point_sound m c t

/-! ## The run -/

set_option backward.isDefEq.respectTransparency.types false in
/-- From any memory with zero counters every weakly fair execution of the program terminates, and every final state has
    each array of the pipeline at what the library computes from the proof data and every other unscoped buffer as the
    region found it. -/
theorem run_main : θ_run defs (onTc (τ := τ) (main (F := F))) (s₀ m ρ) (Pipeline.FramePost cfgs (points m) 0 (entry m)) :=
  Pipeline.θ_run_frame cfgs (points m) (0 : Fin 1) launch0 defs₀ Variants.none m ρ main
    (hbody := fun c => (obligation m c).loose) (hshare := fun c => (points m 0 c).share_full fun _ => rfl)
    (howed := fun _ _ => rfl) (V := entry m) (hmain := main_to_region m Variants.none) (hA := A_eq m) (hΦ := fun _ _ => rfl)

/-- The run with its results named: the two result arrays end at the library's fold of the per-point blocks, and every
    argument array ends as launched. -/
theorem run_named : θ_run defs (onTc (τ := τ) (main (F := F))) ⟨m, fun _ => 0, ρ⟩ (fun r => ∀ c : Dev nD,
      (r.2.mem ((c.tc : Thread nD τ).loc main_v11_0) = (points m 0 c).arrAt 7 cfg0.N
      ∧ r.2.mem ((c.tc : Thread nD τ).loc main_v11_1) = (points m 0 c).arrAt 8 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨⟨(h c).1 7, (h c).1 8⟩,
    ((h c).1 0).trans ((((points m) 0 c).arrAt_in 0 rfl _).trans ((A_eq m c 0).trans (entry_arg0 m c))),
    ((h c).1 1).trans ((((points m) 0 c).arrAt_in 1 rfl _).trans ((A_eq m c 1).trans (entry_arg1 m c))),
    ((h c).1 2).trans ((((points m) 0 c).arrAt_in 2 rfl _).trans ((A_eq m c 2).trans (entry_arg2 m c))),
    ((h c).2 main_arg3 (Pipeline.mem_restRefs_of main_arg3 (by decide) (by decide))).trans (entry_arg3 m c),
    ((h c).2 main_arg4 (Pipeline.mem_restRefs_of main_arg4 (by decide) (by decide))).trans (entry_arg4 m c),
    ((h c).2 main_arg5 (Pipeline.mem_restRefs_of main_arg5 (by decide) (by decide))).trans (entry_arg5 m c),
    ((h c).2 main_arg6 (Pipeline.mem_restRefs_of main_arg6 (by decide) (by decide))).trans (entry_arg6 m c),
    ((h c).2 main_arg7 (Pipeline.mem_restRefs_of main_arg7 (by decide) (by decide))).trans (entry_arg7 m c),
    ((h c).2 main_arg8 (Pipeline.mem_restRefs_of main_arg8 (by decide) (by decide))).trans (entry_arg8 m c),
    ((h c).2 main_arg9 (Pipeline.mem_restRefs_of main_arg9 (by decide) (by decide))).trans (entry_arg9 m c),
    ((h c).2 main_arg10 (Pipeline.mem_restRefs_of main_arg10 (by decide) (by decide))).trans (entry_arg10 m c),
    ((h c).2 main_arg11 (Pipeline.mem_restRefs_of main_arg11 (by decide) (by decide))).trans (entry_arg11 m c),
    ((h c).2 main_arg12 (Pipeline.mem_restRefs_of main_arg12 (by decide) (by decide))).trans (entry_arg12 m c),
    ((h c).2 main_arg13 (Pipeline.mem_restRefs_of main_arg13 (by decide) (by decide))).trans (entry_arg13 m c),
    ((h c).2 main_arg14 (Pipeline.mem_restRefs_of main_arg14 (by decide) (by decide))).trans (entry_arg14 m c)⟩) (run_main m ρ)

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run_named m ρ)

end Cert.Kernel.Cell

end
-- ==== Proof.CellBlocksIdeal.lean ====
/-
  The two blocks one grid point of the recurrent-cell kernel produces, as functions of the seven blocks it reads.

  At a grid point the body reads 512 rows of the wide input, of the previous hidden state and of the previous cell state,
  the two transposed weight panels (4096×16 and 4×16), the stacked bias row and the stacked phase row (1×16 each), every
  one through the rectangle that is its whole buffer, and stores two whole 512×4 blocks: the new hidden state and the
  new cell state of those rows. Since each output buffer receives exactly one store, of its whole extent, what the
  buffer holds afterwards is that store's value.
-/
import proofs.«164261_j65481071399076_1_alg».proof.Proof.Gen.KernelIdeal.Skeleton
import Idealize.ShloMosaic.Lib.Pipeline.FrameBody

set_option maxRecDepth 16384

noncomputable section

namespace Cert.KernelIdeal.Cell

open Idealize.ShloMosaic Idealize.ShloMosaic.TcCoe
open Idealize.SL Idealize.SL.Sem
open Cert.KernelIdeal.Gen

variable {F : FTy → Type} [FloatOps F]

/-! ## The rectangles the body reads and writes: each is its buffer whole -/

abbrev wholeX : Rect S512x4096 := Rect.unit (s := S512x4096) ![0, 0] S512x4096.size inb_S512x4096_S512x4096_0_0
abbrev whole4 : Rect S512x4 := Rect.unit (s := S512x4) ![0, 0] S512x4.size inb_S512x4_S512x4_0_0
abbrev wholeWx : Rect S4096x16 := Rect.unit (s := S4096x16) ![0, 0] S4096x16.size inb_S4096x16_S4096x16_0_0
abbrev wholeWh : Rect S4x16 := Rect.unit (s := S4x16) ![0, 0] S4x16.size inb_S4x16_S4x16_0_0
abbrev wholeRow : Rect S1x16 := Rect.unit (s := S1x16) ![0, 0] S1x16.size inb_S1x16_S1x16_0_0

/-! ## The two blocks a grid point produces, from the seven blocks it reads -/

/-- The new cell state of the point's 512 rows: forget gate × previous cell state + input gate × candidate, each gate
    the squashed product of cosines of the affine pre-activations plus phases. -/
def cellValue (x : Vec F S512x4096 .f32) (h : Vec F S512x4 .f32) (cprev : Vec F S512x4 .f32) (wx : Vec F S4096x16 .bf16)
    (wh : Vec F S4x16 .bf16) (b : Vec F S1x16 .f32) (th : Vec F S1x16 .f32) : FVec F S512x4 .f32 :=
  k0_pay9 (k0_pay3 (View.ld x wholeX) (View.ld h whole4) (View.ld wx wholeWx) (View.ld wh wholeWh) (View.ld b wholeRow))
    (k0_pay5 (View.ld th wholeRow))
    (k0_pay7 (View.ld x wholeX) (View.ld h whole4) (View.ld wx wholeWx) (View.ld wh wholeWh) (View.ld b wholeRow) (View.ld th wholeRow))
    (k0_pay8 (View.ld x wholeX) (View.ld h whole4) (View.ld wx wholeWx) (View.ld wh wholeWh) (View.ld b wholeRow) (View.ld th wholeRow))
    (View.ld cprev whole4)

/-- The new hidden state of the point's 512 rows: output gate × tanh of the new cell state. -/
def hiddenValue (x : Vec F S512x4096 .f32) (h : Vec F S512x4 .f32) (cprev : Vec F S512x4 .f32) (wx : Vec F S4096x16 .bf16)
    (wh : Vec F S4x16 .bf16) (b : Vec F S1x16 .f32) (th : Vec F S1x16 .f32) : FVec F S512x4 .f32 :=
  k0_pay10 (k0_pay3 (View.ld x wholeX) (View.ld h whole4) (View.ld wx wholeWx) (View.ld wh wholeWh) (View.ld b wholeRow))
    (k0_pay4 (View.ld x wholeX) (View.ld h whole4) (View.ld wx wholeWx) (View.ld wh wholeWh) (View.ld b wholeRow))
    (k0_pay5 (View.ld th wholeRow)) (k0_pay6 (View.ld th wholeRow))
    (k0_pay7 (View.ld x wholeX) (View.ld h whole4) (View.ld wx wholeWx) (View.ld wh wholeWh) (View.ld b wholeRow) (View.ld th wholeRow))
    (k0_pay8 (View.ld x wholeX) (View.ld h whole4) (View.ld wx wholeWx) (View.ld wh wholeWh) (View.ld b wholeRow) (View.ld th wholeRow))
    (View.ld cprev whole4)

/-- The hidden-state buffer after the body: its one store, read back as the buffer's contents. -/
def hiddenBlock (x : Vec F S512x4096 .f32) (h : Vec F S512x4 .f32) (cprev : Vec F S512x4 .f32) (wx : Vec F S4096x16 .bf16)
    (wh : Vec F S4x16 .bf16) (b : Vec F S1x16 .f32) (th : Vec F S1x16 .f32) : Vec F S512x4 .f32 :=
  View.canon [⟨whole4, hiddenValue x h cprev wx wh b th⟩]

/-- The cell-state buffer after the body, likewise. -/
def cellBlock (x : Vec F S512x4096 .f32) (h : Vec F S512x4 .f32) (cprev : Vec F S512x4 .f32) (wx : Vec F S4096x16 .bf16)
    (wh : Vec F S4x16 .bf16) (b : Vec F S1x16 .f32) (th : Vec F S1x16 .f32) : Vec F S512x4 .f32 :=
  View.canon [⟨whole4, cellValue x h cprev wx wh b th⟩]

/-- A single whole-block store covers its 512×4 buffer. -/
theorem whole4_covers (p : Vec F S512x4 .f32) (y : S512x4.Idx) :
    ∃ pc ∈ ([⟨whole4, p⟩] : List (View.Piece (Elt F) S512x4 .f32)), y ∈ pc.1.set :=
  View.cover_of_tiled [⟨whole4, p⟩] S512x4.size (by rfl) y

end Cert.KernelIdeal.Cell

end
-- ==== Proof.CellBodyIdeal.lean ====
/-
  One grid point of the recurrent-cell kernel as a separation-logic triple, at any float instance: on whole staging
  buffers, the seven inputs at given contents and the two outputs at anything, the body runs to its continuation with the
  inputs as they were and the outputs at the two blocks computed from the inputs. The body also loads both output
  buffers before overwriting them; the loaded values are used by nothing, so the buffers may hold anything beforehand.
-/
import proofs.«164261_j65481071399076_1_alg».proof.Proof.CellBlocksIdeal
import proofs.«164261_j65481071399076_1_alg».proof.Proof.Gen.KernelIdeal.Launch
import proofs.«164261_j65481071399076_1_alg».proof.Proof.Gen.KernelIdeal.Points
import Idealize.ShloMosaic.Lib.Pipeline.Frame
import Idealize.ShloMosaic.Lib.Ring
import Idealize.ShloMosaic.Lib.Tactic

set_option maxRecDepth 16384

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's triple -/

set_option maxHeartbeats 2000000 in
/-- On whole staging buffers — the seven inputs at contents `x … th`, the two outputs at anything — the body runs to
    its continuation with the inputs as they were and the outputs at `hiddenBlock` and `cellBlock` of the inputs. -/
theorem body_triple (c : Dev nD) (E : Set ℕ) (i : grid0.Coords)
    (a1 : Memref sig .tc .vmem S512x4096 .f32) (ha1 : a1.IsWhole) (a2 : Memref sig .tc .vmem S512x4 .f32) (ha2 : a2.IsWhole)
    (a3 : Memref sig .tc .vmem S512x4 .f32) (ha3 : a3.IsWhole) (a4 : Memref sig .tc .vmem S4096x16 .bf16) (ha4 : a4.IsWhole)
    (a5 : Memref sig .tc .vmem S4x16 .bf16) (ha5 : a5.IsWhole) (a6 : Memref sig .tc .vmem S1x16 .f32) (ha6 : a6.IsWhole)
    (a7 : Memref sig .tc .vmem S1x16 .f32) (ha7 : a7.IsWhole) (a8 : Memref sig .tc .vmem S512x4 .f32) (ha8 : a8.IsWhole)
    (a9 : Memref sig .tc .vmem S512x4 .f32) (ha9 : a9.IsWhole)
    (x : Vec F S512x4096 .f32) (h : Vec F S512x4 .f32) (cprev : Vec F S512x4 .f32) (wx : Vec F S4096x16 .bf16)
    (wh : Vec F S4x16 .bf16) (b : Vec F S1x16 .f32) (th : Vec F S1x16 .f32) (K : PUnit → sProp 𝕄) :
    iprop(owns (c : Thread nD τ) a1 fullShare x ∗ owns (c : Thread nD τ) a2 fullShare h ∗ owns (c : Thread nD τ) a3 fullShare cprev
        ∗ owns (c : Thread nD τ) a4 fullShare wx ∗ owns (c : Thread nD τ) a5 fullShare wh ∗ owns (c : Thread nD τ) a6 fullShare b
        ∗ owns (c : Thread nD τ) a7 fullShare th ∗ (∃ d, owns (c : Thread nD τ) a8 fullShare d) ∗ (∃ d, owns (c : Thread nD τ) a9 fullShare d)
        ∗ (iprop(owns (c : Thread nD τ) a1 fullShare x ∗ owns (c : Thread nD τ) a2 fullShare h ∗ owns (c : Thread nD τ) a3 fullShare cprev
            ∗ owns (c : Thread nD τ) a4 fullShare wx ∗ owns (c : Thread nD τ) a5 fullShare wh ∗ owns (c : Thread nD τ) a6 fullShare b
            ∗ owns (c : Thread nD τ) a7 fullShare th
            ∗ owns (c : Thread nD τ) a8 fullShare (hiddenBlock x h cprev wx wh b th)
            ∗ owns (c : Thread nD τ) a9 fullShare (cellBlock x h cprev wx wh b th)) -∗ K ⟨⟩))
      ⊢ wp frame (wpE (defs₀ (F := F)) Variants.none c none) E
          (cc0__qlstm_kernel i a1 ha1 a2 ha2 a3 ha3 a4 ha4 a5 ha5 a6 ha6 a7 ha7 a8 ha8 a9 ha9) K := by
  simp only [cc0__qlstm_kernel_eq_skeleton]; unfold cc0__qlstm_kernel_skel
  simp only [k0_part1_eq_skeleton, k0_part2_eq_skeleton]; unfold k0_part1_skel k0_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (whole4_covers _)
  iexists _; isplitr
  swap; · iexact H9
  ipureintro
  try dsimp only
  exact View.read_writes_eq_canon _ _ _ (whole4_covers _)

end Cert.KernelIdeal.Cell

end
-- ==== Proof.CellEntryIdeal.lean ====
/-
  The host lines before the kernel region, and what the region finds.

  Before its one kernel launch the program stacks the four gates' weight matrices into one 16×4100 matrix, splits it
  into the 16×4096 panel that meets the wide input and the 16×4 panel that meets the previous hidden state, transposes
  and narrows both, and stacks the four bias vectors and the four phase vectors into 1×16 rows: eleven host operations,
  none of which writes an argument array. So when the region is entered every argument array still holds its launch
  contents, and each other buffer holds what those eleven operations computed from them.
-/
import proofs.«164261_j65481071399076_1_alg».proof.Proof.Gen.KernelIdeal.Launch
import proofs.«164261_j65481071399076_1_alg».proof.Proof.Gen.KernelIdeal.Points
import Idealize.ShloMosaic.Lib.Pipeline.FrameBody
import Idealize.ShloMosaic.Lib.Pipeline.Frame

set_option maxRecDepth 16384

noncomputable section

namespace Cert.KernelIdeal.Cell

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.KernelIdeal.Gen

variable {F : FTy → Type} [FloatOps F]

variable (m : (ℓ : Loc nD τ sig) → Buf (Elt F) ℓ)

/-- Core `c`'s buffer contents when the region is entered: the launch contents after the eleven host operations. -/
abbrev entryVal (c : Dev nD) : Valuation τ sig (Elt F) := StableHlo.after hostOps0 (fun b => m (c, b))
/-- The same read at a TensorCore reference. -/
abbrev entry (c : Dev nD) (b : Ref sig .tc) : Buf (Elt F) ((c : Thread nD τ).loc b) := entryVal m c (Proc.devRef .tc b)

/-- The host operations allocate nothing. -/
theorem prefix_fresh : (hostOps0 : List (HloOp τ sig (Elt F))).Forall fun op => op.fresh = ∅ := by
  simp only [List.Forall]; repeat' constructor

/-- The program is its eleven host operations followed by the region: holding the buffers at their launch contents it
    reduces to the region holding them at `entry`. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub prefix_fresh main_chain

/-- Closes "no host operation before the region writes this reference": each operation writes its own result buffer
    only, and that is another reference. -/
local macro "unwritten" : tactic =>
  `(tactic| (refine StableHlo.after_of_forall_not_mem _ _ (List.forall_iff_forall_mem.mp ?_)
             simp only [hostOps0, List.Forall, StableHlo.nary_writes, StableHlo.unary_writes, StableHlo.reshape_writes, Finset.mem_singleton]
             repeat' apply And.intro
             all_goals exact StableHlo.devRef_ne_of_ne (by decide)))

theorem entry_arg0 (c : Dev nD) : entry m c main_arg0 = m ((c : Thread nD τ).loc main_arg0) := by unwritten
theorem entry_arg1 (c : Dev nD) : entry m c main_arg1 = m ((c : Thread nD τ).loc main_arg1) := by unwritten
theorem entry_arg2 (c : Dev nD) : entry m c main_arg2 = m ((c : Thread nD τ).loc main_arg2) := by unwritten
theorem entry_arg3 (c : Dev nD) : entry m c main_arg3 = m ((c : Thread nD τ).loc main_arg3) := by unwritten
theorem entry_arg4 (c : Dev nD) : entry m c main_arg4 = m ((c : Thread nD τ).loc main_arg4) := by unwritten
theorem entry_arg5 (c : Dev nD) : entry m c main_arg5 = m ((c : Thread nD τ).loc main_arg5) := by unwritten
theorem entry_arg6 (c : Dev nD) : entry m c main_arg6 = m ((c : Thread nD τ).loc main_arg6) := by unwritten
theorem entry_arg7 (c : Dev nD) : entry m c main_arg7 = m ((c : Thread nD τ).loc main_arg7) := by unwritten
theorem entry_arg8 (c : Dev nD) : entry m c main_arg8 = m ((c : Thread nD τ).loc main_arg8) := by unwritten
theorem entry_arg9 (c : Dev nD) : entry m c main_arg9 = m ((c : Thread nD τ).loc main_arg9) := by unwritten
theorem entry_arg10 (c : Dev nD) : entry m c main_arg10 = m ((c : Thread nD τ).loc main_arg10) := by unwritten
theorem entry_arg11 (c : Dev nD) : entry m c main_arg11 = m ((c : Thread nD τ).loc main_arg11) := by unwritten
theorem entry_arg12 (c : Dev nD) : entry m c main_arg12 = m ((c : Thread nD τ).loc main_arg12) := by unwritten
theorem entry_arg13 (c : Dev nD) : entry m c main_arg13 = m ((c : Thread nD τ).loc main_arg13) := by unwritten
theorem entry_arg14 (c : Dev nD) : entry m c main_arg14 = m ((c : Thread nD τ).loc main_arg14) := by unwritten

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

end Cert.KernelIdeal.Cell

end
-- ==== Proof.CellRunIdeal.lean ====
/-
  The kernel program's run: it terminates, faults nowhere, leaves every argument array as launched, and ends with the
  two result arrays at what the library computes from the per-point blocks.

  The proof data say, for every grid point, what each staging buffer holds once the body has run there: an input's
  buffer still its block of the array; the hidden-state buffer and the cell-state buffer the two blocks the body
  computes from the seven input blocks of that point. An input's buffer holds its block at every point whether or not
  the pipeline fetched it there: the four small operands are fetched once, at the first point, and their block index
  never moves. With the body's triple this is the library's per-point obligation, and the library's launch theorem
  gives the run.
-/
import proofs.«164261_j65481071399076_1_alg».proof.Proof.CellBodyIdeal
import proofs.«164261_j65481071399076_1_alg».proof.Proof.CellEntryIdeal

set_option maxRecDepth 16384

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## An input's staging buffer holds its block at every point -/

theorem input_found_0 {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

theorem input_found_1 {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

theorem input_found_2 {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

theorem input_found_3 {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

theorem input_found_4 {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

theorem input_found_5 {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

theorem input_found_6 {c : Dev nD} (dat : Dat τ (Elt F) Unit ℕ (UR sig nD τ) ℕ cfg0 c) (hA : dat.A 6 = entry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The proof data -/

/-- On core `c`: the arrays as the region finds them; after the body at point `t` each input's buffer at its block and
    the two outputs' at the blocks the body computes from the point's seven input blocks; the invariant the scoped rest
    and the generator register, untouched; nothing owed; full shares. -/
def points (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => hiddenBlock (blockAt m c 0 t) (blockAt m c 1 t) (blockAt m c 2 t) (blockAt m c 3 t) (blockAt m c 4 t) (blockAt m c 5 t) (blockAt m c 6 t)
    | ⟨8, _⟩ => cellBlock (blockAt m c 0 t) (blockAt m c 1 t) (blockAt m c 2 t) (blockAt m c 3 t) (blockAt m c 4 t) (blockAt m c 5 t) (blockAt m c 6 t)
  Φ _ := Pipeline.ΦA spec0 c
  q _ := fullShare
  owed _ := 0

theorem A_eq (c : Dev nD) (w : Fin cfg0.W) : (points m 0 c).A w = entry m c (Pipeline.arrRef spec0 w) := by
  dsimp only [points]

theorem after_0 (c : Dev nD) (t : Fin cfg0.N) : (points m 0 c).after 0 t = blockAt m c 0 t := by dsimp only [points]
theorem after_1 (c : Dev nD) (t : Fin cfg0.N) : (points m 0 c).after 1 t = blockAt m c 1 t := by dsimp only [points]
theorem after_2 (c : Dev nD) (t : Fin cfg0.N) : (points m 0 c).after 2 t = blockAt m c 2 t := by dsimp only [points]
theorem after_3 (c : Dev nD) (t : Fin cfg0.N) : (points m 0 c).after 3 t = blockAt m c 3 t := by dsimp only [points]
theorem after_4 (c : Dev nD) (t : Fin cfg0.N) : (points m 0 c).after 4 t = blockAt m c 4 t := by dsimp only [points]
theorem after_5 (c : Dev nD) (t : Fin cfg0.N) : (points m 0 c).after 5 t = blockAt m c 5 t := by dsimp only [points]
theorem after_6 (c : Dev nD) (t : Fin cfg0.N) : (points m 0 c).after 6 t = blockAt m c 6 t := by dsimp only [points]
theorem after_7 (c : Dev nD) (t : Fin cfg0.N) : (points m 0 c).after 7 t = hiddenBlock (blockAt m c 0 t) (blockAt m c 1 t) (blockAt m c 2 t) (blockAt m c 3 t) (blockAt m c 4 t) (blockAt m c 5 t) (blockAt m c 6 t) := by dsimp only [points]
theorem after_8 (c : Dev nD) (t : Fin cfg0.N) : (points m 0 c).after 8 t = cellBlock (blockAt m c 0 t) (blockAt m c 1 t) (blockAt m c 2 t) (blockAt m c 3 t) (blockAt m c 4 t) (blockAt m c 5 t) (blockAt m c 6 t) := by dsimp only [points]

theorem before_0 (c : Dev nD) (t : Fin cfg0.N) (d) : (points m 0 c).before 0 t d = blockAt m c 0 t :=
  input_found_0 m (points m 0 c) (A_eq m c 0) (after_0 m c) t d
theorem before_1 (c : Dev nD) (t : Fin cfg0.N) (d) : (points m 0 c).before 1 t d = blockAt m c 1 t :=
  input_found_1 m (points m 0 c) (A_eq m c 1) (after_1 m c) t d
theorem before_2 (c : Dev nD) (t : Fin cfg0.N) (d) : (points m 0 c).before 2 t d = blockAt m c 2 t :=
  input_found_2 m (points m 0 c) (A_eq m c 2) (after_2 m c) t d
theorem before_3 (c : Dev nD) (t : Fin cfg0.N) (d) : (points m 0 c).before 3 t d = blockAt m c 3 t :=
  input_found_3 m (points m 0 c) (A_eq m c 3) (after_3 m c) t d
theorem before_4 (c : Dev nD) (t : Fin cfg0.N) (d) : (points m 0 c).before 4 t d = blockAt m c 4 t :=
  input_found_4 m (points m 0 c) (A_eq m c 4) (after_4 m c) t d
theorem before_5 (c : Dev nD) (t : Fin cfg0.N) (d) : (points m 0 c).before 5 t d = blockAt m c 5 t :=
  input_found_5 m (points m 0 c) (A_eq m c 5) (after_5 m c) t d
theorem before_6 (c : Dev nD) (t : Fin cfg0.N) (d) : (points m 0 c).before 6 t d = blockAt m c 6 t :=
  input_found_6 m (points m 0 c) (A_eq m c 6) (after_6 m c) t d

/-! ## The per-point obligation -/

/-- What the body is called with at point `t`, the windows one by one, -/
def pointPre (c : Dev nD) (t : Fin cfg0.N) : sProp 𝕄 :=
  iprop((points m 0 c).Φ t.castSucc ∗ (points m 0 c).owesAt () t.castSucc
    ∗ (∃ d, owns (c : Thread nD τ) (st0_0 t) fullShare ((points m 0 c).before 0 t d))
    ∗ (∃ d, owns (c : Thread nD τ) (st0_1 t) fullShare ((points m 0 c).before 1 t d))
    ∗ (∃ d, owns (c : Thread nD τ) (st0_2 t) fullShare ((points m 0 c).before 2 t d))
    ∗ (∃ d, owns (c : Thread nD τ) (st0_3 t) fullShare ((points m 0 c).before 3 t d))
    ∗ (∃ d, owns (c : Thread nD τ) (st0_4 t) fullShare ((points m 0 c).before 4 t d))
    ∗ (∃ d, owns (c : Thread nD τ) (st0_5 t) fullShare ((points m 0 c).before 5 t d))
    ∗ (∃ d, owns (c : Thread nD τ) (st0_6 t) fullShare ((points m 0 c).before 6 t d))
    ∗ (∃ d, owns (c : Thread nD τ) (st0_7 t) fullShare ((points m 0 c).before 7 t d))
    ∗ (∃ d, owns (c : Thread nD τ) (st0_8 t) fullShare ((points m 0 c).before 8 t d)))

/-- and what it hands back. -/
def pointPost (c : Dev nD) (t : Fin cfg0.N) : sProp 𝕄 :=
  iprop((points m 0 c).Φ t.succ ∗ (points m 0 c).owesAt () t.succ
    ∗ owns (c : Thread nD τ) (st0_0 t) fullShare ((points m 0 c).after 0 t)
    ∗ owns (c : Thread nD τ) (st0_1 t) fullShare ((points m 0 c).after 1 t)
    ∗ owns (c : Thread nD τ) (st0_2 t) fullShare ((points m 0 c).after 2 t)
    ∗ owns (c : Thread nD τ) (st0_3 t) fullShare ((points m 0 c).after 3 t)
    ∗ owns (c : Thread nD τ) (st0_4 t) fullShare ((points m 0 c).after 4 t)
    ∗ owns (c : Thread nD τ) (st0_5 t) fullShare ((points m 0 c).after 5 t)
    ∗ owns (c : Thread nD τ) (st0_6 t) fullShare ((points m 0 c).after 6 t)
    ∗ owns (c : Thread nD τ) (st0_7 t) fullShare ((points m 0 c).after 7 t)
    ∗ owns (c : Thread nD τ) (st0_8 t) fullShare ((points m 0 c).after 8 t))

set_option maxHeartbeats 1000000 in
/-- The body at any point: the inputs' buffers hold their blocks, so the body's triple applies; the invariant and the
    core's debts pass through unread. -/
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [before_0, before_1, before_2, before_3, before_4, before_5, before_6]
  rw [show (points m 0 c).Φ t.succ = (points m 0 c).Φ t.castSucc from rfl,
    show (points m 0 c).owesAt () t.succ = (points m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_triple c Set.univ (grid0.coords t) _ _ _ _ _ _ _ _ _ _ _ _ _ _ _ _ _ _
    (blockAt m c 0 t) (blockAt m c 1 t) (blockAt m c 2 t) (blockAt m c 3 t) (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem obligation (c : Dev nD) : BodyObligation (points (F := F) m 0 c) (defs₀ (F := F)) Variants.none () Set.univ := fun t => by
  rw [bigSep_W0, bigSep_W0]
  exact point_sound m c t

/-! ## The run -/

set_option backward.isDefEq.respectTransparency.types false in
/-- From any memory with zero counters every weakly fair execution of the program terminates, and every final state has
    each array of the pipeline at what the library computes from the proof data and every other unscoped buffer as the
    region found it. -/
theorem run_main : θ_run defs (onTc (τ := τ) (main (F := F))) (s₀ m ρ) (Pipeline.FramePost cfgs (points m) 0 (entry m)) :=
  Pipeline.θ_run_frame cfgs (points m) (0 : Fin 1) launch0 defs₀ Variants.none m ρ main
    (hbody := fun c => (obligation m c).loose) (hshare := fun c => (points m 0 c).share_full fun _ => rfl)
    (howed := fun _ _ => rfl) (V := entry m) (hmain := main_to_region m Variants.none) (hA := A_eq m) (hΦ := fun _ _ => rfl)

/-- The run with its results named: the two result arrays end at the library's fold of the per-point blocks, and every
    argument array ends as launched. -/
theorem run_named : θ_run defs (onTc (τ := τ) (main (F := F))) ⟨m, fun _ => 0, ρ⟩ (fun r => ∀ c : Dev nD,
      (r.2.mem ((c.tc : Thread nD τ).loc main_v11_0) = (points m 0 c).arrAt 7 cfg0.N
      ∧ r.2.mem ((c.tc : Thread nD τ).loc main_v11_1) = (points m 0 c).arrAt 8 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨⟨(h c).1 7, (h c).1 8⟩,
    ((h c).1 0).trans ((((points m) 0 c).arrAt_in 0 rfl _).trans ((A_eq m c 0).trans (entry_arg0 m c))),
    ((h c).1 1).trans ((((points m) 0 c).arrAt_in 1 rfl _).trans ((A_eq m c 1).trans (entry_arg1 m c))),
    ((h c).1 2).trans ((((points m) 0 c).arrAt_in 2 rfl _).trans ((A_eq m c 2).trans (entry_arg2 m c))),
    ((h c).2 main_arg3 (Pipeline.mem_restRefs_of main_arg3 (by decide) (by decide))).trans (entry_arg3 m c),
    ((h c).2 main_arg4 (Pipeline.mem_restRefs_of main_arg4 (by decide) (by decide))).trans (entry_arg4 m c),
    ((h c).2 main_arg5 (Pipeline.mem_restRefs_of main_arg5 (by decide) (by decide))).trans (entry_arg5 m c),
    ((h c).2 main_arg6 (Pipeline.mem_restRefs_of main_arg6 (by decide) (by decide))).trans (entry_arg6 m c),
    ((h c).2 main_arg7 (Pipeline.mem_restRefs_of main_arg7 (by decide) (by decide))).trans (entry_arg7 m c),
    ((h c).2 main_arg8 (Pipeline.mem_restRefs_of main_arg8 (by decide) (by decide))).trans (entry_arg8 m c),
    ((h c).2 main_arg9 (Pipeline.mem_restRefs_of main_arg9 (by decide) (by decide))).trans (entry_arg9 m c),
    ((h c).2 main_arg10 (Pipeline.mem_restRefs_of main_arg10 (by decide) (by decide))).trans (entry_arg10 m c),
    ((h c).2 main_arg11 (Pipeline.mem_restRefs_of main_arg11 (by decide) (by decide))).trans (entry_arg11 m c),
    ((h c).2 main_arg12 (Pipeline.mem_restRefs_of main_arg12 (by decide) (by decide))).trans (entry_arg12 m c),
    ((h c).2 main_arg13 (Pipeline.mem_restRefs_of main_arg13 (by decide) (by decide))).trans (entry_arg13 m c),
    ((h c).2 main_arg14 (Pipeline.mem_restRefs_of main_arg14 (by decide) (by decide))).trans (entry_arg14 m c)⟩) (run_main m ρ)

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run_named m ρ)

end Cert.KernelIdeal.Cell

end
-- ==== Proof.CellSpec.lean ====
/-
  The recurrent cell's update, one entry at a time, on the extended reals.

  A gate has four wires. Wire `j`'s angle at a row is the affine pre-activation of the row — its 4096 wide inputs against
  the gate's row `j` of input weights, plus its four previous hidden values against the gate's row `j` of recurrent
  weights, plus the gate's bias — plus the gate's phase. The gate's four outputs are fixed products of the wires'
  cosines (`mix`). The new cell entry is σ(forget)·previous + σ(input)·tanh(candidate); the new hidden entry is
  σ(output)·tanh(new cell entry).

  Two accessors say where a gate's numbers sit. The kernel holds the four gates stacked: wire `j` of gate `g` is column
  `4 g + j` of a 4096×16 panel, of a 4×16 panel and of two 1×16 rows. The reference holds each gate apart, its weights
  one 4×4100 matrix whose first 4096 columns meet the wide input and whose last four meet the hidden state.
  `sum_wide_then_hidden` is the one algebraic fact between the two spellings: a sum over the 4100 joined columns is the
  sum over the first 4096 plus the sum over the last four (addition of extended reals is associative and commutative,
  so nothing here needs finiteness).
-/
import Idealize.ShloMosaic.PureOps.Ideal
import Idealize.ShloMosaic.Lib.ValueIdx

noncomputable section

open scoped BigOperators

namespace Cert.CellSpec

open Idealize.ShloMosaic Idealize.ShloMosaic.ValueIdx

/-- A matrix of extended reals with literal extents. -/
abbrev Mat (a b : Nat) : Type := (⟨2, ![a, b]⟩ : Shape).Idx → EReal
/-- A vector of extended reals with a literal extent. -/
abbrev Vct (a : Nat) : Type := (⟨1, ![a]⟩ : Shape).Idx → EReal

/-! ## One gate at one row -/

/-- The products of cosines a gate's four outputs are. -/
def mix (c : Fin 4 → EReal) (q : Fin 4) : EReal :=
  match q with
  | 0 => c 1 * c 2 * c 3
  | 1 => c 0 * c 1
  | 2 => c 0 * c 1 * c 2
  | 3 => c 0 * c 1 * c 2 * c 3

/-- Wire `j`'s angle: the row against the gate's input weights, plus the hidden row against its recurrent weights,
    plus bias, plus phase. -/
def angle (xr : Fin 4096 → EReal) (hr : Fin 4 → EReal) (wx : Fin 4 → Fin 4096 → EReal) (wh : Fin 4 → Fin 4 → EReal)
    (b th : Fin 4 → EReal) (j : Fin 4) : EReal :=
  (((∑ k : Fin 4096, xr k * wx j k) + (∑ k : Fin 4, hr k * wh j k)) + b j) + th j

/-- A gate's output `q` before squashing. -/
def gate (xr : Fin 4096 → EReal) (hr : Fin 4 → EReal) (wx : Fin 4 → Fin 4096 → EReal) (wh : Fin 4 → Fin 4 → EReal)
    (b th : Fin 4 → EReal) (q : Fin 4) : EReal :=
  mix (fun j => Ideal.cos (angle xr hr wx wh b th j)) q

/-- The new cell entry `q` of a row: forget gate, input gate, candidate gate, and the previous cell entry `cq`. -/
def cellRow (xr : Fin 4096 → EReal) (hr : Fin 4 → EReal) (cq : EReal)
    (wxF : Fin 4 → Fin 4096 → EReal) (whF : Fin 4 → Fin 4 → EReal) (bF tF : Fin 4 → EReal)
    (wxI : Fin 4 → Fin 4096 → EReal) (whI : Fin 4 → Fin 4 → EReal) (bI tI : Fin 4 → EReal)
    (wxG : Fin 4 → Fin 4096 → EReal) (whG : Fin 4 → Fin 4 → EReal) (bG tG : Fin 4 → EReal) (q : Fin 4) : EReal :=
  Ideal.logistic (gate xr hr wxF whF bF tF q) * cq
    + Ideal.logistic (gate xr hr wxI whI bI tI q) * Ideal.tanh (gate xr hr wxG whG bG tG q)

/-- The new hidden entry `q` of a row: the output gate times tanh of the new cell entry. -/
def hiddenRow (xr : Fin 4096 → EReal) (hr : Fin 4 → EReal) (cq : EReal)
    (wxF : Fin 4 → Fin 4096 → EReal) (whF : Fin 4 → Fin 4 → EReal) (bF tF : Fin 4 → EReal)
    (wxI : Fin 4 → Fin 4096 → EReal) (whI : Fin 4 → Fin 4 → EReal) (bI tI : Fin 4 → EReal)
    (wxG : Fin 4 → Fin 4096 → EReal) (whG : Fin 4 → Fin 4 → EReal) (bG tG : Fin 4 → EReal)
    (wxO : Fin 4 → Fin 4096 → EReal) (whO : Fin 4 → Fin 4 → EReal) (bO tO : Fin 4 → EReal) (q : Fin 4) : EReal :=
  Ideal.logistic (gate xr hr wxO whO bO tO q)
    * Ideal.tanh (cellRow xr hr cq wxF whF bF tF wxI whI bI tI wxG whG bG tG q)

/-! ## Where a gate's numbers sit: each gate apart (the reference) -/

/-- A gate's input weights: the first 4096 columns of its 4×4100 matrix. -/
def argWx (W : Mat 4 4100) : Fin 4 → Fin 4096 → EReal := fun j k => W (ix2 j (⟨k.val, by omega⟩ : Fin 4100))
/-- A gate's recurrent weights: the last four columns of its 4×4100 matrix. -/
def argWh (W : Mat 4 4100) : Fin 4 → Fin 4 → EReal := fun j k => W (ix2 j (⟨4096 + k.val, by omega⟩ : Fin 4100))
/-- A gate's bias or phase vector. -/
def argVec (v : Vct 4) : Fin 4 → EReal := fun j => v (ix1 j)

/-- The new cell state at row `r`, entry `q`, of the fifteen argument arrays (twelve are read). -/
def cellAt (x : Mat 32768 4096) (h c : Mat 32768 4) (Wf : Mat 4 4100) (bf tf : Vct 4) (Wi : Mat 4 4100) (bi ti : Vct 4)
    (Wg : Mat 4 4100) (bg tg : Vct 4) (r : Fin 32768) (q : Fin 4) : EReal :=
  cellRow (fun k => x (ix2 r k)) (fun k => h (ix2 r k)) (c (ix2 r q))
    (argWx Wf) (argWh Wf) (argVec bf) (argVec tf) (argWx Wi) (argWh Wi) (argVec bi) (argVec ti)
    (argWx Wg) (argWh Wg) (argVec bg) (argVec tg) q

/-- The new hidden state at row `r`, entry `q`. -/
def hiddenAt (x : Mat 32768 4096) (h c : Mat 32768 4) (Wf : Mat 4 4100) (bf tf : Vct 4) (Wi : Mat 4 4100) (bi ti : Vct 4)
    (Wg : Mat 4 4100) (bg tg : Vct 4) (Wo : Mat 4 4100) (bo tO : Vct 4) (r : Fin 32768) (q : Fin 4) : EReal :=
  hiddenRow (fun k => x (ix2 r k)) (fun k => h (ix2 r k)) (c (ix2 r q))
    (argWx Wf) (argWh Wf) (argVec bf) (argVec tf) (argWx Wi) (argWh Wi) (argVec bi) (argVec ti)
    (argWx Wg) (argWh Wg) (argVec bg) (argVec tg) (argWx Wo) (argWh Wo) (argVec bo) (argVec tO) q

/-- The new cell state as one array. -/
def cellArray (x : Mat 32768 4096) (h c : Mat 32768 4) (Wf : Mat 4 4100) (bf tf : Vct 4) (Wi : Mat 4 4100) (bi ti : Vct 4)
    (Wg : Mat 4 4100) (bg tg : Vct 4) : Mat 32768 4 :=
  fun i => cellAt x h c Wf bf tf Wi bi ti Wg bg tg (i 0) (i 1)

/-- The new hidden state as one array. -/
def hiddenArray (x : Mat 32768 4096) (h c : Mat 32768 4) (Wf : Mat 4 4100) (bf tf : Vct 4) (Wi : Mat 4 4100) (bi ti : Vct 4)
    (Wg : Mat 4 4100) (bg tg : Vct 4) (Wo : Mat 4 4100) (bo tO : Vct 4) : Mat 32768 4 :=
  fun i => hiddenAt x h c Wf bf tf Wi bi ti Wg bg tg Wo bo tO (i 0) (i 1)

/-! ## Where a gate's numbers sit: the four gates stacked (the kernel) -/

/-- Column `4 g + j` of the stacked sixteen: wire `j` of gate `g`. -/
def wire (g j : Fin 4) : Fin 16 := ⟨4 * g.val + j.val, by omega⟩

/-- Gate `g`'s input weights in the transposed 4096×16 panel. -/
def panelX (wx : Mat 4096 16) (g : Fin 4) : Fin 4 → Fin 4096 → EReal := fun j k => wx (ix2 k (wire g j))
/-- Gate `g`'s recurrent weights in the transposed 4×16 panel. -/
def panelH (wh : Mat 4 16) (g : Fin 4) : Fin 4 → Fin 4 → EReal := fun j k => wh (ix2 k (wire g j))
/-- Gate `g`'s part of a stacked 1×16 row (bias or phase). -/
def rowPart (b : Mat 1 16) (g : Fin 4) : Fin 4 → EReal := fun j => b (ix2 (0 : Fin 1) (wire g j))

/-! ## The one law between the two spellings -/

/-- A sum over the 4100 joined columns is the sum over the 4096 wide ones plus the sum over the four hidden ones. -/
theorem sum_wide_then_hidden (f : Fin 4100 → EReal) :
    ∑ k : Fin 4100, f k
      = (∑ k : Fin 4096, f ⟨k.val, by omega⟩) + ∑ k : Fin 4, f ⟨4096 + k.val, by omega⟩ := by
  have h := Fin.sum_univ_add (M := EReal) (a := 4096) (b := 4) f
  exact h

end Cert.CellSpec

end
-- ==== Proof.CellEntryValues.lean ====
/-
  What the eleven host operations leave in the four small operands of the kernel region, read at an index.

  The four gates' 4×4100 weight matrices are stacked into one 16×4100 matrix (gate g's row j becomes row 4g+j); its first
  4096 columns, transposed, are the 4096×16 panel the region reads as its fourth operand, and its last four columns,
  transposed, the 4×16 panel it reads as its fifth (a narrowing of format in between, the identity on extended reals).
  The four bias vectors, and the four phase vectors, are stacked into 16-vectors and reshaped to 1×16 rows. So column
  4g+j of either panel is row j of gate g's matrix, and entry 4g+j of either row is entry j of gate g's vector.
-/
import proofs.«164261_j65481071399076_1_alg».proof.Proof.CellEntryIdeal
import proofs.«164261_j65481071399076_1_alg».proof.Proof.CellSpec
import Idealize.ShloMosaic.Lib.Pipeline.Value
import Idealize.ShloMosaic.Lib.ValueIdx
import Idealize.ShloMosaic.Lib.StableHlo.Run

set_option maxRecDepth 16384

noncomputable section

namespace Cert.KernelIdeal.Cell

open Idealize.ShloMosaic Idealize.ShloMosaic.TcCoe Idealize.ShloMosaic.ValueIdx Idealize.ShloMosaic.StableHlo
open Idealize.SL.Sem
open Cert.KernelIdeal.Gen Cert.CellSpec

/-- One of four things, by the gate. -/
def pick4 {α : Type} (a0 a1 a2 a3 : α) (g : Fin 4) : α :=
  match g with
  | 0 => a0
  | 1 => a1
  | 2 => a2
  | 3 => a3

/-! ## Four equal pieces stacked along the leading axis, read at position 4g + j -/

/-- Row 4g+j of the stacked 16×4100 matrix is row j of gate g's matrix. -/
theorem stackedRows_apply (W0 W1 W2 W3 : Vec Ideal S4x4100 .f32) (g j : Fin 4) (k : Fin 4100) :
    concatenate S16x4100 0 [⟨S4x4100, W0⟩, ⟨S4x4100, W1⟩, ⟨S4x4100, W2⟩, ⟨S4x4100, W3⟩]
        concatenates_S4x4100_S4x4100_S4x4100_S4x4100_S16x4100_d0 (ix2 (wire g j) k)
      = pick4 W0 W1 W2 W3 g (ix2 j k) := by
  have hi : ∀ b : Fin S4x4100.rank, b.cast (rfl : S4x4100.rank = S16x4100.rank) ≠ (0 : Fin 2) →
      ((ix2 j k : S4x4100.Idx) b).val = ((ix2 (wire g j) k : S16x4100.Idx) (b.cast rfl)).val := fun b hb => by
    match b with
    | ⟨0, _⟩ => exact absurd rfl hb
    | ⟨1, _⟩ => rfl
  match g with
  | ⟨0, hg⟩ => exact concatenate_apply_piece (t := S16x4100) (0 : Fin 2) [⟨S4x4100, W0⟩, ⟨S4x4100, W1⟩, ⟨S4x4100, W2⟩, ⟨S4x4100, W3⟩] concatenates_S4x4100_S4x4100_S4x4100_S4x4100_S16x4100_d0 (ix2 (wire ⟨0, hg⟩ j) k) 0 (by simp) S4x4100 W0 rfl rfl 0 rfl (ix2 j k) hi (by show 0 + j.val = 4 * 0 + j.val; omega)
  | ⟨1, hg⟩ => exact concatenate_apply_piece (t := S16x4100) (0 : Fin 2) [⟨S4x4100, W0⟩, ⟨S4x4100, W1⟩, ⟨S4x4100, W2⟩, ⟨S4x4100, W3⟩] concatenates_S4x4100_S4x4100_S4x4100_S4x4100_S16x4100_d0 (ix2 (wire ⟨1, hg⟩ j) k) 1 (by simp) S4x4100 W1 rfl rfl 4 rfl (ix2 j k) hi (by show 4 + j.val = 4 * 1 + j.val; omega)
  | ⟨2, hg⟩ => exact concatenate_apply_piece (t := S16x4100) (0 : Fin 2) [⟨S4x4100, W0⟩, ⟨S4x4100, W1⟩, ⟨S4x4100, W2⟩, ⟨S4x4100, W3⟩] concatenates_S4x4100_S4x4100_S4x4100_S4x4100_S16x4100_d0 (ix2 (wire ⟨2, hg⟩ j) k) 2 (by simp) S4x4100 W2 rfl rfl 8 rfl (ix2 j k) hi (by show 8 + j.val = 4 * 2 + j.val; omega)
  | ⟨3, hg⟩ => exact concatenate_apply_piece (t := S16x4100) (0 : Fin 2) [⟨S4x4100, W0⟩, ⟨S4x4100, W1⟩, ⟨S4x4100, W2⟩, ⟨S4x4100, W3⟩] concatenates_S4x4100_S4x4100_S4x4100_S4x4100_S16x4100_d0 (ix2 (wire ⟨3, hg⟩ j) k) 3 (by simp) S4x4100 W3 rfl rfl 12 rfl (ix2 j k) hi (by show 12 + j.val = 4 * 3 + j.val; omega)

/-- Entry 4g+j of a stacked 16-vector is entry j of gate g's vector. -/
theorem stackedVec_apply (u0 u1 u2 u3 : Vec Ideal S4 .f32) (g j : Fin 4) :
    concatenate S16 0 [⟨S4, u0⟩, ⟨S4, u1⟩, ⟨S4, u2⟩, ⟨S4, u3⟩] concatenates_S4_S4_S4_S4_S16_d0 (ix1 (wire g j))
      = pick4 u0 u1 u2 u3 g (ix1 j) := by
  have hi : ∀ b : Fin S4.rank, b.cast (rfl : S4.rank = S16.rank) ≠ (0 : Fin 1) →
      ((ix1 j : S4.Idx) b).val = ((ix1 (wire g j) : S16.Idx) (b.cast rfl)).val := fun b hb => by
    match b with
    | ⟨0, _⟩ => exact absurd rfl hb
  match g with
  | ⟨0, hg⟩ => exact concatenate_apply_piece (t := S16) (0 : Fin 1) [⟨S4, u0⟩, ⟨S4, u1⟩, ⟨S4, u2⟩, ⟨S4, u3⟩] concatenates_S4_S4_S4_S4_S16_d0 (ix1 (wire ⟨0, hg⟩ j)) 0 (by simp) S4 u0 rfl rfl 0 rfl (ix1 j) hi (by show 0 + j.val = 4 * 0 + j.val; omega)
  | ⟨1, hg⟩ => exact concatenate_apply_piece (t := S16) (0 : Fin 1) [⟨S4, u0⟩, ⟨S4, u1⟩, ⟨S4, u2⟩, ⟨S4, u3⟩] concatenates_S4_S4_S4_S4_S16_d0 (ix1 (wire ⟨1, hg⟩ j)) 1 (by simp) S4 u1 rfl rfl 4 rfl (ix1 j) hi (by show 4 + j.val = 4 * 1 + j.val; omega)
  | ⟨2, hg⟩ => exact concatenate_apply_piece (t := S16) (0 : Fin 1) [⟨S4, u0⟩, ⟨S4, u1⟩, ⟨S4, u2⟩, ⟨S4, u3⟩] concatenates_S4_S4_S4_S4_S16_d0 (ix1 (wire ⟨2, hg⟩ j)) 2 (by simp) S4 u2 rfl rfl 8 rfl (ix1 j) hi (by show 8 + j.val = 4 * 2 + j.val; omega)
  | ⟨3, hg⟩ => exact concatenate_apply_piece (t := S16) (0 : Fin 1) [⟨S4, u0⟩, ⟨S4, u1⟩, ⟨S4, u2⟩, ⟨S4, u3⟩] concatenates_S4_S4_S4_S4_S16_d0 (ix1 (wire ⟨3, hg⟩ j)) 3 (by simp) S4 u3 rfl rfl 12 rfl (ix1 j) hi (by show 12 + j.val = 4 * 3 + j.val; omega)

variable (m : (ℓ : Loc nD τ sig) → Buf (Elt Ideal) ℓ)

/-! ## The four operands as terms of the argument arrays -/

/-- The stacked weight matrix of the launch contents. -/
abbrev stackedW (c : Dev nD) : Vec Ideal S16x4100 .f32 :=
  concatenate S16x4100 0 [⟨S4x4100, (m ((c : Thread nD τ).loc main_arg3))⟩, ⟨S4x4100, (m ((c : Thread nD τ).loc main_arg6))⟩, ⟨S4x4100, (m ((c : Thread nD τ).loc main_arg9))⟩, ⟨S4x4100, (m ((c : Thread nD τ).loc main_arg12))⟩]
    concatenates_S4x4100_S4x4100_S4x4100_S4x4100_S16x4100_d0

theorem entry_wx_term (c : Dev nD) : (entry m c main_v6 : Vec Ideal S4096x16 .bf16)
    = truncf (F := Ideal) .bf16 (transpose S4096x16 [1, 0] (extractStridedSlice S16x4096 ![0, 0] (stackedW m c) slices_S16x4100_S16x4096_0_0)
        transposes_S16x4096_S4096x16_1_0) bitsLt_bf16_f32 := by
  show StableHlo.after hostOps0 (fun b => m (c, b)) (Proc.devRef .tc main_v6) = _
  after_results
  rfl

theorem entry_wh_term (c : Dev nD) : (entry m c main_v8 : Vec Ideal S4x16 .bf16)
    = truncf (F := Ideal) .bf16 (transpose S4x16 [1, 0] (extractStridedSlice S16x4 ![0, 4096] (stackedW m c) slices_S16x4100_S16x4_0_4096)
        transposes_S16x4_S4x16_1_0) bitsLt_bf16_f32 := by
  show StableHlo.after hostOps0 (fun b => m (c, b)) (Proc.devRef .tc main_v8) = _
  after_results
  rfl

theorem entry_b_term (c : Dev nD) : (entry m c main_v9 : Vec Ideal S1x16 .f32)
    = shapeCast S1x16 (concatenate S16 0 [⟨S4, (m ((c : Thread nD τ).loc main_arg4))⟩, ⟨S4, (m ((c : Thread nD τ).loc main_arg7))⟩, ⟨S4, (m ((c : Thread nD τ).loc main_arg10))⟩, ⟨S4, (m ((c : Thread nD τ).loc main_arg13))⟩] concatenates_S4_S4_S4_S4_S16_d0)
        shapeCasts_S16_S1x16 := by
  show StableHlo.after hostOps0 (fun b => m (c, b)) (Proc.devRef .tc main_v9) = _
  after_results
  rfl

theorem entry_th_term (c : Dev nD) : (entry m c main_v10 : Vec Ideal S1x16 .f32)
    = shapeCast S1x16 (concatenate S16 0 [⟨S4, (m ((c : Thread nD τ).loc main_arg5))⟩, ⟨S4, (m ((c : Thread nD τ).loc main_arg8))⟩, ⟨S4, (m ((c : Thread nD τ).loc main_arg11))⟩, ⟨S4, (m ((c : Thread nD τ).loc main_arg14))⟩] concatenates_S4_S4_S4_S4_S16_d0)
        shapeCasts_S16_S1x16 := by
  show StableHlo.after hostOps0 (fun b => m (c, b)) (Proc.devRef .tc main_v10) = _
  after_results
  rfl

/-! ## The gates' numbers in the four operands -/

/-- Gate g's columns of the 4096×16 panel are the first 4096 columns of gate g's matrix. -/
theorem panelX_entry (c : Dev nD) (g : Fin 4) :
    panelX (entry m c main_v6) g = argWx (pick4 (m ((c : Thread nD τ).loc main_arg3)) (m ((c : Thread nD τ).loc main_arg6)) (m ((c : Thread nD τ).loc main_arg9)) (m ((c : Thread nD τ).loc main_arg12)) g) := by
  funext j k
  show (entry m c main_v6 : Vec Ideal S4096x16 .bf16) (ix2 k (wire g j)) = (pick4 (m ((c : Thread nD τ).loc main_arg3)) (m ((c : Thread nD τ).loc main_arg6)) (m ((c : Thread nD τ).loc main_arg9)) (m ((c : Thread nD τ).loc main_arg12)) g) (ix2 j (⟨k.val, by omega⟩ : Fin 4100))
  rw [entry_wx_term]
  show transpose S4096x16 [1, 0] (extractStridedSlice S16x4096 ![0, 0] (stackedW m c) slices_S16x4100_S16x4096_0_0)
      transposes_S16x4096_S4096x16_1_0 (ix2 k (wire g j)) = _
  rw [transpose_apply [1, 0] _ transposes_S16x4096_S4096x16_1_0 (ix2 k (wire g j)) (ix2 (wire g j) k)
    (fun b => by match b with | ⟨0, _⟩ => rfl | ⟨1, _⟩ => rfl)]
  rw [extractStridedSlice_apply ![0, 0] _ slices_S16x4100_S16x4096_0_0 (ix2 (wire g j) k) (ix2 (wire g j) (⟨k.val, by omega⟩ : Fin 4100))
    (fun a => by match a with | ⟨0, _⟩ => exact (Nat.zero_add _).symm | ⟨1, _⟩ => exact (Nat.zero_add _).symm)]
  exact stackedRows_apply _ _ _ _ g j _

/-- Gate g's columns of the 4×16 panel are the last four columns of gate g's matrix. -/
theorem panelH_entry (c : Dev nD) (g : Fin 4) :
    panelH (entry m c main_v8) g = argWh (pick4 (m ((c : Thread nD τ).loc main_arg3)) (m ((c : Thread nD τ).loc main_arg6)) (m ((c : Thread nD τ).loc main_arg9)) (m ((c : Thread nD τ).loc main_arg12)) g) := by
  funext j k
  show (entry m c main_v8 : Vec Ideal S4x16 .bf16) (ix2 k (wire g j)) = (pick4 (m ((c : Thread nD τ).loc main_arg3)) (m ((c : Thread nD τ).loc main_arg6)) (m ((c : Thread nD τ).loc main_arg9)) (m ((c : Thread nD τ).loc main_arg12)) g) (ix2 j (⟨4096 + k.val, by omega⟩ : Fin 4100))
  rw [entry_wh_term]
  show transpose S4x16 [1, 0] (extractStridedSlice S16x4 ![0, 4096] (stackedW m c) slices_S16x4100_S16x4_0_4096)
      transposes_S16x4_S4x16_1_0 (ix2 k (wire g j)) = _
  rw [transpose_apply [1, 0] _ transposes_S16x4_S4x16_1_0 (ix2 k (wire g j)) (ix2 (wire g j) k)
    (fun b => by match b with | ⟨0, _⟩ => rfl | ⟨1, _⟩ => rfl)]
  rw [extractStridedSlice_apply ![0, 4096] _ slices_S16x4100_S16x4_0_4096 (ix2 (wire g j) k) (ix2 (wire g j) (⟨4096 + k.val, by omega⟩ : Fin 4100))
    (fun a => by match a with | ⟨0, _⟩ => exact (Nat.zero_add _).symm | ⟨1, _⟩ => rfl)]
  exact stackedRows_apply _ _ _ _ g j _

/-- Gate g's part of the bias row is gate g's bias vector. -/
theorem rowPart_entry_b (c : Dev nD) (g : Fin 4) :
    rowPart (entry m c main_v9) g = argVec (pick4 (m ((c : Thread nD τ).loc main_arg4)) (m ((c : Thread nD τ).loc main_arg7)) (m ((c : Thread nD τ).loc main_arg10)) (m ((c : Thread nD τ).loc main_arg13)) g) := by
  funext j
  show (entry m c main_v9 : Vec Ideal S1x16 .f32) (ix2 (0 : Fin 1) (wire g j)) = (pick4 (m ((c : Thread nD τ).loc main_arg4)) (m ((c : Thread nD τ).loc main_arg7)) (m ((c : Thread nD τ).loc main_arg10)) (m ((c : Thread nD τ).loc main_arg13)) g) (ix1 j)
  rw [entry_b_term]
  rw [shapeCast_apply _ shapeCasts_S16_S1x16 (ix2 (0 : Fin 1) (wire g j)) (ix1 (wire g j))
    (by rw [Shape.rowMajor_val_one, Shape.rowMajor_val_two]; show (wire g j).val = 0 * 16 + (wire g j).val; omega)]
  exact stackedVec_apply _ _ _ _ g j

/-- Gate g's part of the phase row is gate g's phase vector. -/
theorem rowPart_entry_th (c : Dev nD) (g : Fin 4) :
    rowPart (entry m c main_v10) g = argVec (pick4 (m ((c : Thread nD τ).loc main_arg5)) (m ((c : Thread nD τ).loc main_arg8)) (m ((c : Thread nD τ).loc main_arg11)) (m ((c : Thread nD τ).loc main_arg14)) g) := by
  funext j
  show (entry m c main_v10 : Vec Ideal S1x16 .f32) (ix2 (0 : Fin 1) (wire g j)) = (pick4 (m ((c : Thread nD τ).loc main_arg5)) (m ((c : Thread nD τ).loc main_arg8)) (m ((c : Thread nD τ).loc main_arg11)) (m ((c : Thread nD τ).loc main_arg14)) g) (ix1 j)
  rw [entry_th_term]
  rw [shapeCast_apply _ shapeCasts_S16_S1x16 (ix2 (0 : Fin 1) (wire g j)) (ix1 (wire g j))
    (by rw [Shape.rowMajor_val_one, Shape.rowMajor_val_two]; show (wire g j).val = 0 * 16 + (wire g j).val; omega)]
  exact stackedVec_apply _ _ _ _ g j

end Cert.KernelIdeal.Cell

end
-- ==== Proof.CellPayloadIdeal.lean ====
/-
  The two blocks one grid point of the recurrent-cell kernel produces, read at one entry, on the extended reals.

  At the ideal values every float is an extended real, a narrowing of the format is the identity, and a matrix product
  into a zero accumulator is the plain sum over the contracted axis. So the stacked pre-activations of a grid point's
  512 rows are, at row `p` and column `n` of the sixteen,
      (Σ_k x(p,k)·wx(k,n) + Σ_k h(p,k)·wh(k,n)) + b(0,n).
  Gate `g` (forget, input, candidate, output = 0, 1, 2, 3) owns columns `4 g … 4 g + 3`: its four angles are those
  columns plus the same columns of the phase row, and its four outputs are fixed products of the angles' cosines, laid
  side by side as four 512×1 columns. Reading the side-by-side block at column `q` picks product `q`; reading a column
  slice at `(p, 0)` picks the cosine at `(p, j)`; reading gate `g`'s slice at `(p, j)` picks column `4 g + j`. With
  these, ONE lemma says that a gate's block at `(p, q)` is the specification's gate formula of row `p` at gate `g`'s
  columns of the panels and rows, for every `g` at once (the four gates differ only in the slice offset). The new cell
  entry is then σ(forget)·previous + σ(input)·tanh(candidate), and the new hidden entry σ(output)·tanh(new cell entry),
  entry by entry: the specification's two row formulas.
-/
import proofs.«164261_j65481071399076_1_alg».proof.Proof.CellSpec
import proofs.«164261_j65481071399076_1_alg».proof.Proof.CellBlocksIdeal
import Idealize.ShloMosaic.Lib.Pipeline.FrameBody
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

open scoped BigOperators

namespace Cert.KernelIdeal.Cell

open Idealize.ShloMosaic Idealize.ShloMosaic.ValueIdx
open Cert.KernelIdeal.Gen Cert.CellSpec

/-! ## A load through the rectangle that is the whole buffer reads the buffer -/

/-- The zero offsets of a rank-2 rectangle, as the constant function. -/
theorem zeroOff : (![0, 0] : Fin 2 → Nat) = fun _ => 0 := funext fun a => by fin_cases a <;> rfl

/-- The wide input block, loaded whole. -/
theorem ld_wholeX (x : Vec Ideal S512x4096 .f32) : View.ld x wholeX = x :=
  View.ld_unit_zero (S := S512x4096) zeroOff inb_S512x4096_S512x4096_0_0 x
/-- A 512×4 block (previous hidden state, previous cell state), loaded whole. -/
theorem ld_whole4 (x : Vec Ideal S512x4 .f32) : View.ld x whole4 = x :=
  View.ld_unit_zero (S := S512x4) zeroOff inb_S512x4_S512x4_0_0 x
/-- The wide weight panel, loaded whole. -/
theorem ld_wholeWx (x : Vec Ideal S4096x16 .bf16) : View.ld x wholeWx = x :=
  View.ld_unit_zero (S := S4096x16) zeroOff inb_S4096x16_S4096x16_0_0 x
/-- The recurrent weight panel, loaded whole. -/
theorem ld_wholeWh (x : Vec Ideal S4x16 .bf16) : View.ld x wholeWh = x :=
  View.ld_unit_zero (S := S4x16) zeroOff inb_S4x16_S4x16_0_0 x
/-- A stacked 1×16 row (bias, phase), loaded whole. -/
theorem ld_wholeRow (x : Vec Ideal S1x16 .f32) : View.ld x wholeRow = x :=
  View.ld_unit_zero (S := S1x16) zeroOff inb_S1x16_S1x16_0_0 x

/-! ## The two matrix products into a zero accumulator: plain sums over the contracted axis -/

/-- The wide product's left operand index keeps the output row … -/
theorem lhsX_0 (i : S512x16.Idx) (q : dot_S512x4096_S4096x16_S512x16_1_0_0_1_n_n.contr.Idx) :
    (dot_S512x4096_S4096x16_S512x16_1_0_0_1_n_n.lhsIdx i q 0).val = (i 0).val := by
  unfold DotDims.lhsIdx
  rw [dif_neg (show ¬(0 : Fin S512x4096.rank) ∈ dot_S512x4096_S4096x16_S512x16_1_0_0_1_n_n.lhsBatch by decide), dif_pos (show (0 : Fin S512x4096.rank) ∈ dot_S512x4096_S4096x16_S512x16_1_0_0_1_n_n.lhsNonContracting by decide)]
  rfl
/-- … and reads the contraction position on its columns; -/
theorem lhsX_1 (i : S512x16.Idx) (q : dot_S512x4096_S4096x16_S512x16_1_0_0_1_n_n.contr.Idx) :
    (dot_S512x4096_S4096x16_S512x16_1_0_0_1_n_n.lhsIdx i q 1).val = (q ⟨0, by decide⟩).val :=
  dot_S512x4096_S4096x16_S512x16_1_0_0_1_n_n.lhsIdx_val_of_single rfl i q
/-- its right operand index reads the contraction position on its rows … -/
theorem rhsX_0 (i : S512x16.Idx) (q : dot_S512x4096_S4096x16_S512x16_1_0_0_1_n_n.contr.Idx) :
    (dot_S512x4096_S4096x16_S512x16_1_0_0_1_n_n.rhsIdx i q 0).val = (q ⟨0, by decide⟩).val :=
  dot_S512x4096_S4096x16_S512x16_1_0_0_1_n_n.rhsIdx_val_of_single rfl i q
/-- … and keeps the output column. -/
theorem rhsX_1 (i : S512x16.Idx) (q : dot_S512x4096_S4096x16_S512x16_1_0_0_1_n_n.contr.Idx) :
    (dot_S512x4096_S4096x16_S512x16_1_0_0_1_n_n.rhsIdx i q 1).val = (i 1).val := by
  unfold DotDims.rhsIdx
  rw [dif_neg (show ¬(1 : Fin S4096x16.rank) ∈ dot_S512x4096_S4096x16_S512x16_1_0_0_1_n_n.rhsBatch by decide), dif_pos (show (1 : Fin S4096x16.rank) ∈ dot_S512x4096_S4096x16_S512x16_1_0_0_1_n_n.rhsNonContracting by decide)]
  rfl

/-- The wide product at row `p`, column `n`: the sum over the 4096 contracted positions. -/
theorem matmulX_apply (l : FVec Ideal S512x4096 .bf16) (r : FVec Ideal S4096x16 .bf16) (p : Fin 512) (n : Fin 16) :
    matmul dot_S512x4096_S4096x16_S512x16_1_0_0_1_n_n none l r (constant (F := Ideal) S512x16 .f32 0x00000000#32) (ix2 p n)
      = ∑ k : Fin 4096, l (ix2 p k) * r (ix2 k n) := by
  simp only [matmul]
  rw [Ideal.matmul_constant_zero_apply, ← Equiv.sum_comp (contrEquiv1 dot_S512x4096_S4096x16_S512x16_1_0_0_1_n_n 4096 rfl rfl).symm]
  refine Finset.sum_congr rfl fun k _ => ?_
  have hk := contrEquiv1_symm_val dot_S512x4096_S4096x16_S512x16_1_0_0_1_n_n 4096 rfl rfl k
  have el : dot_S512x4096_S4096x16_S512x16_1_0_0_1_n_n.lhsIdx (ix2 p n) ((contrEquiv1 dot_S512x4096_S4096x16_S512x16_1_0_0_1_n_n 4096 rfl rfl).symm k) = ix2 p k := funext fun a => Fin.ext (by
    match a with
    | ⟨0, _⟩ => exact lhsX_0 _ _
    | ⟨1, _⟩ => exact (lhsX_1 _ _).trans hk)
  have er : dot_S512x4096_S4096x16_S512x16_1_0_0_1_n_n.rhsIdx (ix2 p n) ((contrEquiv1 dot_S512x4096_S4096x16_S512x16_1_0_0_1_n_n 4096 rfl rfl).symm k) = ix2 k n := funext fun a => Fin.ext (by
    match a with
    | ⟨0, _⟩ => exact (rhsX_0 _ _).trans hk
    | ⟨1, _⟩ => exact rhsX_1 _ _)
  rw [el, er]

/-- The hidden product's operand indices, likewise: the output row, -/
theorem lhsH_0 (i : S512x16.Idx) (q : dot_S512x4_S4x16_S512x16_1_0_0_1_n_n.contr.Idx) :
    (dot_S512x4_S4x16_S512x16_1_0_0_1_n_n.lhsIdx i q 0).val = (i 0).val := by
  unfold DotDims.lhsIdx
  rw [dif_neg (show ¬(0 : Fin S512x4.rank) ∈ dot_S512x4_S4x16_S512x16_1_0_0_1_n_n.lhsBatch by decide), dif_pos (show (0 : Fin S512x4.rank) ∈ dot_S512x4_S4x16_S512x16_1_0_0_1_n_n.lhsNonContracting by decide)]
  rfl
/-- the contraction position, -/
theorem lhsH_1 (i : S512x16.Idx) (q : dot_S512x4_S4x16_S512x16_1_0_0_1_n_n.contr.Idx) :
    (dot_S512x4_S4x16_S512x16_1_0_0_1_n_n.lhsIdx i q 1).val = (q ⟨0, by decide⟩).val :=
  dot_S512x4_S4x16_S512x16_1_0_0_1_n_n.lhsIdx_val_of_single rfl i q
/-- the contraction position, -/
theorem rhsH_0 (i : S512x16.Idx) (q : dot_S512x4_S4x16_S512x16_1_0_0_1_n_n.contr.Idx) :
    (dot_S512x4_S4x16_S512x16_1_0_0_1_n_n.rhsIdx i q 0).val = (q ⟨0, by decide⟩).val :=
  dot_S512x4_S4x16_S512x16_1_0_0_1_n_n.rhsIdx_val_of_single rfl i q
/-- the output column. -/
theorem rhsH_1 (i : S512x16.Idx) (q : dot_S512x4_S4x16_S512x16_1_0_0_1_n_n.contr.Idx) :
    (dot_S512x4_S4x16_S512x16_1_0_0_1_n_n.rhsIdx i q 1).val = (i 1).val := by
  unfold DotDims.rhsIdx
  rw [dif_neg (show ¬(1 : Fin S4x16.rank) ∈ dot_S512x4_S4x16_S512x16_1_0_0_1_n_n.rhsBatch by decide), dif_pos (show (1 : Fin S4x16.rank) ∈ dot_S512x4_S4x16_S512x16_1_0_0_1_n_n.rhsNonContracting by decide)]
  rfl

/-- The hidden product at row `p`, column `n`: the sum over the four contracted positions. -/
theorem matmulH_apply (l : FVec Ideal S512x4 .bf16) (r : FVec Ideal S4x16 .bf16) (p : Fin 512) (n : Fin 16) :
    matmul dot_S512x4_S4x16_S512x16_1_0_0_1_n_n none l r (constant (F := Ideal) S512x16 .f32 0x00000000#32) (ix2 p n)
      = ∑ k : Fin 4, l (ix2 p k) * r (ix2 k n) := by
  simp only [matmul]
  rw [Ideal.matmul_constant_zero_apply, ← Equiv.sum_comp (contrEquiv1 dot_S512x4_S4x16_S512x16_1_0_0_1_n_n 4 rfl rfl).symm]
  refine Finset.sum_congr rfl fun k _ => ?_
  have hk := contrEquiv1_symm_val dot_S512x4_S4x16_S512x16_1_0_0_1_n_n 4 rfl rfl k
  have el : dot_S512x4_S4x16_S512x16_1_0_0_1_n_n.lhsIdx (ix2 p n) ((contrEquiv1 dot_S512x4_S4x16_S512x16_1_0_0_1_n_n 4 rfl rfl).symm k) = ix2 p k := funext fun a => Fin.ext (by
    match a with
    | ⟨0, _⟩ => exact lhsH_0 _ _
    | ⟨1, _⟩ => exact (lhsH_1 _ _).trans hk)
  have er : dot_S512x4_S4x16_S512x16_1_0_0_1_n_n.rhsIdx (ix2 p n) ((contrEquiv1 dot_S512x4_S4x16_S512x16_1_0_0_1_n_n 4 rfl rfl).symm k) = ix2 k n := funext fun a => Fin.ext (by
    match a with
    | ⟨0, _⟩ => exact (rhsH_0 _ _).trans hk
    | ⟨1, _⟩ => exact rhsH_1 _ _)
  rw [el, er]

/-! ## The stacked pre-activations -/

/-- Row `p`, column `n` of the stacked pre-activations: the row against column `n` of the wide panel, plus the hidden
    row against column `n` of the recurrent panel, plus the stacked bias at `n`. -/
theorem logits_apply (x : Vec Ideal S512x4096 .f32) (h : Vec Ideal S512x4 .f32) (wx : Vec Ideal S4096x16 .bf16)
    (wh : Vec Ideal S4x16 .bf16) (b : Vec Ideal S1x16 .f32) (p : Fin 512) (n : Fin 16) :
    k0_pay1 (F := Ideal) x h wx wh b (ix2 p n)
      = ((∑ k : Fin 4096, x (ix2 p k) * wx (ix2 k n)) + ∑ k : Fin 4, h (ix2 p k) * wh (ix2 k n)) + b (ix2 (0 : Fin 1) n) := by
  unfold k0_pay1
  rw [shapeCast_self, shapeCast_self, shapeCast_self, addf_apply, addf_apply, matmulX_apply, matmulH_apply,
    broadcastTo_apply b broadcasts_S1x16_S512x16 (ix2 p n) (ix2 (0 : Fin 1) n) (fun a => match a with
      | ⟨0, _⟩ => rfl
      | ⟨1, _⟩ => rfl)]
  rfl

/-- The phase row passes through a cast to its own shape. -/
theorem pay2_eq (th : Vec Ideal S1x16 .f32) : k0_pay2 (F := Ideal) th = th := by
  unfold k0_pay2; exact shapeCast_self _ _

/-! ## One gate: slices of the stacked sixteen, cosines, the four products side by side -/

section Stages
variable {F : FTy → Type} [FloatOps F]

/-- Column `0` of a 512×4 block, as a 512×1 block. -/
def col0 (c : FVec F S512x4 .f32) : FVec F S512x1 .f32 := extractStridedSlice S512x1 ![0, 0] c slices_S512x4_o0_0_S512x1
/-- Column `1`. -/
def col1 (c : FVec F S512x4 .f32) : FVec F S512x1 .f32 := extractStridedSlice S512x1 ![0, 1] c slices_S512x4_o0_1_S512x1
/-- Column `2`. -/
def col2 (c : FVec F S512x4 .f32) : FVec F S512x1 .f32 := extractStridedSlice S512x1 ![0, 2] c slices_S512x4_o0_2_S512x1
/-- Column `3`. -/
def col3 (c : FVec F S512x4 .f32) : FVec F S512x1 .f32 := extractStridedSlice S512x1 ![0, 3] c slices_S512x4_o0_3_S512x1

/-- The cosines of a gate's four angles on every row: the gate's four columns of the pre-activations plus the gate's
    four entries of the phase row. -/
def cosVec (lg : FVec F S512x4 .f32) (t : FVec F S1x4 .f32) : FVec F S512x4 .f32 :=
  cos (addf lg (broadcastTo S512x4 t broadcasts_S1x4_S512x4))

/-- The four products of cosine columns a gate lays side by side, in its order. -/
def mixPieces (c : FVec F S512x4 .f32) : List ((s : Shape) × (s.Idx → F .f32)) :=
  [⟨S512x1, mulf (mulf (col1 c) (col2 c)) (col3 c)⟩,
   ⟨S512x1, mulf (col0 c) (col1 c)⟩,
   ⟨S512x1, mulf (mulf (col0 c) (col1 c)) (col2 c)⟩,
   ⟨S512x1, mulf (mulf (mulf (col0 c) (col1 c)) (col2 c)) (col3 c)⟩]

/-- A gate's four outputs before squashing: those four 512×1 products joined along the columns. -/
def mixVec (c : FVec F S512x4 .f32) : FVec F S512x4 .f32 :=
  concatenate S512x4 1 (mixPieces c) concatenates_S512x1_S512x1_S512x1_S512x1_S512x4_d1

/-- The forget gate's block is the squashed products of the cosines of columns 0–3. -/
theorem pay7_eq (x : Vec F S512x4096 .f32) (h : Vec F S512x4 .f32) (wx : Vec F S4096x16 .bf16) (wh : Vec F S4x16 .bf16)
    (b th : Vec F S1x16 .f32) :
    k0_pay7 x h wx wh b th
      = logistic (mixVec (cosVec (extractStridedSlice S512x4 ![0, 0] (k0_pay1 x h wx wh b) slices_S512x16_o0_0_S512x4)
          (extractStridedSlice S1x4 ![0, 0] (k0_pay2 th) slices_S1x16_o0_0_S1x4))) := rfl

/-- The input gate's cosines are those of columns 4–7. -/
theorem pay8_eq (x : Vec F S512x4096 .f32) (h : Vec F S512x4 .f32) (wx : Vec F S4096x16 .bf16) (wh : Vec F S4x16 .bf16)
    (b th : Vec F S1x16 .f32) :
    k0_pay8 x h wx wh b th
      = cosVec (extractStridedSlice S512x4 ![0, 4] (k0_pay1 x h wx wh b) slices_S512x16_o0_4_S512x4)
          (extractStridedSlice S1x4 ![0, 4] (k0_pay2 th) slices_S1x16_o0_4_S1x4) := rfl

/-- The new cell block from the candidate's columns and phases, the squashed forget gate, the input gate's cosines and
    the previous cell block. -/
theorem pay9_eq (v19 : FVec F S512x4 .f32) (v23 : FVec F S1x4 .f32) (v41 v44 : FVec F S512x4 .f32) (v93 : Vec F S512x4 .f32) :
    k0_pay9 v19 v23 v41 v44 v93
      = addf (mulf v41 v93) (mulf (logistic (mixVec v44)) (tanh (mixVec (cosVec v19 v23)))) := rfl

/-- The new hidden block: the squashed output gate times tanh of the new cell block. -/
theorem pay10_eq (v19 v20 : FVec F S512x4 .f32) (v23 v24 : FVec F S1x4 .f32) (v41 v44 : FVec F S512x4 .f32) (v93 : Vec F S512x4 .f32) :
    k0_pay10 v19 v20 v23 v24 v41 v44 v93
      = mulf (logistic (mixVec (cosVec v20 v24))) (tanh (k0_pay9 v19 v23 v41 v44 v93)) := rfl

end Stages

theorem col0_apply (c : FVec Ideal S512x4 .f32) (p : Fin 512) : col0 c (ix2 p (0 : Fin 1)) = c (ix2 p (0 : Fin 4)) := by
  unfold col0
  exact extractStridedSlice_apply _ c slices_S512x4_o0_0_S512x1 _ _ (fun a => match a with
    | ⟨0, _⟩ => (Nat.zero_add _).symm
    | ⟨1, _⟩ => rfl)
theorem col1_apply (c : FVec Ideal S512x4 .f32) (p : Fin 512) : col1 c (ix2 p (0 : Fin 1)) = c (ix2 p (1 : Fin 4)) := by
  unfold col1
  exact extractStridedSlice_apply _ c slices_S512x4_o0_1_S512x1 _ _ (fun a => match a with
    | ⟨0, _⟩ => (Nat.zero_add _).symm
    | ⟨1, _⟩ => rfl)
theorem col2_apply (c : FVec Ideal S512x4 .f32) (p : Fin 512) : col2 c (ix2 p (0 : Fin 1)) = c (ix2 p (2 : Fin 4)) := by
  unfold col2
  exact extractStridedSlice_apply _ c slices_S512x4_o0_2_S512x1 _ _ (fun a => match a with
    | ⟨0, _⟩ => (Nat.zero_add _).symm
    | ⟨1, _⟩ => rfl)
theorem col3_apply (c : FVec Ideal S512x4 .f32) (p : Fin 512) : col3 c (ix2 p (0 : Fin 1)) = c (ix2 p (3 : Fin 4)) := by
  unfold col3
  exact extractStridedSlice_apply _ c slices_S512x4_o0_3_S512x1 _ _ (fun a => match a with
    | ⟨0, _⟩ => (Nat.zero_add _).symm
    | ⟨1, _⟩ => rfl)

/-- A gate's cosine at row `p`, wire `j`: the cosine of the pre-activation there plus the phase of wire `j`. -/
theorem cosVec_apply (lg : FVec Ideal S512x4 .f32) (t : FVec Ideal S1x4 .f32) (p : Fin 512) (j : Fin 4) :
    cosVec lg t (ix2 p j) = Ideal.cos (lg (ix2 p j) + t (ix2 (0 : Fin 1) j)) := by
  unfold cosVec
  show Ideal.cos (lg (ix2 p j) + broadcastTo S512x4 t broadcasts_S1x4_S512x4 (ix2 p j)) = _
  rw [broadcastTo_apply t broadcasts_S1x4_S512x4 (ix2 p j) (ix2 (0 : Fin 1) j) (fun a => match a with
    | ⟨0, _⟩ => rfl
    | ⟨1, _⟩ => rfl)]

/-- The four products side by side, read at row `p`, output `q`: product `q` of the row's four cosines. -/
theorem mixVec_apply (c : FVec Ideal S512x4 .f32) (p : Fin 512) (q : Fin 4) :
    mixVec c (ix2 p q) = mix (fun j => c (ix2 p j)) q := by
  unfold mixVec
  match q with
  | ⟨0, _⟩ =>
    refine (concatenate_apply_piece (1 : Fin S512x4.rank) (mixPieces c) concatenates_S512x1_S512x1_S512x1_S512x1_S512x4_d1 _ 0 (by show (0 : Nat) < 4; omega) S512x1 _ rfl rfl 0 rfl
      (ix2 p (0 : Fin 1)) (fun b hb => match b with
        | ⟨0, _⟩ => rfl
        | ⟨1, _⟩ => (hb (Fin.ext rfl)).elim) rfl).trans ?_
    show col1 c (ix2 p 0) * col2 c (ix2 p 0) * col3 c (ix2 p 0) = _
    rw [col1_apply, col2_apply, col3_apply]; rfl
  | ⟨1, _⟩ =>
    refine (concatenate_apply_piece (1 : Fin S512x4.rank) (mixPieces c) concatenates_S512x1_S512x1_S512x1_S512x1_S512x4_d1 _ 1 (by show (1 : Nat) < 4; omega) S512x1 _ rfl rfl 1 rfl
      (ix2 p (0 : Fin 1)) (fun b hb => match b with
        | ⟨0, _⟩ => rfl
        | ⟨1, _⟩ => (hb (Fin.ext rfl)).elim) rfl).trans ?_
    show col0 c (ix2 p 0) * col1 c (ix2 p 0) = _
    rw [col0_apply, col1_apply]; rfl
  | ⟨2, _⟩ =>
    refine (concatenate_apply_piece (1 : Fin S512x4.rank) (mixPieces c) concatenates_S512x1_S512x1_S512x1_S512x1_S512x4_d1 _ 2 (by show (2 : Nat) < 4; omega) S512x1 _ rfl rfl 2 rfl
      (ix2 p (0 : Fin 1)) (fun b hb => match b with
        | ⟨0, _⟩ => rfl
        | ⟨1, _⟩ => (hb (Fin.ext rfl)).elim) rfl).trans ?_
    show col0 c (ix2 p 0) * col1 c (ix2 p 0) * col2 c (ix2 p 0) = _
    rw [col0_apply, col1_apply, col2_apply]; rfl
  | ⟨3, _⟩ =>
    refine (concatenate_apply_piece (1 : Fin S512x4.rank) (mixPieces c) concatenates_S512x1_S512x1_S512x1_S512x1_S512x4_d1 _ 3 (by show (3 : Nat) < 4; omega) S512x1 _ rfl rfl 3 rfl
      (ix2 p (0 : Fin 1)) (fun b hb => match b with
        | ⟨0, _⟩ => rfl
        | ⟨1, _⟩ => (hb (Fin.ext rfl)).elim) rfl).trans ?_
    show col0 c (ix2 p 0) * col1 c (ix2 p 0) * col2 c (ix2 p 0) * col3 c (ix2 p 0) = _
    rw [col0_apply, col1_apply, col2_apply, col3_apply]; rfl

/-- Gate `g`'s four columns of a 512×16 block start at column `4 g`: entry `j` of the slice is column `4 g + j`. -/
theorem sliceBlock_apply (g : Fin 4) (off : Nat) (hoff : off = 4 * g.val) (v : FVec Ideal S512x16 .f32)
    (hs : S512x16.Slices ![0, off] S512x4) (p : Fin 512) (j : Fin 4) :
    extractStridedSlice S512x4 ![0, off] v hs (ix2 p j) = v (ix2 p (wire g j)) :=
  extractStridedSlice_apply _ v hs _ _ (fun a => match a with
    | ⟨0, _⟩ => (Nat.zero_add _).symm
    | ⟨1, _⟩ => by show 4 * g.val + j.val = off + j.val; rw [hoff])

/-- Likewise for a 1×16 row. -/
theorem sliceRow_apply (g : Fin 4) (off : Nat) (hoff : off = 4 * g.val) (v : FVec Ideal S1x16 .f32)
    (hs : S1x16.Slices ![0, off] S1x4) (j : Fin 4) :
    extractStridedSlice S1x4 ![0, off] v hs (ix2 (0 : Fin 1) j) = v (ix2 (0 : Fin 1) (wire g j)) :=
  extractStridedSlice_apply _ v hs _ _ (fun a => match a with
    | ⟨0, _⟩ => (Nat.zero_add _).symm
    | ⟨1, _⟩ => by show 4 * g.val + j.val = off + j.val; rw [hoff])

/-- **One gate before squashing.** The products of the cosines of gate `g`'s columns of the stacked pre-activations plus
    gate `g`'s phases, at row `p`, output `q`, are the gate formula of row `p` at gate `g`'s columns of the panels and rows. -/
theorem gateVec_apply (g : Fin 4) (off : Nat) (hoff : off = 4 * g.val)
    (hsl : S512x16.Slices ![0, off] S512x4) (hsr : S1x16.Slices ![0, off] S1x4)
    (x : Vec Ideal S512x4096 .f32) (h : Vec Ideal S512x4 .f32) (wx : Vec Ideal S4096x16 .bf16)
    (wh : Vec Ideal S4x16 .bf16) (b th : Vec Ideal S1x16 .f32) (p : Fin 512) (q : Fin 4) :
    mixVec (cosVec (extractStridedSlice S512x4 ![0, off] (k0_pay1 (F := Ideal) x h wx wh b) hsl)
        (extractStridedSlice S1x4 ![0, off] (k0_pay2 (F := Ideal) th) hsr)) (ix2 p q)
      = gate (fun k => x (ix2 p k)) (fun k => h (ix2 p k)) (panelX wx g) (panelH wh g) (rowPart b g) (rowPart th g) q := by
  rw [mixVec_apply]
  unfold gate
  refine congrArg (fun c => mix c q) (funext fun j => ?_)
  rw [cosVec_apply, sliceBlock_apply g off hoff, sliceRow_apply g off hoff, logits_apply, pay2_eq]
  rfl

/-! ## The four gates, and the two blocks -/

section Gates
variable (x : Vec Ideal S512x4096 .f32) (h cprev : Vec Ideal S512x4 .f32) (wx : Vec Ideal S4096x16 .bf16)
  (wh : Vec Ideal S4x16 .bf16) (b th : Vec Ideal S1x16 .f32) (p : Fin 512) (q : Fin 4)

/-- The forget gate at row `p`, entry `q`. -/
theorem forget_apply :
    k0_pay7 (F := Ideal) x h wx wh b th (ix2 p q)
      = Ideal.logistic (gate (fun k => x (ix2 p k)) (fun k => h (ix2 p k)) (panelX wx 0) (panelH wh 0) (rowPart b 0) (rowPart th 0) q) := by
  rw [pay7_eq]
  exact congrArg Ideal.logistic (gateVec_apply 0 0 rfl slices_S512x16_o0_0_S512x4 slices_S1x16_o0_0_S1x4 x h wx wh b th p q)

/-- The input gate before squashing. -/
theorem input_apply :
    mixVec (k0_pay8 (F := Ideal) x h wx wh b th) (ix2 p q)
      = gate (fun k => x (ix2 p k)) (fun k => h (ix2 p k)) (panelX wx 1) (panelH wh 1) (rowPart b 1) (rowPart th 1) q := by
  rw [pay8_eq]
  exact gateVec_apply 1 4 rfl slices_S512x16_o0_4_S512x4 slices_S1x16_o0_4_S1x4 x h wx wh b th p q

/-- The candidate gate before squashing. -/
theorem candidate_apply :
    mixVec (cosVec (k0_pay3 (F := Ideal) x h wx wh b) (k0_pay5 (F := Ideal) th)) (ix2 p q)
      = gate (fun k => x (ix2 p k)) (fun k => h (ix2 p k)) (panelX wx 2) (panelH wh 2) (rowPart b 2) (rowPart th 2) q :=
  gateVec_apply 2 8 rfl slices_S512x16_o0_8_S512x4 slices_S1x16_o0_8_S1x4 x h wx wh b th p q

/-- The output gate before squashing. -/
theorem output_apply :
    mixVec (cosVec (k0_pay4 (F := Ideal) x h wx wh b) (k0_pay6 (F := Ideal) th)) (ix2 p q)
      = gate (fun k => x (ix2 p k)) (fun k => h (ix2 p k)) (panelX wx 3) (panelH wh 3) (rowPart b 3) (rowPart th 3) q :=
  gateVec_apply 3 12 rfl slices_S512x16_o0_12_S512x4 slices_S1x16_o0_12_S1x4 x h wx wh b th p q

/-- The new cell block over the blocks themselves (the loads read away). -/
theorem cellCore_apply :
    k0_pay9 (k0_pay3 (F := Ideal) x h wx wh b) (k0_pay5 (F := Ideal) th) (k0_pay7 (F := Ideal) x h wx wh b th)
        (k0_pay8 (F := Ideal) x h wx wh b th) cprev (ix2 p q)
      = cellRow (fun k => x (ix2 p k)) (fun k => h (ix2 p k)) (cprev (ix2 p q))
          (panelX wx 0) (panelH wh 0) (rowPart b 0) (rowPart th 0)
          (panelX wx 1) (panelH wh 1) (rowPart b 1) (rowPart th 1)
          (panelX wx 2) (panelH wh 2) (rowPart b 2) (rowPart th 2) q := by
  rw [pay9_eq]
  show k0_pay7 (F := Ideal) x h wx wh b th (ix2 p q) * cprev (ix2 p q)
      + Ideal.logistic (mixVec (k0_pay8 (F := Ideal) x h wx wh b th) (ix2 p q))
        * Ideal.tanh (mixVec (cosVec (k0_pay3 (F := Ideal) x h wx wh b) (k0_pay5 (F := Ideal) th)) (ix2 p q)) = _
  rw [forget_apply, input_apply, candidate_apply]
  rfl

end Gates

/-- The new cell block at row `p`, entry `q`, is the row formula of row `p` of the three row blocks and of the gates'
    columns of the stacked panels and rows. -/
theorem cellValue_apply (x : Vec Ideal S512x4096 .f32) (h cprev : Vec Ideal S512x4 .f32) (wx : Vec Ideal S4096x16 .bf16)
    (wh : Vec Ideal S4x16 .bf16) (b th : Vec Ideal S1x16 .f32) (p : Fin 512) (q : Fin 4) :
    cellValue (F := Ideal) x h cprev wx wh b th (ix2 p q)
      = cellRow (fun k => x (ix2 p k)) (fun k => h (ix2 p k)) (cprev (ix2 p q))
          (panelX wx 0) (panelH wh 0) (rowPart b 0) (rowPart th 0)
          (panelX wx 1) (panelH wh 1) (rowPart b 1) (rowPart th 1)
          (panelX wx 2) (panelH wh 2) (rowPart b 2) (rowPart th 2) q := by
  unfold cellValue
  rw [ld_wholeX, ld_whole4 h, ld_whole4 cprev, ld_wholeWx, ld_wholeWh, ld_wholeRow b, ld_wholeRow th]
  exact cellCore_apply x h cprev wx wh b th p q

/-- The new hidden block at row `p`, entry `q`, likewise, with the output gate's columns. -/
theorem hiddenValue_apply (x : Vec Ideal S512x4096 .f32) (h cprev : Vec Ideal S512x4 .f32) (wx : Vec Ideal S4096x16 .bf16)
    (wh : Vec Ideal S4x16 .bf16) (b th : Vec Ideal S1x16 .f32) (p : Fin 512) (q : Fin 4) :
    hiddenValue (F := Ideal) x h cprev wx wh b th (ix2 p q)
      = hiddenRow (fun k => x (ix2 p k)) (fun k => h (ix2 p k)) (cprev (ix2 p q))
          (panelX wx 0) (panelH wh 0) (rowPart b 0) (rowPart th 0)
          (panelX wx 1) (panelH wh 1) (rowPart b 1) (rowPart th 1)
          (panelX wx 2) (panelH wh 2) (rowPart b 2) (rowPart th 2)
          (panelX wx 3) (panelH wh 3) (rowPart b 3) (rowPart th 3) q := by
  unfold hiddenValue
  rw [ld_wholeX, ld_whole4 h, ld_whole4 cprev, ld_wholeWx, ld_wholeWh, ld_wholeRow b, ld_wholeRow th, pay10_eq]
  show Ideal.logistic (mixVec (cosVec (k0_pay4 (F := Ideal) x h wx wh b) (k0_pay6 (F := Ideal) th)) (ix2 p q))
      * Ideal.tanh (k0_pay9 (k0_pay3 (F := Ideal) x h wx wh b) (k0_pay5 (F := Ideal) th) (k0_pay7 (F := Ideal) x h wx wh b th)
          (k0_pay8 (F := Ideal) x h wx wh b th) cprev (ix2 p q)) = _
  rw [output_apply, cellCore_apply]
  rfl

end Cert.KernelIdeal.Cell

end
-- ==== Proof.CellArrays.lean ====
/-
  From the per-point blocks to the two result arrays, at the ideal instance.

  Point t of the 64-point grid reads rows 512 t … 512 t + 511 of the wide input, of the previous hidden state and of
  the previous cell state, and the four small operands whole; what it writes back into either result array is rows
  512 t … 512 t + 511 of one function of the launch contents — the new cell state, or the new hidden state, of the
  fifteen argument arrays, entry by entry. Row r of a result lies in the block of point r / 512, so the 64 blocks tile
  each result array, and after the run each array is that function. The four small operands hold the gates' numbers
  because column 4g+j of the stacked panels and rows is gate g's row j.
-/
import proofs.«164261_j65481071399076_1_alg».proof.Proof.CellRunIdeal
import proofs.«164261_j65481071399076_1_alg».proof.Proof.CellEntryValues
import proofs.«164261_j65481071399076_1_alg».proof.Proof.CellPayloadIdeal
import proofs.«164261_j65481071399076_1_alg».proof.Proof.CellSpec
import Idealize.ShloMosaic.Lib.Pipeline.Value
import Idealize.ShloMosaic.Lib.ValueIdx

set_option maxRecDepth 16384

noncomputable section

namespace Cert.KernelIdeal.Cell

open Idealize.ShloMosaic Idealize.ShloMosaic.TcCoe Idealize.ShloMosaic.ValueIdx
open Idealize.SL Idealize.SL.Sem
open Idealize.ShloMosaic.Pipeline (Dat Cfg Window)
open Cert.KernelIdeal.Gen Cert.CellSpec

/-! ## One grid point, over plain arrays -/

/-- If a point's three row blocks are rows R … R+511 of three arrays and its four small operands hold the gates'
    numbers, its new cell block is rows R … R+511 of the new cell state of those arrays. -/
theorem cell_point (X : Mat 32768 4096) (H C : Mat 32768 4) (Wf : Mat 4 4100) (bf tf : Vct 4) (Wi : Mat 4 4100) (bi ti : Vct 4)
    (Wg : Mat 4 4100) (bg tg : Vct 4) (Wo : Mat 4 4100) (bo tO : Vct 4)
    (xb : Vec Ideal S512x4096 .f32) (hb cb : Vec Ideal S512x4 .f32) (wx : Vec Ideal S4096x16 .bf16) (wh : Vec Ideal S4x16 .bf16)
    (b th : Vec Ideal S1x16 .f32) (R : Nat) (hR : R + 512 ≤ 32768)
    (hx : ∀ (p : Fin 512) (k : Fin 4096), xb (ix2 p k) = X (ix2 (⟨R + p.val, by omega⟩ : Fin 32768) k))
    (hh : ∀ (p : Fin 512) (k : Fin 4), hb (ix2 p k) = H (ix2 (⟨R + p.val, by omega⟩ : Fin 32768) k))
    (hc : ∀ (p : Fin 512) (k : Fin 4), cb (ix2 p k) = C (ix2 (⟨R + p.val, by omega⟩ : Fin 32768) k))
    (hwx : ∀ g, panelX wx g = argWx (pick4 Wf Wi Wg Wo g)) (hwh : ∀ g, panelH wh g = argWh (pick4 Wf Wi Wg Wo g))
    (hbb : ∀ g, rowPart b g = argVec (pick4 bf bi bg bo g)) (hth : ∀ g, rowPart th g = argVec (pick4 tf ti tg tO g))
    (p : Fin 512) (q : Fin 4) :
    cellValue (F := Ideal) xb hb cb wx wh b th (ix2 p q)
      = cellAt X H C Wf bf tf Wi bi ti Wg bg tg (⟨R + p.val, by omega⟩ : Fin 32768) q := by
  rw [cellValue_apply, hwx 0, hwx 1, hwx 2, hwh 0, hwh 1, hwh 2, hbb 0, hbb 1, hbb 2, hth 0, hth 1, hth 2, hc]
  simp only [hx, hh]
  rfl

/-- The same for the new hidden block. -/
theorem hidden_point (X : Mat 32768 4096) (H C : Mat 32768 4) (Wf : Mat 4 4100) (bf tf : Vct 4) (Wi : Mat 4 4100) (bi ti : Vct 4)
    (Wg : Mat 4 4100) (bg tg : Vct 4) (Wo : Mat 4 4100) (bo tO : Vct 4)
    (xb : Vec Ideal S512x4096 .f32) (hb cb : Vec Ideal S512x4 .f32) (wx : Vec Ideal S4096x16 .bf16) (wh : Vec Ideal S4x16 .bf16)
    (b th : Vec Ideal S1x16 .f32) (R : Nat) (hR : R + 512 ≤ 32768)
    (hx : ∀ (p : Fin 512) (k : Fin 4096), xb (ix2 p k) = X (ix2 (⟨R + p.val, by omega⟩ : Fin 32768) k))
    (hh : ∀ (p : Fin 512) (k : Fin 4), hb (ix2 p k) = H (ix2 (⟨R + p.val, by omega⟩ : Fin 32768) k))
    (hc : ∀ (p : Fin 512) (k : Fin 4), cb (ix2 p k) = C (ix2 (⟨R + p.val, by omega⟩ : Fin 32768) k))
    (hwx : ∀ g, panelX wx g = argWx (pick4 Wf Wi Wg Wo g)) (hwh : ∀ g, panelH wh g = argWh (pick4 Wf Wi Wg Wo g))
    (hbb : ∀ g, rowPart b g = argVec (pick4 bf bi bg bo g)) (hth : ∀ g, rowPart th g = argVec (pick4 tf ti tg tO g))
    (p : Fin 512) (q : Fin 4) :
    hiddenValue (F := Ideal) xb hb cb wx wh b th (ix2 p q)
      = hiddenAt X H C Wf bf tf Wi bi ti Wg bg tg Wo bo tO (⟨R + p.val, by omega⟩ : Fin 32768) q := by
  rw [hiddenValue_apply, hwx 0, hwx 1, hwx 2, hwx 3, hwh 0, hwh 1, hwh 2, hwh 3, hbb 0, hbb 1, hbb 2, hbb 3,
    hth 0, hth 1, hth 2, hth 3, hc]
  simp only [hx, hh]
  rfl

end Cert.KernelIdeal.Cell

namespace Cert.KernelIdeal.Cell

open Idealize.ShloMosaic Idealize.ShloMosaic.TcCoe Idealize.ShloMosaic.ValueIdx
open Idealize.SL Idealize.SL.Sem
open Idealize.ShloMosaic.Pipeline (Dat Cfg Window)
open Cert.KernelIdeal.Gen Cert.CellSpec

variable (m : (ℓ : Loc nD τ sig) → Buf (Elt Ideal) ℓ) (ρ : Dev nD → PrngReg)

/-! ## Which part of its array each window's block is -/

/-- The printed index maps over the grid: the three row inputs and the two outputs take block row `t` at point `t`,
    the four small operands their one block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem point_lt (t : Fin cfg0.N) : t.val < 64 := t.isLt

/-- The wide input's block at point `t` is rows 512 t … 512 t + 511 of the argument. -/
theorem x_block (c : Dev nD) (t : Fin cfg0.N) (p : Fin 512) (k : Fin 4096) :
    (blockAt m c 0 t : Vec Ideal S512x4096 .f32) (ix2 p k)
      = (m ((c : Thread nD τ).loc main_arg0)) (ix2 (⟨512 * t.val + p.val, by have := point_lt t; omega⟩ : Fin 32768) k) := by
  obtain ⟨e0, e1, -⟩ := block_index t
  unfold blockAt
  rw [View.read_apply]
  show entry m c main_arg0 _ = _
  rw [entry_arg0]
  refine congrArg _ (funext fun a => Fin.ext ?_)
  match a with
  | ⟨0, _⟩ => show win0_0.index t (0 : Fin 2) * 512 + 1 * p.val = 512 * t.val + p.val; omega
  | ⟨1, _⟩ => show win0_0.index t (1 : Fin 2) * 4096 + 1 * k.val = k.val; omega

/-- The previous hidden state's block at point `t`. -/
theorem h_block (c : Dev nD) (t : Fin cfg0.N) (p : Fin 512) (k : Fin 4) :
    (blockAt m c 1 t : Vec Ideal S512x4 .f32) (ix2 p k)
      = (m ((c : Thread nD τ).loc main_arg1)) (ix2 (⟨512 * t.val + p.val, by have := point_lt t; omega⟩ : Fin 32768) k) := by
  obtain ⟨-, -, e0, e1, -⟩ := block_index t
  unfold blockAt
  rw [View.read_apply]
  show entry m c main_arg1 _ = _
  rw [entry_arg1]
  refine congrArg _ (funext fun a => Fin.ext ?_)
  match a with
  | ⟨0, _⟩ => show win0_1.index t (0 : Fin 2) * 512 + 1 * p.val = 512 * t.val + p.val; omega
  | ⟨1, _⟩ => show win0_1.index t (1 : Fin 2) * 4 + 1 * k.val = k.val; omega

/-- The previous cell state's block at point `t`. -/
theorem c_block (c : Dev nD) (t : Fin cfg0.N) (p : Fin 512) (k : Fin 4) :
    (blockAt m c 2 t : Vec Ideal S512x4 .f32) (ix2 p k)
      = (m ((c : Thread nD τ).loc main_arg2)) (ix2 (⟨512 * t.val + p.val, by have := point_lt t; omega⟩ : Fin 32768) k) := by
  obtain ⟨-, -, -, -, e0, e1, -⟩ := block_index t
  unfold blockAt
  rw [View.read_apply]
  show entry m c main_arg2 _ = _
  rw [entry_arg2]
  refine congrArg _ (funext fun a => Fin.ext ?_)
  match a with
  | ⟨0, _⟩ => show win0_2.index t (0 : Fin 2) * 512 + 1 * p.val = 512 * t.val + p.val; omega
  | ⟨1, _⟩ => show win0_2.index t (1 : Fin 2) * 4 + 1 * k.val = k.val; omega

/-- Each small operand's one block is its whole array as the region finds it. -/
theorem wx_block (c : Dev nD) (t : Fin cfg0.N) : (blockAt m c 3 t : Vec Ideal S4096x16 .bf16) = entry m c main_v6 := by
  obtain ⟨-, -, -, -, -, -, e0, e1, -⟩ := block_index t
  funext y
  unfold blockAt
  rw [View.read_apply]
  show entry m c main_v6 _ = _
  refine congrArg _ (funext fun a => Fin.ext ?_)
  match a with
  | ⟨0, _⟩ => show win0_3.index t (0 : Fin 2) * 4096 + 1 * (y 0).val = (y 0).val; omega
  | ⟨1, _⟩ => show win0_3.index t (1 : Fin 2) * 16 + 1 * (y 1).val = (y 1).val; omega

theorem wh_block (c : Dev nD) (t : Fin cfg0.N) : (blockAt m c 4 t : Vec Ideal S4x16 .bf16) = entry m c main_v8 := by
  obtain ⟨-, -, -, -, -, -, -, -, e0, e1, -⟩ := block_index t
  funext y
  unfold blockAt
  rw [View.read_apply]
  show entry m c main_v8 _ = _
  refine congrArg _ (funext fun a => Fin.ext ?_)
  match a with
  | ⟨0, _⟩ => show win0_4.index t (0 : Fin 2) * 4 + 1 * (y 0).val = (y 0).val; omega
  | ⟨1, _⟩ => show win0_4.index t (1 : Fin 2) * 16 + 1 * (y 1).val = (y 1).val; omega

theorem b_block (c : Dev nD) (t : Fin cfg0.N) : (blockAt m c 5 t : Vec Ideal S1x16 .f32) = entry m c main_v9 := by
  obtain ⟨-, -, -, -, -, -, -, -, -, -, e0, e1, -⟩ := block_index t
  funext y
  unfold blockAt
  rw [View.read_apply]
  show entry m c main_v9 _ = _
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 16 + 1 * (y 1).val = (y 1).val; omega

theorem th_block (c : Dev nD) (t : Fin cfg0.N) : (blockAt m c 6 t : Vec Ideal S1x16 .f32) = entry m c main_v10 := by
  obtain ⟨-, -, -, -, -, -, -, -, -, -, -, -, e0, e1, -⟩ := block_index t
  funext y
  unfold blockAt
  rw [View.read_apply]
  show entry m c main_v10 _ = _
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 16 + 1 * (y 1).val = (y 1).val; omega

/-! ## What a point writes back -/

theorem offsets_zero : (![0, 0] : Fin 2 → Nat) = fun _ => 0 := funext fun a => by fin_cases a <;> rfl

/-- A buffer that received one store of its whole extent holds the stored value. -/
theorem whole_store (v : Vec Ideal S512x4 .f32) : View.canon [(⟨whole4, v⟩ : View.Piece (Elt Ideal) S512x4 .f32)] = v :=
  View.canon_unit_zero offsets_zero _ v

/-- The new cell state of the launch contents, as one array. -/
abbrev cellOf (c : Dev nD) : Vec Ideal S32768x4 .f32 := cellArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
/-- The new hidden state of the launch contents, as one array. -/
abbrev hiddenOf (c : Dev nD) : Vec Ideal S32768x4 .f32 := hiddenArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- What point `t` writes back into the cell-state array is block `t` of the new cell state. -/
theorem cell_flushed (c : Dev nD) (t : Fin cfg0.N) :
    (points m 0 c).flushed 8 t = ((cfg0.win 8).blk t).view.read (Elt Ideal) (cellOf m c) := by
  obtain ⟨-, -, -, -, -, -, -, -, -, -, -, -, -, -, -, -, e0, e1⟩ := block_index t
  show (cfg0.win 8).cut (grid0.coords t) ((points m 0 c).after 8 t) = _
  rw [after_8]
  unfold cellBlock
  rw [whole_store]
  funext y
  rw [View.read_apply]
  have hy : y = ix2 (n0 := 512) (n1 := 4) (y 0) (y 1) := eq_ix2 (n0 := 512) (n1 := 4) y
  have hR : 512 * t.val + 512 ≤ 32768 := by have := point_lt t; omega
  have key := cell_point (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
    (blockAt m c 0 t) (blockAt m c 1 t) (blockAt m c 2 t) (blockAt m c 3 t) (blockAt m c 4 t) (blockAt m c 5 t) (blockAt m c 6 t)
    (512 * t.val) hR (x_block m c t) (h_block m c t) (c_block m c t)
    (fun g => by rw [wx_block]; exact panelX_entry m c g) (fun g => by rw [wh_block]; exact panelH_entry m c g)
    (fun g => by rw [b_block]; exact rowPart_entry_b m c g) (fun g => by rw [th_block]; exact rowPart_entry_th m c g) (y 0) (y 1)
  rw [← hy] at key
  refine key.trans ?_
  show cellAt _ _ _ _ _ _ _ _ _ _ _ _ _ _ = cellAt _ _ _ _ _ _ _ _ _ _ _ _ _ _
  congr 1
  · apply Fin.ext
    show 512 * t.val + (y 0).val = win0_8.index t (0 : Fin 2) * 512 + 1 * (y 0).val; omega
  · apply Fin.ext
    show (y 1).val = win0_8.index t (1 : Fin 2) * 4 + 1 * (y 1).val; omega

/-- What point `t` writes back into the hidden-state array is block `t` of the new hidden state. -/
theorem hidden_flushed (c : Dev nD) (t : Fin cfg0.N) :
    (points m 0 c).flushed 7 t = ((cfg0.win 7).blk t).view.read (Elt Ideal) (hiddenOf m c) := by
  obtain ⟨-, -, -, -, -, -, -, -, -, -, -, -, -, -, e0, e1, -⟩ := block_index t
  show (cfg0.win 7).cut (grid0.coords t) ((points m 0 c).after 7 t) = _
  rw [after_7]
  unfold hiddenBlock
  rw [whole_store]
  funext y
  rw [View.read_apply]
  have hy : y = ix2 (n0 := 512) (n1 := 4) (y 0) (y 1) := eq_ix2 (n0 := 512) (n1 := 4) y
  have hR : 512 * t.val + 512 ≤ 32768 := by have := point_lt t; omega
  have key := hidden_point (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
    (blockAt m c 0 t) (blockAt m c 1 t) (blockAt m c 2 t) (blockAt m c 3 t) (blockAt m c 4 t) (blockAt m c 5 t) (blockAt m c 6 t)
    (512 * t.val) hR (x_block m c t) (h_block m c t) (c_block m c t)
    (fun g => by rw [wx_block]; exact panelX_entry m c g) (fun g => by rw [wh_block]; exact panelH_entry m c g)
    (fun g => by rw [b_block]; exact rowPart_entry_b m c g) (fun g => by rw [th_block]; exact rowPart_entry_th m c g) (y 0) (y 1)
  rw [← hy] at key
  refine key.trans ?_
  show hiddenAt _ _ _ _ _ _ _ _ _ _ _ _ _ _ _ _ _ = hiddenAt _ _ _ _ _ _ _ _ _ _ _ _ _ _ _ _ _
  congr 1
  · apply Fin.ext
    show 512 * t.val + (y 0).val = win0_7.index t (0 : Fin 2) * 512 + 1 * (y 0).val; omega
  · apply Fin.ext
    show (y 1).val = win0_7.index t (1 : Fin 2) * 4 + 1 * (y 1).val; omega

/-! ## The blocks tile the result arrays -/

theorem mem_cell_block (t : Fin cfg0.N) (i : S32768x4.Idx) :
    i ∈ ((cfg0.win 8).blk t).view.set ↔ ∀ a : Fin 2, win0_8.index t a * S512x4.size a ≤ (i a).val ∧ (i a).val < win0_8.index t a * S512x4.size a + S512x4.size a := by
  show i ∈ ((View.whole main_v11_1).slice (win0_8.rect t)).set ↔ _
  rw [View.set_slice_whole, Rect.mem_set_unit]
  exact Iff.rfl

theorem mem_hidden_block (t : Fin cfg0.N) (i : S32768x4.Idx) :
    i ∈ ((cfg0.win 7).blk t).view.set ↔ ∀ a : Fin 2, win0_7.index t a * S512x4.size a ≤ (i a).val ∧ (i a).val < win0_7.index t a * S512x4.size a + S512x4.size a := by
  show i ∈ ((View.whole main_v11_0).slice (win0_7.rect t)).set ↔ _
  rw [View.set_slice_whole, Rect.mem_set_unit]
  exact Iff.rfl

/-- Row r of a result array lies in the block of point r / 512. -/
theorem cell_cover (i : S32768x4.Idx) : ∃ t : Fin cfg0.N, (cfg0.win 8).flush t = true ∧ i ∈ ((cfg0.win 8).blk t).view.set := by
  have hi0 : (i 0).val < 32768 := (i 0).isLt
  have hi1 : (i 1).val < 4 := (i 1).isLt
  let t : Fin cfg0.N := ⟨(i 0).val / 512, by show (i 0).val / 512 < 64; omega⟩
  obtain ⟨-, -, -, -, -, -, -, -, -, -, -, -, -, -, -, -, e0, e1⟩ := block_index t
  refine ⟨t, flush0_8 t, ?_⟩
  rw [mem_cell_block]
  intro a
  match a with
  | ⟨0, _⟩ => show win0_8.index t (0 : Fin 2) * 512 ≤ (i 0).val ∧ (i 0).val < win0_8.index t (0 : Fin 2) * 512 + 512
              rw [e0]; show (i 0).val / 512 * 512 ≤ (i 0).val ∧ (i 0).val < (i 0).val / 512 * 512 + 512; omega
  | ⟨1, _⟩ => show win0_8.index t (1 : Fin 2) * 4 ≤ (i 1).val ∧ (i 1).val < win0_8.index t (1 : Fin 2) * 4 + 4; omega

theorem hidden_cover (i : S32768x4.Idx) : ∃ t : Fin cfg0.N, (cfg0.win 7).flush t = true ∧ i ∈ ((cfg0.win 7).blk t).view.set := by
  have hi0 : (i 0).val < 32768 := (i 0).isLt
  have hi1 : (i 1).val < 4 := (i 1).isLt
  let t : Fin cfg0.N := ⟨(i 0).val / 512, by show (i 0).val / 512 < 64; omega⟩
  obtain ⟨-, -, -, -, -, -, -, -, -, -, -, -, -, -, e0, e1, -⟩ := block_index t
  refine ⟨t, flush0_7 t, ?_⟩
  rw [mem_hidden_block]
  intro a
  match a with
  | ⟨0, _⟩ => show win0_7.index t (0 : Fin 2) * 512 ≤ (i 0).val ∧ (i 0).val < win0_7.index t (0 : Fin 2) * 512 + 512
              rw [e0]; show (i 0).val / 512 * 512 ≤ (i 0).val ∧ (i 0).val < (i 0).val / 512 * 512 + 512; omega
  | ⟨1, _⟩ => show win0_7.index t (1 : Fin 2) * 4 ≤ (i 1).val ∧ (i 1).val < win0_7.index t (1 : Fin 2) * 4 + 4; omega

/-! ## The result arrays after the run -/

theorem cell_final (c : Dev nD) : (points m 0 c).arrAt 8 cfg0.N = cellOf m c :=
  (points m 0 c).arrAt_eq_of_cover 8 (cellOf m c) (fun t _ => cell_flushed m c t) cell_cover

theorem hidden_final (c : Dev nD) : (points m 0 c).arrAt 7 cfg0.N = hiddenOf m c :=
  (points m 0 c).arrAt_eq_of_cover 7 (hiddenOf m c) (fun t _ => hidden_flushed m c t) hidden_cover

/-- The idealized kernel's run, its two results named as the new hidden and cell states of the launch contents. -/
theorem kernel_run : θ_run defs (onTc (τ := τ) (main (F := Ideal))) ⟨m, fun _ => 0, ρ⟩ (fun r => ∀ c : Dev nD,
      (r.2.mem ((c.tc : Thread nD τ).loc main_v11_0) = hiddenOf m c
      ∧ r.2.mem ((c.tc : Thread nD τ).loc main_v11_1) = cellOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨⟨(h c).1.1.trans (hidden_final m c), (h c).1.2.trans (cell_final m c)⟩, (h c).2⟩)
    (run_named m ρ)

end Cert.KernelIdeal.Cell

end
-- ==== Proof.CellReference.lean ====
/-
  THE REFERENCE READ AT AN INDEX, in exact (extended-real) arithmetic.

  The reference joins each input row x_r (4096 entries) and hidden row h_r (4 entries) into one row of 4100 and, for
  each of four gates (forget, input, candidate, output) with weights W (4 x 4100), bias b and phase th, forms for wire j
  the angle  a_j = (sum over k < 4100 of [x_r, h_r]_k * W_{j,k}) + b_j + th_j,  takes c_j = cos a_j, and stacks the
  four left-associated products  c1 c2 c3,  c0 c1,  c0 c1 c2,  c0 c1 c2 c3  as the gate's four entries. The forget,
  input and output gates are squashed by  1 / (1 + exp (-z)),  the candidate gate by tanh; the new cell entry is
  f * c + i * g  and the new hidden entry  o * tanh (f * c + i * g).

  Read entry by entry: the sum over the 4100 joined columns is the sum over the 4096 input columns plus the sum over
  the four hidden columns (addition of extended reals is a commutative monoid, so no finiteness is asked);
  1 / (1 + exp (-z))  is the logistic function by definition, the word 0x3F800000 being the number one; and the four
  gates are one and the same chain of operations on four sets of arguments, so one gate is read once, for any weights,
  bias and phase, and the other three follow by substitution. Conclusion: the reference's two results are the arrays
  cellArray and hiddenArray of the argument arrays.
-/
import proofs.«164261_j65481071399076_1_alg».proof.Proof.Gen.ReferenceIdeal.Read
import proofs.«164261_j65481071399076_1_alg».proof.Proof.CellSpec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal
import Idealize.ShloMosaic.PureOps.Ideal.Laws

set_option maxRecDepth 16384

noncomputable section

open scoped BigOperators

namespace Cert.ReferenceIdeal.RefCell

open Idealize.ShloMosaic Idealize.ShloMosaic.ValueIdx
open Cert.ReferenceIdeal Cert.ReferenceIdeal.Gen Cert.ReferenceIdeal.Read Cert.CellSpec

/-! ## The joined row [x, h] read at a column -/

/-- Left of column 4096 the joined row is the input row. -/
theorem joined_wide (x0 : (⟨S32768x4096, .f32⟩ : BufTy).Contents (Elt Ideal)) (x1 : (⟨S32768x4, .f32⟩ : BufTy).Contents (Elt Ideal)) (r : Fin 32768) (k : Fin 4096) :
    val_main_v0 (F := Ideal) x0 x1 (ix2 r (⟨k.val, by omega⟩ : Fin 4100)) = x0 (ix2 r k) := by
  unfold val_main_v0
  exact concatenate_pair_apply_left (1 : Fin S32768x4100.rank) x0 x1 _ _ rfl (ix2 r k)
    (fun b => match b with | ⟨0, _⟩ => rfl | ⟨1, _⟩ => rfl)

/-- From column 4096 on the joined row is the hidden row, 4096 columns earlier. -/
theorem joined_hidden (x0 : (⟨S32768x4096, .f32⟩ : BufTy).Contents (Elt Ideal)) (x1 : (⟨S32768x4, .f32⟩ : BufTy).Contents (Elt Ideal)) (r : Fin 32768) (k : Fin 4) :
    val_main_v0 (F := Ideal) x0 x1 (ix2 r (⟨4096 + k.val, by omega⟩ : Fin 4100)) = x1 (ix2 r k) := by
  unfold val_main_v0
  exact concatenate_pair_apply_right (1 : Fin S32768x4100.rank) x0 x1 _ _ rfl rfl (ix2 r k)
    (fun b hb => match b, hb with | ⟨0, _⟩, _ => rfl | ⟨1, _⟩, hb => absurd rfl hb)
    (by show k.val + 4096 = 4096 + k.val; omega)

/-! ## Where the stages of one gate read their operands -/

theorem lhs_at (r : Fin 32768) (j : Fin 4) (k : Fin 4100) : lidx_main_v2 (ix2 r j) k = ix2 r k :=
  funext fun a => match a with | ⟨0, _⟩ => rfl | ⟨1, _⟩ => rfl

theorem rhs_at (r : Fin 32768) (j : Fin 4) (k : Fin 4100) : idx_main_v1 (ridx_main_v2 (ix2 r j) k) = ix2 j k :=
  funext fun a => match a with | ⟨0, _⟩ => rfl | ⟨1, _⟩ => rfl

theorem bias_at (r : Fin 32768) (j : Fin 4) : idx_main_v3 (idx_main_v4 (ix2 r j)) = ix1 j :=
  funext fun a => match a with | ⟨0, _⟩ => rfl

theorem phase_at (r : Fin 32768) (j : Fin 4) : idx_main_v6 (idx_main_v7 (ix2 r j)) = ix1 j :=
  funext fun a => match a with | ⟨0, _⟩ => rfl

/-! ## One gate: the cosine of a wire's angle -/

/-- The cosine stage at row r, wire j: the 4100-term product sum splits into the input part and the hidden part,
    then bias and phase are added. -/
theorem wire_cos (x0 : (⟨S32768x4096, .f32⟩ : BufTy).Contents (Elt Ideal)) (x1 : (⟨S32768x4, .f32⟩ : BufTy).Contents (Elt Ideal)) (W : (⟨S4x4100, .f32⟩ : BufTy).Contents (Elt Ideal)) (b t : (⟨S4, .f32⟩ : BufTy).Contents (Elt Ideal)) (r : Fin 32768) (j : Fin 4) :
    val_main_v9 (F := Ideal) x0 x1 W b t (ix2 r j)
      = Ideal.cos (angle (fun k => x0 (ix2 r k)) (fun k => x1 (ix2 r k)) (argWx W) (argWh W) (argVec b) (argVec t) j) := by
  rw [val_main_v9_apply, val_main_v8_apply, val_main_v5_apply, val_main_v2_apply, val_main_v7_apply, val_main_v6_apply,
    val_main_v4_apply, val_main_v3_apply]
  simp only [val_main_v1_apply, lhs_at, rhs_at, bias_at, phase_at]
  rw [sum_wide_then_hidden]
  simp only [joined_wide, joined_hidden, Ideal.addf_def, Ideal.hostUnary_cos_def]
  rfl

/-! ## One gate: wires, products, columns -/

/-! Wire j of a row is column j of the cosine stage (a one-column slice, flattened). -/

theorem wire0_at (x0 : (⟨S32768x4096, .f32⟩ : BufTy).Contents (Elt Ideal)) (x1 : (⟨S32768x4, .f32⟩ : BufTy).Contents (Elt Ideal)) (W : (⟨S4x4100, .f32⟩ : BufTy).Contents (Elt Ideal)) (b t : (⟨S4, .f32⟩ : BufTy).Contents (Elt Ideal)) (r : Fin 32768) :
    val_main_v11 (F := Ideal) x0 x1 W b t (ix1 r) = val_main_v9 (F := Ideal) x0 x1 W b t (ix2 r (0 : Fin 4)) := by
  rw [val_main_v11_apply, val_main_v10_apply]
  refine congrArg _ (funext fun a => ?_)
  match a with
  | ⟨0, _⟩ => exact Fin.ext (Nat.div_one _)
  | ⟨1, _⟩ => rfl

theorem wire1_at (x0 : (⟨S32768x4096, .f32⟩ : BufTy).Contents (Elt Ideal)) (x1 : (⟨S32768x4, .f32⟩ : BufTy).Contents (Elt Ideal)) (W : (⟨S4x4100, .f32⟩ : BufTy).Contents (Elt Ideal)) (b t : (⟨S4, .f32⟩ : BufTy).Contents (Elt Ideal)) (r : Fin 32768) :
    val_main_v13 (F := Ideal) x0 x1 W b t (ix1 r) = val_main_v9 (F := Ideal) x0 x1 W b t (ix2 r (1 : Fin 4)) := by
  rw [val_main_v13_apply, val_main_v12_apply]
  refine congrArg _ (funext fun a => ?_)
  match a with
  | ⟨0, _⟩ => exact Fin.ext (Nat.div_one _)
  | ⟨1, _⟩ => rfl

theorem wire2_at (x0 : (⟨S32768x4096, .f32⟩ : BufTy).Contents (Elt Ideal)) (x1 : (⟨S32768x4, .f32⟩ : BufTy).Contents (Elt Ideal)) (W : (⟨S4x4100, .f32⟩ : BufTy).Contents (Elt Ideal)) (b t : (⟨S4, .f32⟩ : BufTy).Contents (Elt Ideal)) (r : Fin 32768) :
    val_main_v15 (F := Ideal) x0 x1 W b t (ix1 r) = val_main_v9 (F := Ideal) x0 x1 W b t (ix2 r (2 : Fin 4)) := by
  rw [val_main_v15_apply, val_main_v14_apply]
  refine congrArg _ (funext fun a => ?_)
  match a with
  | ⟨0, _⟩ => exact Fin.ext (Nat.div_one _)
  | ⟨1, _⟩ => rfl

theorem wire3_at (x0 : (⟨S32768x4096, .f32⟩ : BufTy).Contents (Elt Ideal)) (x1 : (⟨S32768x4, .f32⟩ : BufTy).Contents (Elt Ideal)) (W : (⟨S4x4100, .f32⟩ : BufTy).Contents (Elt Ideal)) (b t : (⟨S4, .f32⟩ : BufTy).Contents (Elt Ideal)) (r : Fin 32768) :
    val_main_v17 (F := Ideal) x0 x1 W b t (ix1 r) = val_main_v9 (F := Ideal) x0 x1 W b t (ix2 r (3 : Fin 4)) := by
  rw [val_main_v17_apply, val_main_v16_apply]
  refine congrArg _ (funext fun a => ?_)
  match a with
  | ⟨0, _⟩ => exact Fin.ext (Nat.div_one _)
  | ⟨1, _⟩ => rfl

/-! A product of wires, widened to one column, read at its row. -/

theorem col0_at (x0 : (⟨S32768x4096, .f32⟩ : BufTy).Contents (Elt Ideal)) (x1 : (⟨S32768x4, .f32⟩ : BufTy).Contents (Elt Ideal)) (W : (⟨S4x4100, .f32⟩ : BufTy).Contents (Elt Ideal)) (b t : (⟨S4, .f32⟩ : BufTy).Contents (Elt Ideal)) (r : Fin 32768) :
    val_main_v26 (F := Ideal) x0 x1 W b t (ix2 r (0 : Fin 1)) = val_main_v19 (F := Ideal) x0 x1 W b t (ix1 r) := by
  rw [val_main_v26_apply]
  exact congrArg _ (funext fun a => match a with | ⟨0, _⟩ => rfl)

theorem col1_at (x0 : (⟨S32768x4096, .f32⟩ : BufTy).Contents (Elt Ideal)) (x1 : (⟨S32768x4, .f32⟩ : BufTy).Contents (Elt Ideal)) (W : (⟨S4x4100, .f32⟩ : BufTy).Contents (Elt Ideal)) (b t : (⟨S4, .f32⟩ : BufTy).Contents (Elt Ideal)) (r : Fin 32768) :
    val_main_v27 (F := Ideal) x0 x1 W b t (ix2 r (0 : Fin 1)) = val_main_v20 (F := Ideal) x0 x1 W b t (ix1 r) := by
  rw [val_main_v27_apply]
  exact congrArg _ (funext fun a => match a with | ⟨0, _⟩ => rfl)

theorem col2_at (x0 : (⟨S32768x4096, .f32⟩ : BufTy).Contents (Elt Ideal)) (x1 : (⟨S32768x4, .f32⟩ : BufTy).Contents (Elt Ideal)) (W : (⟨S4x4100, .f32⟩ : BufTy).Contents (Elt Ideal)) (b t : (⟨S4, .f32⟩ : BufTy).Contents (Elt Ideal)) (r : Fin 32768) :
    val_main_v28 (F := Ideal) x0 x1 W b t (ix2 r (0 : Fin 1)) = val_main_v22 (F := Ideal) x0 x1 W b t (ix1 r) := by
  rw [val_main_v28_apply]
  exact congrArg _ (funext fun a => match a with | ⟨0, _⟩ => rfl)

theorem col3_at (x0 : (⟨S32768x4096, .f32⟩ : BufTy).Contents (Elt Ideal)) (x1 : (⟨S32768x4, .f32⟩ : BufTy).Contents (Elt Ideal)) (W : (⟨S4x4100, .f32⟩ : BufTy).Contents (Elt Ideal)) (b t : (⟨S4, .f32⟩ : BufTy).Contents (Elt Ideal)) (r : Fin 32768) :
    val_main_v29 (F := Ideal) x0 x1 W b t (ix2 r (0 : Fin 1)) = val_main_v25 (F := Ideal) x0 x1 W b t (ix1 r) := by
  rw [val_main_v29_apply]
  exact congrArg _ (funext fun a => match a with | ⟨0, _⟩ => rfl)

/-- Four one-column arrays stacked along axis 1, read at row r, entry q: column q at row r. -/
theorem stack4_at (c0 c1 c2 c3 : (⟨S32768x1, .f32⟩ : BufTy).Contents (Elt Ideal)) (r : Fin 32768) (q : Fin 4) :
    concatenate S32768x4 1 [⟨S32768x1, c0⟩, ⟨S32768x1, c1⟩, ⟨S32768x1, c2⟩, ⟨S32768x1, c3⟩]
        concatenates_S32768x1_S32768x1_S32768x1_S32768x1_S32768x4_d1 (ix2 r q)
      = (match q with | 0 => c0 | 1 => c1 | 2 => c2 | 3 => c3) (ix2 r (0 : Fin 1)) := by
  match q with
  | ⟨0, _⟩ =>
    exact concatenate_apply_piece (1 : Fin S32768x4.rank)
      [⟨S32768x1, c0⟩, ⟨S32768x1, c1⟩, ⟨S32768x1, c2⟩, ⟨S32768x1, c3⟩] _ _ 0 (show (0 : Nat) < 4 by decide) S32768x1 c0 rfl rfl 0 rfl
      (ix2 r (0 : Fin 1)) (fun b hb => match b, hb with | ⟨0, _⟩, _ => rfl | ⟨1, _⟩, hb => absurd rfl hb) rfl
  | ⟨1, _⟩ =>
    exact concatenate_apply_piece (1 : Fin S32768x4.rank)
      [⟨S32768x1, c0⟩, ⟨S32768x1, c1⟩, ⟨S32768x1, c2⟩, ⟨S32768x1, c3⟩] _ _ 1 (show (1 : Nat) < 4 by decide) S32768x1 c1 rfl rfl 1 rfl
      (ix2 r (0 : Fin 1)) (fun b hb => match b, hb with | ⟨0, _⟩, _ => rfl | ⟨1, _⟩, hb => absurd rfl hb) rfl
  | ⟨2, _⟩ =>
    exact concatenate_apply_piece (1 : Fin S32768x4.rank)
      [⟨S32768x1, c0⟩, ⟨S32768x1, c1⟩, ⟨S32768x1, c2⟩, ⟨S32768x1, c3⟩] _ _ 2 (show (2 : Nat) < 4 by decide) S32768x1 c2 rfl rfl 2 rfl
      (ix2 r (0 : Fin 1)) (fun b hb => match b, hb with | ⟨0, _⟩, _ => rfl | ⟨1, _⟩, hb => absurd rfl hb) rfl
  | ⟨3, _⟩ =>
    exact concatenate_apply_piece (1 : Fin S32768x4.rank)
      [⟨S32768x1, c0⟩, ⟨S32768x1, c1⟩, ⟨S32768x1, c2⟩, ⟨S32768x1, c3⟩] _ _ 3 (show (3 : Nat) < 4 by decide) S32768x1 c3 rfl rfl 3 rfl
      (ix2 r (0 : Fin 1)) (fun b hb => match b, hb with | ⟨0, _⟩, _ => rfl | ⟨1, _⟩, hb => absurd rfl hb) rfl

/-- One gate before squashing, at row r, entry q: the product of cosines that entry q is. -/
theorem gate_at (x0 : (⟨S32768x4096, .f32⟩ : BufTy).Contents (Elt Ideal)) (x1 : (⟨S32768x4, .f32⟩ : BufTy).Contents (Elt Ideal)) (W : (⟨S4x4100, .f32⟩ : BufTy).Contents (Elt Ideal)) (b t : (⟨S4, .f32⟩ : BufTy).Contents (Elt Ideal)) (r : Fin 32768) (q : Fin 4) :
    val_main_v30 (F := Ideal) x0 x1 W b t (ix2 r q)
      = gate (fun k => x0 (ix2 r k)) (fun k => x1 (ix2 r k)) (argWx W) (argWh W) (argVec b) (argVec t) q := by
  unfold val_main_v30
  rw [stack4_at]
  match q with
  | ⟨0, _⟩ =>
    show val_main_v26 (F := Ideal) x0 x1 W b t (ix2 r (0 : Fin 1)) = _
    rw [col0_at, val_main_v19_apply, val_main_v18_apply, wire1_at, wire2_at, wire3_at, wire_cos, wire_cos, wire_cos]
    rfl
  | ⟨1, _⟩ =>
    show val_main_v27 (F := Ideal) x0 x1 W b t (ix2 r (0 : Fin 1)) = _
    rw [col1_at, val_main_v20_apply, wire0_at, wire1_at, wire_cos, wire_cos]
    rfl
  | ⟨2, _⟩ =>
    show val_main_v28 (F := Ideal) x0 x1 W b t (ix2 r (0 : Fin 1)) = _
    rw [col2_at, val_main_v22_apply, val_main_v21_apply, wire0_at, wire1_at, wire2_at, wire_cos, wire_cos, wire_cos]
    rfl
  | ⟨3, _⟩ =>
    show val_main_v29 (F := Ideal) x0 x1 W b t (ix2 r (0 : Fin 1)) = _
    rw [col3_at, val_main_v25_apply, val_main_v24_apply, val_main_v23_apply, wire0_at, wire1_at, wire2_at, wire3_at,
      wire_cos, wire_cos, wire_cos, wire_cos]
    rfl

/-- The squashed gate: one over one plus the exponential of the negated gate, which is the logistic function. -/
theorem squashed_at (x0 : (⟨S32768x4096, .f32⟩ : BufTy).Contents (Elt Ideal)) (x1 : (⟨S32768x4, .f32⟩ : BufTy).Contents (Elt Ideal)) (W : (⟨S4x4100, .f32⟩ : BufTy).Contents (Elt Ideal)) (b t : (⟨S4, .f32⟩ : BufTy).Contents (Elt Ideal)) (r : Fin 32768) (q : Fin 4) :
    val_main_v36 (F := Ideal) x0 x1 W b t (ix2 r q)
      = Ideal.logistic (gate (fun k => x0 (ix2 r k)) (fun k => x1 (ix2 r k)) (argWx W) (argWh W) (argVec b) (argVec t) q) := by
  rw [val_main_v36_apply, val_main_v35_apply, val_main_cst_0_apply, val_main_v34_apply, val_main_v33_apply,
    val_main_cst_apply, val_main_v32_apply, val_main_v31_apply, gate_at]
  simp only [Ideal.hostDivf_def, Ideal.addf_def, Ideal.hostUnary_exp_def, Ideal.hostNegf_def, Ideal.negf_def,
    Ideal.ofBits_def, Ideal.ofBits_one_f32]
  rfl

/-! ## The four gates are one chain on four sets of arguments -/

/-- The input gate's chain is the forget gate's chain, read on the input gate's weights, bias and phase. -/
theorem input_gate_eq (x0 : (⟨S32768x4096, .f32⟩ : BufTy).Contents (Elt Ideal)) (x1 : (⟨S32768x4, .f32⟩ : BufTy).Contents (Elt Ideal)) (W : (⟨S4x4100, .f32⟩ : BufTy).Contents (Elt Ideal)) (b t : (⟨S4, .f32⟩ : BufTy).Contents (Elt Ideal)) :
    val_main_v72 (F := Ideal) x0 x1 W b t = val_main_v36 (F := Ideal) x0 x1 W b t := rfl

/-- The candidate gate's chain before its squashing, likewise. -/
theorem candidate_gate_eq (x0 : (⟨S32768x4096, .f32⟩ : BufTy).Contents (Elt Ideal)) (x1 : (⟨S32768x4, .f32⟩ : BufTy).Contents (Elt Ideal)) (W : (⟨S4x4100, .f32⟩ : BufTy).Contents (Elt Ideal)) (b t : (⟨S4, .f32⟩ : BufTy).Contents (Elt Ideal)) :
    val_main_v102 (F := Ideal) x0 x1 W b t = val_main_v30 (F := Ideal) x0 x1 W b t := rfl

/-- The output gate's chain, likewise. -/
theorem output_gate_eq (x0 : (⟨S32768x4096, .f32⟩ : BufTy).Contents (Elt Ideal)) (x1 : (⟨S32768x4, .f32⟩ : BufTy).Contents (Elt Ideal)) (W : (⟨S4x4100, .f32⟩ : BufTy).Contents (Elt Ideal)) (b t : (⟨S4, .f32⟩ : BufTy).Contents (Elt Ideal)) :
    val_main_v139 (F := Ideal) x0 x1 W b t = val_main_v36 (F := Ideal) x0 x1 W b t := rfl

theorem input_gate_at (x0 : (⟨S32768x4096, .f32⟩ : BufTy).Contents (Elt Ideal)) (x1 : (⟨S32768x4, .f32⟩ : BufTy).Contents (Elt Ideal)) (W : (⟨S4x4100, .f32⟩ : BufTy).Contents (Elt Ideal)) (b t : (⟨S4, .f32⟩ : BufTy).Contents (Elt Ideal)) (r : Fin 32768) (q : Fin 4) :
    val_main_v72 (F := Ideal) x0 x1 W b t (ix2 r q) = Ideal.logistic (gate (fun k => x0 (ix2 r k)) (fun k => x1 (ix2 r k)) (argWx W) (argWh W) (argVec b) (argVec t) q) :=
  (congrFun (input_gate_eq x0 x1 W b t) (ix2 r q)).trans (squashed_at x0 x1 W b t r q)

theorem candidate_gate_at (x0 : (⟨S32768x4096, .f32⟩ : BufTy).Contents (Elt Ideal)) (x1 : (⟨S32768x4, .f32⟩ : BufTy).Contents (Elt Ideal)) (W : (⟨S4x4100, .f32⟩ : BufTy).Contents (Elt Ideal)) (b t : (⟨S4, .f32⟩ : BufTy).Contents (Elt Ideal)) (r : Fin 32768) (q : Fin 4) :
    val_main_v103 (F := Ideal) x0 x1 W b t (ix2 r q) = Ideal.tanh (gate (fun k => x0 (ix2 r k)) (fun k => x1 (ix2 r k)) (argWx W) (argWh W) (argVec b) (argVec t) q) := by
  rw [val_main_v103_apply, candidate_gate_eq, gate_at]
  rfl

theorem output_gate_at (x0 : (⟨S32768x4096, .f32⟩ : BufTy).Contents (Elt Ideal)) (x1 : (⟨S32768x4, .f32⟩ : BufTy).Contents (Elt Ideal)) (W : (⟨S4x4100, .f32⟩ : BufTy).Contents (Elt Ideal)) (b t : (⟨S4, .f32⟩ : BufTy).Contents (Elt Ideal)) (r : Fin 32768) (q : Fin 4) :
    val_main_v139 (F := Ideal) x0 x1 W b t (ix2 r q) = Ideal.logistic (gate (fun k => x0 (ix2 r k)) (fun k => x1 (ix2 r k)) (argWx W) (argWh W) (argVec b) (argVec t) q) :=
  (congrFun (output_gate_eq x0 x1 W b t) (ix2 r q)).trans (squashed_at x0 x1 W b t r q)

/-! ## The new cell state and the new hidden state -/

/-- The reference's new cell state at row `r`, entry `q`, is the row formula of the argument arrays. -/
theorem ref_cell_apply (x0 : (⟨S32768x4096, .f32⟩ : BufTy).Contents (Elt Ideal)) (x1 x2 : (⟨S32768x4, .f32⟩ : BufTy).Contents (Elt Ideal)) (x3 : (⟨S4x4100, .f32⟩ : BufTy).Contents (Elt Ideal)) (x4 x5 : (⟨S4, .f32⟩ : BufTy).Contents (Elt Ideal)) (x6 : (⟨S4x4100, .f32⟩ : BufTy).Contents (Elt Ideal)) (x7 x8 : (⟨S4, .f32⟩ : BufTy).Contents (Elt Ideal)) (x9 : (⟨S4x4100, .f32⟩ : BufTy).Contents (Elt Ideal)) (x10 x11 : (⟨S4, .f32⟩ : BufTy).Contents (Elt Ideal)) (r : Fin 32768) (q : Fin 4) :
    val_main_v142 (F := Ideal) x0 x1 x2 x3 x4 x5 x6 x7 x8 x9 x10 x11 (ix2 r q)
      = cellAt x0 x1 x2 x3 x4 x5 x6 x7 x8 x9 x10 x11 r q := by
  rw [val_main_v142_apply, val_main_v140_apply, val_main_v141_apply, squashed_at, input_gate_at, candidate_gate_at]
  rfl

/-- The reference's new hidden state at row `r`, entry `q`, likewise. -/
theorem ref_hidden_apply (x0 : (⟨S32768x4096, .f32⟩ : BufTy).Contents (Elt Ideal)) (x1 x2 : (⟨S32768x4, .f32⟩ : BufTy).Contents (Elt Ideal)) (x3 : (⟨S4x4100, .f32⟩ : BufTy).Contents (Elt Ideal)) (x4 x5 : (⟨S4, .f32⟩ : BufTy).Contents (Elt Ideal)) (x6 : (⟨S4x4100, .f32⟩ : BufTy).Contents (Elt Ideal)) (x7 x8 : (⟨S4, .f32⟩ : BufTy).Contents (Elt Ideal)) (x9 : (⟨S4x4100, .f32⟩ : BufTy).Contents (Elt Ideal)) (x10 x11 : (⟨S4, .f32⟩ : BufTy).Contents (Elt Ideal)) (x12 : (⟨S4x4100, .f32⟩ : BufTy).Contents (Elt Ideal)) (x13 x14 : (⟨S4, .f32⟩ : BufTy).Contents (Elt Ideal)) (r : Fin 32768) (q : Fin 4) :
    val_main_v144 (F := Ideal) x0 x1 x2 x3 x4 x5 x6 x7 x8 x9 x10 x11 x12 x13 x14 (ix2 r q)
      = hiddenAt x0 x1 x2 x3 x4 x5 x6 x7 x8 x9 x10 x11 x12 x13 x14 r q := by
  rw [val_main_v144_apply, val_main_v143_apply, output_gate_at, ref_cell_apply]
  rfl

/-- As whole arrays. -/
theorem ref_cell (x0 : (⟨S32768x4096, .f32⟩ : BufTy).Contents (Elt Ideal)) (x1 x2 : (⟨S32768x4, .f32⟩ : BufTy).Contents (Elt Ideal)) (x3 : (⟨S4x4100, .f32⟩ : BufTy).Contents (Elt Ideal)) (x4 x5 : (⟨S4, .f32⟩ : BufTy).Contents (Elt Ideal)) (x6 : (⟨S4x4100, .f32⟩ : BufTy).Contents (Elt Ideal)) (x7 x8 : (⟨S4, .f32⟩ : BufTy).Contents (Elt Ideal)) (x9 : (⟨S4x4100, .f32⟩ : BufTy).Contents (Elt Ideal)) (x10 x11 : (⟨S4, .f32⟩ : BufTy).Contents (Elt Ideal)) :
    val_main_v142 (F := Ideal) x0 x1 x2 x3 x4 x5 x6 x7 x8 x9 x10 x11 = cellArray x0 x1 x2 x3 x4 x5 x6 x7 x8 x9 x10 x11 := by
  funext i
  obtain ⟨r, q, rfl⟩ : ∃ (r : Fin 32768) (q : Fin 4), i = ix2 r q := ⟨i 0, i 1, eq_ix2 i⟩
  exact ref_cell_apply x0 x1 x2 x3 x4 x5 x6 x7 x8 x9 x10 x11 r q

theorem ref_hidden (x0 : (⟨S32768x4096, .f32⟩ : BufTy).Contents (Elt Ideal)) (x1 x2 : (⟨S32768x4, .f32⟩ : BufTy).Contents (Elt Ideal)) (x3 : (⟨S4x4100, .f32⟩ : BufTy).Contents (Elt Ideal)) (x4 x5 : (⟨S4, .f32⟩ : BufTy).Contents (Elt Ideal)) (x6 : (⟨S4x4100, .f32⟩ : BufTy).Contents (Elt Ideal)) (x7 x8 : (⟨S4, .f32⟩ : BufTy).Contents (Elt Ideal)) (x9 : (⟨S4x4100, .f32⟩ : BufTy).Contents (Elt Ideal)) (x10 x11 : (⟨S4, .f32⟩ : BufTy).Contents (Elt Ideal)) (x12 : (⟨S4x4100, .f32⟩ : BufTy).Contents (Elt Ideal)) (x13 x14 : (⟨S4, .f32⟩ : BufTy).Contents (Elt Ideal)) :
    val_main_v144 (F := Ideal) x0 x1 x2 x3 x4 x5 x6 x7 x8 x9 x10 x11 x12 x13 x14
      = hiddenArray x0 x1 x2 x3 x4 x5 x6 x7 x8 x9 x10 x11 x12 x13 x14 := by
  funext i
  obtain ⟨r, q, rfl⟩ : ∃ (r : Fin 32768) (q : Fin 4), i = ix2 r q := ⟨i 0, i 1, eq_ix2 i⟩
  exact ref_hidden_apply x0 x1 x2 x3 x4 x5 x6 x7 x8 x9 x10 x11 x12 x13 x14 r q

end Cert.ReferenceIdeal.RefCell

end
-- ==== Proof.lean ====
/-
  The certificate of a recurrent cell with four cosine-product gates: a Pallas kernel over 64 row tiles against the
  plain array program.

  Both programs compute, for each of 32768 rows and each of four gates, the affine pre-activations of the row — the 4096
  wide inputs and the four previous hidden values against the gate's 4×4100 weights, plus bias — add the gate's phases,
  take cosines, form four fixed products of them, squash (three gates by the logistic function, one by tanh), and combine:
  new cell = forget·previous + input·candidate, new hidden = output·tanh(new cell). The kernel stacks the four gates'
  weights into 16 columns and contracts the wide input and the hidden state separately (4096 + 4 terms) in a narrower
  float format; the reference joins input and hidden state and contracts 4100 terms per gate. On the extended reals a
  change of format is the identity and a sum over 4100 terms is the sum over the first 4096 plus the sum over the last
  four, so the two results are one function of the arguments, entry by entry; no finiteness is used.

  The three frames: each kernel program is eleven host operations, none writing an argument, followed by one pipelined
  region whose body reads seven staged blocks and stores two; the reference is a straight line of host operations.
  The idealization rewrote nothing, so `preserves` asks nothing.
-/
import proofs.«164261_j65481071399076_1_alg».proof.Defs
import proofs.«164261_j65481071399076_1_alg».proof.Proof.Gen.Kernel
import proofs.«164261_j65481071399076_1_alg».proof.Proof.Gen.KernelIdeal
import proofs.«164261_j65481071399076_1_alg».proof.Proof.Gen.ReferenceIdeal
import proofs.«164261_j65481071399076_1_alg».proof.Proof.Gen.ReferenceIdeal.Run
import proofs.«164261_j65481071399076_1_alg».proof.Proof.Gen.ReferenceIdeal.Read
import proofs.«164261_j65481071399076_1_alg».proof.Proof.Gen.Pre_finite_inputs
import proofs.«164261_j65481071399076_1_alg».proof.Proof.CellRunBits
import proofs.«164261_j65481071399076_1_alg».proof.Proof.CellArrays
import proofs.«164261_j65481071399076_1_alg».proof.Proof.CellReference

noncomputable section

namespace Cert.Proof

open Idealize.ShloMosaic Idealize.SL.Sem

/-- The kernel as printed runs to the end and leaves its arguments unchanged. -/
theorem frame_kernel : Cert.frame_Kernel :=
  fun m ρ _ => Cert.Kernel.Cell.frame m ρ

/-- So does its idealization. -/
theorem frame_kernel_ideal : Cert.frame_KernelIdeal :=
  fun m ρ _ => Cert.KernelIdeal.Cell.frame m ρ

/-- And the reference: its run with the two results dropped. -/
theorem frame_reference : Cert.frame_ReferenceIdeal :=
  fun m ρ _ => (θ_run Cert.ReferenceIdeal.defs _ _).mono (fun _ h c => (h c).2.2)
    (Cert.ReferenceIdeal.Value.run (F := Ideal) m ρ)

/-- From memories agreeing on the fifteen arguments both idealized programs end with the new hidden state and the new
    cell state of those arguments. -/
theorem algebraic : Cert.algebraic_KernelIdeal_ReferenceIdeal := by
  intro m ρ m' ρ' _ hagree
  refine ⟨fun c => Cert.KernelIdeal.Cell.hiddenOf m c, fun c => Cert.KernelIdeal.Cell.cellOf m c, ?_, ?_⟩
  · exact (θ_run Cert.KernelIdeal.defs _ _).mono (fun _ h c => ⟨(h c).1.1, (h c).1.2, (h c).2⟩)
      (Cert.KernelIdeal.Cell.kernel_run m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14⟩ := hagree c
      rw [Cert.ReferenceIdeal.Read.val_main_v144_eq, Cert.ReferenceIdeal.RefCell.ref_hidden,
        h0, h1, h2, h3, h4, h5, h6, h7, h8, h9, h10, h11, h12, h13, h14]
    · obtain ⟨h0, h1, h2, h3, h4, h5, h6, h7, h8, h9, h10, h11, h12, h13, h14⟩ := hagree c
      rw [Cert.ReferenceIdeal.Read.val_main_v142_eq, Cert.ReferenceIdeal.RefCell.ref_cell,
        h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
